-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512 : Shape := ⟨3, ![8, 128, 512]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S512x50 : Shape := ⟨2, ![512, 50]⟩
abbrev S50 : Shape := ⟨1, ![50]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S512x50 : S_.BroadcastsInDim S512x50 (![] : Fin 0 → Fin S512x50.rank)
  reducesTo_S512x50_S_d0_1 : S512x50.ReducesTo [0, 1] S_
  bcast_S_S50 : S_.BroadcastsInDim S50 (![] : Fin 0 → Fin S50.rank)
  reducesTo_S50_S_d0 : S50.ReducesTo [0] S_

variable [Facts]

def fn_part4 {F : FTy → Type} [FloatOps F] (main_arg14 : FVec F S512 .f32) (main_arg15 : FVec F S512x50 .f32) (main_arg16 : FVec F S50 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x50 .f32 := Host.absf main_arg15
  let main_cst_28 : FVec F S_ .f32 := constant S_ .f32 0x7F800000#32
  let main_v75 : FVec F S512x50 .f32 := broadcastInDim S512x50 ![] bcast_S_S512x50 main_cst_28
  let main_v76 : IVec S512x50 1 := cmpf .olt main_v74 main_v75
  let main_c_29 : IVec S_ 1 := constantI S_ 1 1#1
  let main_v77 : IVec S_ 1 := (fun x v => Host.reduce IntOp.andi x v reducesTo_S512x50_S_d0_1 h_S_) main_v76 main_c_29
  let main_v78 : IVec S_ 1 := andi main_v73 main_v77
  let main_v79 : FVec F S50 .f32 := Host.absf main_arg16
  let main_cst_30 : FVec F S_ .f32 := constant S_ .f32 0x7F800000#32
  let main_v80 : FVec F S50 .f32 := broadcastInDim S50 ![] bcast_S_S50 main_cst_30
  let main_v81 : IVec S50 1 := cmpf .olt main_v79 main_v80
  let main_c_31 : IVec S_ 1 := constantI S_ 1 1#1
  let main_v82 : IVec S_ 1 := (fun x v => Host.reduce IntOp.andi x v reducesTo_S50_S_d0 h_S_) main_v81 main_c_31
  let main_v83 : IVec S_ 1 := andi main_v78 main_v82
  main_v83

def fn_part3 {F : FTy → Type} [FloatOps F] (main_arg11 : FVec F S512x1 .f32) (main_arg12 : FVec F S1 .f32) (main_arg13 : FVec F S1024x512 .f32) (main_arg14 : FVec F S512 .f32) (main_arg15 : FVec F S512x50 .f32) (main_arg16 : FVec F S50 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x1 .f32 := Host.absf main_arg11
  let main_cst_20 : FVec F S_ .f32 := constant S_ .f32 0x7F800000#32
  let main_v55 : FVec F S512x1 .f32 := broadcastInDim S512x1 ![] bcast_S_S512x1 main_cst_20
  let main_v56 : IVec S512x1 1 := cmpf .olt main_v54 main_v55
  let main_c_21 : IVec S_ 1 := constantI S_ 1 1#1
  let main_v57 : IVec S_ 1 := (fun x v => Host.reduce IntOp.andi x v reducesTo_S512x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1024x512 .f32 := Host.absf main_arg13
  let main_cst_24 : FVec F S_ .f32 := constant S_ .f32 0x7F800000#32
  let main_v65 : FVec F S1024x512 .f32 := broadcastInDim S1024x512 ![] bcast_S_S1024x512 main_cst_24
  let main_v66 : IVec S1024x512 1 := cmpf .olt main_v64 main_v65
  let main_c_25 : IVec S_ 1 := constantI S_ 1 1#1
  let main_v67 : IVec S_ 1 := (fun x v => Host.reduce IntOp.andi x v reducesTo_S1024x512_S_d0_1 h_S_) main_v66 main_c_25
  fn_part4 (F := F) main_arg14 main_arg15 main_arg16 main_v63 main_v67

def fn_part2 {F : FTy → Type} [FloatOps F] (main_arg7 : FVec F S512x1 .f32) (main_arg8 : FVec F S1 .f32) (main_arg9 : FVec F S1024x512 .f32) (main_arg10 : FVec F S512 .f32) (main_arg11 : FVec F S512x1 .f32) (main_arg12 : FVec F S1 .f32) (main_arg13 : FVec F S1024x512 .f32) (main_arg14 : FVec F S512 .f32) (main_arg15 : FVec F S512x50 .f32) (main_arg16 : FVec F S50 .f32) (main_v33 : IVec S_ 1) : IVec S_ 1 :=
  let main_v34 : FVec F S512x1 .f32 := Host.absf main_arg7
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1024x512 .f32 := Host.absf main_arg9
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_v48 main_v49 main_v50

def fn_part1 {F : FTy → Type} [FloatOps F] (main_arg4 : FVec F S1 .f32) (main_arg5 : FVec F S1024x512 .f32) (main_arg6 : FVec F S512 .f32) (main_arg7 : FVec F S512x1 .f32) (main_arg8 : FVec F S1 .f32) (main_arg9 : FVec F S1024x512 .f32) (main_arg10 : FVec F S512 .f32) (main_arg11 : FVec F S512x1 .f32) (main_arg12 : FVec F S1 .f32) (main_arg13 : FVec F S1024x512 .f32) (main_arg14 : FVec F S512 .f32) (main_arg15 : FVec F S512x50 .f32) (main_arg16 : FVec F S50 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8x128x512 .f32) (main_arg1 : FVec F S1024x512 .f32) (main_arg2 : FVec F S512 .f32) (main_arg3 : FVec F S512x1 .f32) (main_arg4 : FVec F S1 .f32) (main_arg5 : FVec F S1024x512 .f32) (main_arg6 : FVec F S512 .f32) (main_arg7 : FVec F S512x1 .f32) (main_arg8 : FVec F S1 .f32) (main_arg9 : FVec F S1024x512 .f32) (main_arg10 : FVec F S512 .f32) (main_arg11 : FVec F S512x1 .f32) (main_arg12 : FVec F S1 .f32) (main_arg13 : FVec F S1024x512 .f32) (main_arg14 : FVec F S512 .f32) (main_arg15 : FVec F S512x50 .f32) (main_arg16 : FVec F S50 .f32) : IVec S_ 1 :=
  let main_v0 : FVec F S8x128x512 .f32 := Host.absf main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8x128x512 : Shape := ⟨3, ![8, 128, 512]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S512x50 : Shape := ⟨2, ![512, 50]⟩
abbrev S50 : Shape := ⟨1, ![50]⟩
abbrev S1x512 : Shape := ⟨2, ![1, 512]⟩
abbrev S1x128x512 : Shape := ⟨3, ![1, 128, 512]⟩
abbrev S128x512 : Shape := ⟨2, ![128, 512]⟩
abbrev S512x512 : Shape := ⟨2, ![512, 512]⟩
abbrev S1x1 : Shape := ⟨2, ![1, 1]⟩
abbrev S1x50 : Shape := ⟨2, ![1, 50]⟩
abbrev S8x128x128 : Shape := ⟨3, ![8, 128, 128]⟩
abbrev S8x128x128x50 : Shape := ⟨4, ![8, 128, 128, 50]⟩
abbrev S1x32x512 : Shape := ⟨3, ![1, 32, 512]⟩
abbrev S1x32x128 : Shape := ⟨3, ![1, 32, 128]⟩
abbrev S1x32x128x50 : Shape := ⟨4, ![1, 32, 128, 50]⟩
abbrev S32x512 : Shape := ⟨2, ![32, 512]⟩
abbrev S32x1x512 : Shape := ⟨3, ![32, 1, 512]⟩
abbrev S32x128x512 : Shape := ⟨3, ![32, 128, 512]⟩
abbrev S4096x512 : Shape := ⟨2, ![4096, 512]⟩
abbrev S4096x1 : Shape := ⟨2, ![4096, 1]⟩
abbrev S32x128x1 : Shape := ⟨3, ![32, 128, 1]⟩
abbrev S32x128 : Shape := ⟨2, ![32, 128]⟩
abbrev S4096x50 : Shape := ⟨2, ![4096, 50]⟩
abbrev S32x128x50 : Shape := ⟨3, ![32, 128, 50]⟩
abbrev S128x128 : Shape := ⟨2, ![128, 128]⟩
abbrev S_ : Shape := ⟨0, ![]⟩

abbrev nBuf : Space → Nat
  | .hbm => 70
  | .vmem => 58
  | .smem => 0
  | _ => 0

abbrev bufTy : (tb : Table) → Fin (tcTables nBuf tb) → BufTy
  | .hbm, ⟨0, _⟩ => ⟨S8x128x512, .f32⟩
  | .hbm, ⟨1, _⟩ => ⟨S1024x512, .f32⟩
  | .hbm, ⟨2, _⟩ => ⟨S512, .f32⟩
  | .hbm, ⟨3, _⟩ => ⟨S512x1, .f32⟩
  | .hbm, ⟨4, _⟩ => ⟨S1, .f32⟩
  | .hbm, ⟨5, _⟩ => ⟨S1024x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S1024x512, .f32⟩
  | .hbm, ⟨10, _⟩ => ⟨S512, .f32⟩
  | .hbm, ⟨11, _⟩ => ⟨S512x1, .f32⟩
  | .hbm, ⟨12, _⟩ => ⟨S1, .f32⟩
  | .hbm, ⟨13, _⟩ => ⟨S1024x512, .f32⟩
  | .hbm, ⟨14, _⟩ => ⟨S512, .f32⟩
  | .hbm, ⟨15, _⟩ => ⟨S512x50, .f32⟩
  | .hbm, ⟨16, _⟩ => ⟨S50, .f32⟩
  | .hbm, ⟨17, _⟩ => ⟨S8x128x512, .bf16⟩
  | .hbm, ⟨18, _⟩ => ⟨S1024x512, .bf16⟩
  | .hbm, ⟨19, _⟩ => ⟨S1024x512, .bf16⟩
  | .hbm, ⟨20, _⟩ => ⟨S1024x512, .bf16⟩
  | .hbm, ⟨21, _⟩ => ⟨S1024x512, .bf16⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S8x128x512, .f32⟩
  | .hbm, ⟨27, _⟩ => ⟨S8x128x512, .f32⟩
  | .hbm, ⟨28, _⟩ => ⟨S8x128x512, .f32⟩
  | .hbm, ⟨29, _⟩ => ⟨S8x128x512, .f32⟩
  | .hbm, ⟨30, _⟩ => ⟨S8x128x512, .f32⟩
  | .hbm, ⟨31, _⟩ => ⟨S8x128x512, .f32⟩
  | .hbm, ⟨32, _⟩ => ⟨S8x128x512, .f32⟩
  | .hbm, ⟨33, _⟩ => ⟨S8x128x512, .f32⟩
  | .hbm, ⟨34, _⟩ => ⟨S512x1, .bf16⟩
  | .hbm, ⟨35, _⟩ => ⟨S512x1, .bf16⟩
  | .hbm, ⟨36, _⟩ => ⟨S512x1, .bf16⟩
  | .hbm, ⟨37, _⟩ => ⟨S512x50, .bf16⟩
  | .hbm, ⟨38, _⟩ => ⟨S1x1, .f32⟩
  | .hbm, ⟨39, _⟩ => ⟨S1x1, .f32⟩
  | .hbm, ⟨40, _⟩ => ⟨S1x1, .f32⟩
  | .hbm, ⟨41, _⟩ => ⟨S1x50, .f32⟩
  | .hbm, ⟨42, _⟩ => ⟨S8x128x128, .f32⟩
  | .hbm, ⟨43, _⟩ => ⟨S8x128x128, .f32⟩
  | .hbm, ⟨44, _⟩ => ⟨S8x128x128, .f32⟩
  | .hbm, ⟨45, _⟩ => ⟨S8x128x128x50, .f32⟩
  | .hbm, ⟨46, _⟩ => ⟨S8x128x128, .f32⟩
  | .hbm, ⟨47, _⟩ => ⟨S128x128, .i32⟩
  | .hbm, ⟨48, _⟩ => ⟨S_, .i32⟩
  | .hbm, ⟨49, _⟩ => ⟨S128x128, .i32⟩
  | .hbm, ⟨50, _⟩ => ⟨S128x128, .i32⟩
  | .hbm, ⟨51, _⟩ => ⟨S128x128, .i32⟩
  | .hbm, ⟨52, _⟩ => ⟨S128x128, .i1⟩
  | .hbm, ⟨53, _⟩ => ⟨S8x128x128, .i1⟩
  | .hbm, ⟨54, _⟩ => ⟨S_, .f32⟩
  | .hbm, ⟨55, _⟩ => ⟨S8x128x128, .f32⟩
  | .hbm, ⟨56, _⟩ => ⟨S8x128x128, .f32⟩
  | .hbm, ⟨57, _⟩ => ⟨S128x128, .i32⟩
  | .hbm, ⟨58, _⟩ => ⟨S_, .i32⟩
  | .hbm, ⟨59, _⟩ => ⟨S128x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S8x128x128, .i1⟩
  | .hbm, ⟨64, _⟩ => ⟨S_, .f32⟩
  | .hbm, ⟨65, _⟩ => ⟨S8x128x128, .f32⟩
  | .hbm, ⟨66, _⟩ => ⟨S8x128x128, .f32⟩
  | .hbm, ⟨67, _⟩ => ⟨S8x128x128, .f32⟩
  | .hbm, ⟨68, _⟩ => ⟨S8x128x128, .f32⟩
  | .hbm, ⟨69, _⟩ => ⟨S8x128x128, .f32⟩
  | .local _ .vmem, ⟨0, _⟩ => ⟨S1x128x512, .bf16⟩
  | .local _ .vmem, ⟨1, _⟩ => ⟨S1x128x512, .bf16⟩
  | .local _ .vmem, ⟨2, _⟩ => ⟨S1024x512, .bf16⟩
  | .local _ .vmem, ⟨3, _⟩ => ⟨S1x512, .f32⟩
  | .local _ .vmem, ⟨4, _⟩ => ⟨S1024x512, .bf16⟩
  | .local _ .vmem, ⟨5, _⟩ => ⟨S1x512, .f32⟩
  | .local _ .vmem, ⟨6, _⟩ => ⟨S1024x512, .bf16⟩
  | .local _ .vmem, ⟨7, _⟩ => ⟨S1x512, .f32⟩
  | .local _ .vmem, ⟨8, _⟩ => ⟨S1024x512, .bf16⟩
  | .local _ .vmem, ⟨9, _⟩ => ⟨S1x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S1x128x512, .f32⟩
  | .local _ .vmem, ⟨21, _⟩ => ⟨S1x128x512, .f32⟩
  | .local _ .vmem, ⟨22, _⟩ => ⟨S1x128x512, .f32⟩
  | .local _ .vmem, ⟨23, _⟩ => ⟨S1x128x512, .f32⟩
  | .local _ .vmem, ⟨24, _⟩ => ⟨S1x128x512, .f32⟩
  | .local _ .vmem, ⟨25, _⟩ => ⟨S1x128x512, .f32⟩
  | .local _ .vmem, ⟨26, _⟩ => ⟨S1x32x512, .f32⟩
  | .local _ .vmem, ⟨27, _⟩ => ⟨S1x32x512, .f32⟩
  | .local _ .vmem, ⟨28, _⟩ => ⟨S1x128x512, .f32⟩
  | .local _ .vmem, ⟨29, _⟩ => ⟨S1x128x512, .f32⟩
  | .local _ .vmem, ⟨30, _⟩ => ⟨S512x1, .bf16⟩
  | .local _ .vmem, ⟨31, _⟩ => ⟨S1x1, .f32⟩
  | .local _ .vmem, ⟨32, _⟩ => ⟨S1x32x512, .f32⟩
  | .local _ .vmem, ⟨33, _⟩ => ⟨S1x32x512, .f32⟩
  | .local _ .vmem, ⟨34, _⟩ => ⟨S1x128x512, .f32⟩
  | .local _ .vmem, ⟨35, _⟩ => ⟨S1x128x512, .f32⟩
  | .local _ .vmem, ⟨36, _⟩ => ⟨S512x1, .bf16⟩
  | .local _ .vmem, ⟨37, _⟩ => ⟨S1x1, .f32⟩
  | .local _ .vmem, ⟨38, _⟩ => ⟨S1x32x512, .f32⟩
  | .local _ .vmem, ⟨39, _⟩ => ⟨S1x32x512, .f32⟩
  | .local _ .vmem, ⟨40, _⟩ => ⟨S1x128x512, .f32⟩
  | .local _ .vmem, ⟨41, _⟩ => ⟨S1x128x512, .f32⟩
  | .local _ .vmem, ⟨42, _⟩ => ⟨S512x1, .bf16⟩
  | .local _ .vmem, ⟨43, _⟩ => ⟨S1x1, .f32⟩
  | .local _ .vmem, ⟨44, _⟩ => ⟨S1x32x512, .f32⟩
  | .local _ .vmem, ⟨45, _⟩ => ⟨S1x32x512, .f32⟩
  | .local _ .vmem, ⟨46, _⟩ => ⟨S1x128x512, .f32⟩
  | .local _ .vmem, ⟨47, _⟩ => ⟨S1x128x512, .f32⟩
  | .local _ .vmem, ⟨48, _⟩ => ⟨S512x50, .bf16⟩
  | .local _ .vmem, ⟨49, _⟩ => ⟨S1x50, .f32⟩
  | .local _ .vmem, ⟨50, _⟩ => ⟨S1x32x128, .f32⟩
  | .local _ .vmem, ⟨51, _⟩ => ⟨S1x32x128, .f32⟩
  | .local _ .vmem, ⟨52, _⟩ => ⟨S1x32x128, .f32⟩
  | .local _ .vmem, ⟨53, _⟩ => ⟨S1x32x128, .f32⟩
  | .local _ .vmem, ⟨54, _⟩ => ⟨S1x32x128, .f32⟩
  | .local _ .vmem, ⟨55, _⟩ => ⟨S1x32x128, .f32⟩
  | .local _ .vmem, ⟨56, _⟩ => ⟨S1x32x128x50, .f32⟩
  | .local _ .vmem, ⟨57, _⟩ => ⟨S1x32x128x50, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v9_2 : Ref sig .tc := ⟨.hbm, 28, rfl⟩
abbrev main_v9_3 : Ref sig .tc := ⟨.hbm, 29, rfl⟩
abbrev main_v9_4 : Ref sig .tc := ⟨.hbm, 30, rfl⟩
abbrev main_v9_5 : Ref sig .tc := ⟨.hbm, 31, rfl⟩
abbrev main_v9_6 : Ref sig .tc := ⟨.hbm, 32, rfl⟩
abbrev main_v9_7 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18_0 : Ref sig .tc := ⟨.hbm, 42, rfl⟩
abbrev main_v18_1 : Ref sig .tc := ⟨.hbm, 43, rfl⟩
abbrev main_v18_2 : Ref sig .tc := ⟨.hbm, 44, rfl⟩
abbrev main_v18_3 : Ref sig .tc := ⟨.hbm, 45, rfl⟩
abbrev main_v19 : Ref sig .tc := ⟨.hbm, 46, rfl⟩
abbrev main_call0_v0 : Ref sig .tc := ⟨.hbm, 47, rfl⟩
abbrev main_call0_c : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_cst : Ref sig .tc := ⟨.hbm, 54, rfl⟩
abbrev main_call0_v6 : Ref sig .tc := ⟨.hbm, 55, rfl⟩
abbrev main_v20 : Ref sig .tc := ⟨.hbm, 56, rfl⟩
abbrev main_call1_v0 : Ref sig .tc := ⟨.hbm, 57, rfl⟩
abbrev main_call1_c : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_cst : Ref sig .tc := ⟨.hbm, 64, rfl⟩
abbrev main_call1_v6 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg3_0 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc1_stg6_0 : Ref sig .tc := ⟨.vmem, 36, rfl⟩
abbrev cc1_stg7_0 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg11_0 : Ref sig .tc := ⟨.vmem, 43, rfl⟩
abbrev cc1_stg12_0 : Ref sig .tc := ⟨.vmem, 44, rfl⟩
abbrev cc1_stg12_1 : Ref sig .tc := ⟨.vmem, 45, rfl⟩
abbrev cc1_stg13_0 : Ref sig .tc := ⟨.vmem, 46, rfl⟩
abbrev cc1_stg13_1 : Ref sig .tc := ⟨.vmem, 47, rfl⟩
abbrev cc1_stg14_0 : Ref sig .tc := ⟨.vmem, 48, rfl⟩
abbrev cc1_stg15_0 : Ref sig .tc := ⟨.vmem, 49, rfl⟩
abbrev cc1_stg16_0 : Ref sig .tc := ⟨.vmem, 50, rfl⟩
abbrev cc1_stg16_1 : Ref sig .tc := ⟨.vmem, 51, rfl⟩
abbrev cc1_stg17_0 : Ref sig .tc := ⟨.vmem, 52, rfl⟩
abbrev cc1_stg17_1 : Ref sig .tc := ⟨.vmem, 53, rfl⟩
abbrev cc1_stg18_0 : Ref sig .tc := ⟨.vmem, 54, rfl⟩
abbrev cc1_stg18_1 : Ref sig .tc := ⟨.vmem, 55, rfl⟩
abbrev cc1_stg19_0 : Ref sig .tc := ⟨.vmem, 56, rfl⟩
abbrev cc1_stg19_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem3_0 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem7_0 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem11_0 : DmaSem sig := 43
abbrev cc1_sem12_0 : DmaSem sig := 44
abbrev cc1_sem12_1 : DmaSem sig := 45
abbrev cc1_sem13_0 : DmaSem sig := 46
abbrev cc1_sem13_1 : DmaSem sig := 47
abbrev cc1_sem14_0 : DmaSem sig := 48
abbrev cc1_sem15_0 : DmaSem sig := 49
abbrev cc1_sem16_0 : DmaSem sig := 50
abbrev cc1_sem16_1 : DmaSem sig := 51
abbrev cc1_sem17_0 : DmaSem sig := 52
abbrev cc1_sem17_1 : DmaSem sig := 53
abbrev cc1_sem18_0 : DmaSem sig := 54
abbrev cc1_sem18_1 : DmaSem sig := 55
abbrev cc1_sem19_0 : DmaSem sig := 56
abbrev cc1_sem19_1 : DmaSem sig := 57

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_17 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_18 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_19 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S512x1 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x32x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S512x1 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x32x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x128x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 1 → Memref sig .tc .vmem S512x1 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S1x32x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x128x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 1 → Memref sig .tc .vmem S512x50 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S1x50 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 2 → Memref sig .tc .vmem S1x32x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S1x32x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev stage1_18 : Fin 2 → Memref sig .tc .vmem S1x32x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true]

abbrev stage1_19 : Fin 2 → Memref sig .tc .vmem S1x32x128x50 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true]

class Facts₀ : Prop where
  bitsLt_bf16_f32 : FTy.bits .bf16 < FTy.bits .f32
  shapeCasts_S512_S1x512 : S512.ShapeCasts S1x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1024x512_S512x512_0_0 : ∀ a, (![0, 0] : Fin 2 → Nat) a + S512x512.size a ≤ S1024x512.size a
  h_S512x512 : 0 < S512x512.numel
  shapeCasts_S512x512_S512x512 : S512x512.ShapeCasts S512x512
  inb_S1024x512_S512x512_512_0 : ∀ a, (![512, 0] : Fin 2 → Nat) a + S512x512.size a ≤ S1024x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  shapeCasts_S128x512_S1x128x512 : S128x512.ShapeCasts S1x128x512
  shapeCasts_S1_S1x1 : S1.ShapeCasts S1x1
  shapeCasts_S50_S1x50 : S50.ShapeCasts S1x50
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S32x1x512 : S32x512.ShapeCasts S32x1x512
  broadcasts_S32x1x512_S32x128x512 : S32x1x512.Broadcasts S32x128x512
  broadcasts_S1x128x512_S32x128x512 : S1x128x512.Broadcasts S32x128x512
  shapeCasts_S32x128x512_S4096x512 : S32x128x512.ShapeCasts S4096x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x1_S32x128x1 : S4096x1.ShapeCasts S32x128x1
  shapeCasts_S32x128x1_S32x128 : S32x128x1.ShapeCasts S32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  inb_S512x50_S512x50_0_0 : ∀ a, (![0, 0] : Fin 2 → Nat) a + S512x50.size a ≤ S512x50.size a
  h_S512x50 : 0 < S512x50.numel
  shapeCasts_S512x50_S512x50 : S512x50.ShapeCasts S512x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S4096x50 : S1x50.Broadcasts S4096x50
  shapeCasts_S4096x50_S32x128x50 : S4096x50.ShapeCasts S32x128x50
  inb_S1x32x128x50_S1x32x128x50_0_0_0_0 : ∀ a, (![0, 0, 0, 0] : Fin 4 → Nat) a + S1x32x128x50.size a ≤ S1x32x128x50.size a
  h_S1x32x128x50 : 0 < S1x32x128x50.numel
  shapeCasts_S1x32x128x50_S32x128x50 : S1x32x128x50.ShapeCasts S32x128x50
  shapeCasts_S32x128x50_S1x32x128x50 : S32x128x50.ShapeCasts S1x32x128x50
  transposes_S8x128x128_S8x128x128_0_2_1 : S8x128x128.Transposes [0, 2, 1] S8x128x128
  bcast_S_S128x128 : S_.BroadcastsInDim S128x128 (![] : Fin 0 → Fin S128x128.rank)
  bcast_S128x128_S8x128x128_1_2 : S128x128.BroadcastsInDim S8x128x128 (![1, 2] : Fin 2 → Fin S8x128x128.rank)
  bcast_S_S8x128x128 : S_.BroadcastsInDim S8x128x128 (![] : Fin 0 → Fin S8x128x128.rank)
  dot_S128x512_S512x512_S128x512_1_0_0_1_n_n_wf : DotDims.WF S128x512 S512x512 S128x512 [1] [0] [0] [1] [] []
  dot_S4096x512_S512x1_S4096x1_1_0_0_1_n_n_wf : DotDims.WF S4096x512 S512x1 S4096x1 [1] [0] [0] [1] [] []
  dot_S4096x512_S512x50_S4096x50_1_0_0_1_n_n_wf : DotDims.WF S4096x512 S512x50 S4096x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S8x128x512.size a
  hwx0_0 : ∀ i : grid0.Coords, EltTy.bits .bf16 = 32 ∨ (Rect.block (s := S8x128x512) S1x128x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128x512.size a ≤ S8x128x512.size a
  hwx0_9 : ∀ i : grid0.Coords, EltTy.bits .f32 = 32 ∨ (Rect.block (s := S8x128x512) S1x128x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128x512.size a ≤ S8x128x512.size a
  hwx0_10 : ∀ i : grid0.Coords, EltTy.bits .f32 = 32 ∨ (Rect.block (s := S8x128x512) S1x128x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128x512.size a ≤ S8x128x512.size a
  hwx0_11 : ∀ i : grid0.Coords, EltTy.bits .f32 = 32 ∨ (Rect.block (s := S8x128x512) S1x128x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128x512.size a ≤ S8x128x512.size a
  hwx0_12 : ∀ i : grid0.Coords, EltTy.bits .f32 = 32 ∨ (Rect.block (s := S8x128x512) S1x128x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x128x512.size a ≤ S8x128x512.size a
  hwx0_13 : ∀ i : grid0.Coords, EltTy.bits .f32 = 32 ∨ (Rect.block (s := S8x128x512) S1x128x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x128x512.size a ≤ S8x128x512.size a
  hwx0_14 : ∀ i : grid0.Coords, EltTy.bits .f32 = 32 ∨ (Rect.block (s := S8x128x512) S1x128x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x128x512.size a ≤ S8x128x512.size a
  hwx0_15 : ∀ i : grid0.Coords, EltTy.bits .f32 = 32 ∨ (Rect.block (s := S8x128x512) S1x128x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x128x512.size a ≤ S8x128x512.size a
  hwx0_16 : ∀ i : grid0.Coords, EltTy.bits .f32 = 32 ∨ (Rect.block (s := S8x128x512) S1x128x512.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x512.size a ≤ S8x128x512.size a
  hwx1_0 : ∀ i : grid1.Coords, EltTy.bits .f32 = 32 ∨ (Rect.block (s := S8x128x512) S1x32x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x512.size a ≤ S8x128x512.size a
  hwx1_1 : ∀ i : grid1.Coords, EltTy.bits .f32 = 32 ∨ (Rect.block (s := S8x128x512) S1x128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S512x1.size a
  hwx1_2 : ∀ i : grid1.Coords, EltTy.bits .bf16 = 32 ∨ (Rect.block (s := S512x1) S512x1.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x32x512.size a ≤ S8x128x512.size a
  hwx1_4 : ∀ i : grid1.Coords, EltTy.bits .f32 = 32 ∨ (Rect.block (s := S8x128x512) S1x32x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x512.size a ≤ S8x128x512.size a
  hwx1_5 : ∀ i : grid1.Coords, EltTy.bits .f32 = 32 ∨ (Rect.block (s := S8x128x512) S1x128x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S512x1.size a
  hwx1_6 : ∀ i : grid1.Coords, EltTy.bits .bf16 = 32 ∨ (Rect.block (s := S512x1) S512x1.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x32x512.size a ≤ S8x128x512.size a
  hwx1_8 : ∀ i : grid1.Coords, EltTy.bits .f32 = 32 ∨ (Rect.block (s := S8x128x512) S1x32x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x128x512.size a ≤ S8x128x512.size a
  hwx1_9 : ∀ i : grid1.Coords, EltTy.bits .f32 = 32 ∨ (Rect.block (s := S8x128x512) S1x128x512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S512x1.size a ≤ S512x1.size a
  hwx1_10 : ∀ i : grid1.Coords, EltTy.bits .bf16 = 32 ∨ (Rect.block (s := S512x1) S512x1.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x32x512.size a ≤ S8x128x512.size a
  hwx1_12 : ∀ i : grid1.Coords, EltTy.bits .f32 = 32 ∨ (Rect.block (s := S8x128x512) S1x32x512.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1x128x512.size a ≤ S8x128x512.size a
  hwx1_13 : ∀ i : grid1.Coords, EltTy.bits .f32 = 32 ∨ (Rect.block (s := S8x128x512) S1x128x512.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S512x50.size a ≤ S512x50.size a
  hwx1_14 : ∀ i : grid1.Coords, EltTy.bits .bf16 = 32 ∨ (Rect.block (s := S512x50) S512x50.size (cc1_transform_14 i) (hinb1_14 i)).WholeWords (EltTy.packing .bf16)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x50.size a ≤ S1x50.size a
  hwx1_15 : ∀ i : grid1.Coords, EltTy.bits .f32 = 32 ∨ (Rect.block (s := S1x50) S1x50.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S1x32x128.size a ≤ S8x128x128.size a
  hwx1_16 : ∀ i : grid1.Coords, EltTy.bits .f32 = 32 ∨ (Rect.block (s := S8x128x128) S1x32x128.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S1x32x128.size a ≤ S8x128x128.size a
  hwx1_17 : ∀ i : grid1.Coords, EltTy.bits .f32 = 32 ∨ (Rect.block (s := S8x128x128) S1x32x128.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S1x32x128.size a ≤ S8x128x128.size a
  hwx1_18 : ∀ i : grid1.Coords, EltTy.bits .f32 = 32 ∨ (Rect.block (s := S8x128x128) S1x32x128.size (cc1_transform_18 i) (hinb1_18 i)).WholeWords (EltTy.packing .f32)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S1x32x128x50.size a ≤ S8x128x128x50.size a
  hwx1_19 : ∀ i : grid1.Coords, EltTy.bits .f32 = 32 ∨ (Rect.block (s := S8x128x128x50) S1x32x128x50.size (cc1_transform_19 i) (hinb1_19 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf
def dot_S4096x512_S512x50_S4096x50_1_0_0_1_n_n : DotDims S4096x512 S512x50 S4096x50 where
  lhsContracting := [1]
  rhsContracting := [0]
  lhsNonContracting := [0]
  rhsNonContracting := [1]
  lhsBatch := []
  rhsBatch := []
  wf := dot_S4096x512_S512x50_S4096x50_1_0_0_1_n_n_wf

abbrev win0_0 : Pipeline.Window sig grid0 :=
  Pipeline.Window.ofSpec (Memref.whole main_v0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9_0) S1x128x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_1) S1x128x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_2) S1x128x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_3) S1x128x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v9_4) S1x128x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v9_5) S1x128x512.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v9_6) S1x128x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v9_7) S1x128x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v9_0) S1x32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1x128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S512x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9_2) S1x32x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9_3) S1x128x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11) S512x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9_4) S1x32x512.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v9_5) S1x128x512.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v12) S512x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v16) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v9_6) S1x32x512.size cc1_transform_12 reads1_12 false false 2 stage1_12 sem1_12
    hrank1 hreads1_12 hinb1_12 nbuf1_12 (Memref.isWhole_whole _) hwx1_12 hstage1_12

abbrev win1_13 : Pipeline.Window sig grid1 :=
  Pipeline.Window.ofSpec (Memref.whole main_v9_7) S1x128x512.size cc1_transform_13 reads1_13 false false 2 stage1_13 sem1_13
    hrank1 hreads1_13 hinb1_13 nbuf1_13 (Memref.isWhole_whole _) hwx1_13 hstage1_13

abbrev win1_14 : Pipeline.Window sig grid1 :=
  Pipeline.Window.ofSpec (Memref.whole main_v13) S512x50.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v17) S1x50.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v18_0) S1x32x128.size cc1_transform_16 reads1_16 true false 2 stage1_16 sem1_16
    hrank1 hreads1_16 hinb1_16 nbuf1_16 (Memref.isWhole_whole _) hwx1_16 hstage1_16

abbrev win1_17 : Pipeline.Window sig grid1 :=
  Pipeline.Window.ofSpec (Memref.whole main_v18_1) S1x32x128.size cc1_transform_17 reads1_17 true false 2 stage1_17 sem1_17
    hrank1 hreads1_17 hinb1_17 nbuf1_17 (Memref.isWhole_whole _) hwx1_17 hstage1_17

abbrev win1_18 : Pipeline.Window sig grid1 :=
  Pipeline.Window.ofSpec (Memref.whole main_v18_2) S1x32x128.size cc1_transform_18 reads1_18 true false 2 stage1_18 sem1_18
    hrank1 hreads1_18 hinb1_18 nbuf1_18 (Memref.isWhole_whole _) hwx1_18 hstage1_18

abbrev win1_19 : Pipeline.Window sig grid1 :=
  Pipeline.Window.ofSpec (Memref.whole main_v18_3) S1x32x128x50.size cc1_transform_19 reads1_19 true false 2 stage1_19 sem1_19
    hrank1 hreads1_19 hinb1_19 nbuf1_19 (Memref.isWhole_whole _) hwx1_19 hstage1_19

abbrev win1 : Fin 20 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | ⟨_ + 20, h⟩ => absurd h (Nat.not_lt.2 (Nat.le_add_left _ _))
abbrev spec1 : Fin 20 → Pipeline.WinSpec sig grid1.rank := fun w => (win1 w).toWinSpec

class Facts : Prop extends Facts₀ where

variable [Facts]
-- ==== ReferenceIdeal.lean ====
abbrev S8x128x512 : Shape := ⟨3, ![8, 128, 512]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S512x50 : Shape := ⟨2, ![512, 50]⟩
abbrev S50 : Shape := ⟨1, ![50]⟩
abbrev S512x512 : Shape := ⟨2, ![512, 512]⟩
abbrev S8x128x1x512 : Shape := ⟨4, ![8, 128, 1, 512]⟩
abbrev S8x1x128x512 : Shape := ⟨4, ![8, 1, 128, 512]⟩
abbrev S8x128x128x512 : Shape := ⟨4, ![8, 128, 128, 512]⟩
abbrev S1x1x1x512 : Shape := ⟨4, ![1, 1, 1, 512]⟩
abbrev S8x128x128x1 : Shape := ⟨4, ![8, 128, 128, 1]⟩
abbrev S1x1x1x1 : Shape := ⟨4, ![1, 1, 1, 1]⟩
abbrev S8x128x128 : Shape := ⟨3, ![8, 128, 128]⟩
abbrev S128x128 : Shape := ⟨2, ![128, 128]⟩
abbrev S_ : Shape := ⟨0, ![]⟩
abbrev S8x128x128x50 : Shape := ⟨4, ![8, 128, 128, 50]⟩
abbrev S1x1x1x50 : Shape := ⟨4, ![1, 1, 1, 50]⟩

abbrev nBuf : Space → Nat
  | .hbm => 112
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S1024x512, .f32⟩
  | .hbm, ⟨2, _⟩ => ⟨S512, .f32⟩
  | .hbm, ⟨3, _⟩ => ⟨S512x1, .f32⟩
  | .hbm, ⟨4, _⟩ => ⟨S1, .f32⟩
  | .hbm, ⟨5, _⟩ => ⟨S1024x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S1024x512, .f32⟩
  | .hbm, ⟨10, _⟩ => ⟨S512, .f32⟩
  | .hbm, ⟨11, _⟩ => ⟨S512x1, .f32⟩
  | .hbm, ⟨12, _⟩ => ⟨S1, .f32⟩
  | .hbm, ⟨13, _⟩ => ⟨S1024x512, .f32⟩
  | .hbm, ⟨14, _⟩ => ⟨S512, .f32⟩
  | .hbm, ⟨15, _⟩ => ⟨S512x50, .f32⟩
  | .hbm, ⟨16, _⟩ => ⟨S50, .f32⟩
  | .hbm, ⟨17, _⟩ => ⟨S512x512, .f32⟩
  | .hbm, ⟨18, _⟩ => ⟨S512x512, .f32⟩
  | .hbm, ⟨19, _⟩ => ⟨S8x128x512, .f32⟩
  | .hbm, ⟨20, _⟩ => ⟨S8x128x512, .f32⟩
  | .hbm, ⟨21, _⟩ => ⟨S8x128x1x512, .f32⟩
  | .hbm, ⟨22, _⟩ => ⟨S8x1x128x512, .f32⟩
  | .hbm, ⟨23, _⟩ => ⟨S8x128x128x512, .f32⟩
  | .hbm, ⟨24, _⟩ => ⟨S8x128x128x512, .f32⟩
  | .hbm, ⟨25, _⟩ => ⟨S8x128x128x512, .f32⟩
  | .hbm, ⟨26, _⟩ => ⟨S1x1x1x512, .f32⟩
  | .hbm, ⟨27, _⟩ => ⟨S8x128x128x512, .f32⟩
  | .hbm, ⟨28, _⟩ => ⟨S8x128x128x512, .f32⟩
  | .hbm, ⟨29, _⟩ => ⟨S8x128x128x512, .f32⟩
  | .hbm, ⟨30, _⟩ => ⟨S8x128x128x1, .f32⟩
  | .hbm, ⟨31, _⟩ => ⟨S1x1x1x1, .f32⟩
  | .hbm, ⟨32, _⟩ => ⟨S8x128x128x1, .f32⟩
  | .hbm, ⟨33, _⟩ => ⟨S8x128x128x1, .f32⟩
  | .hbm, ⟨34, _⟩ => ⟨S8x128x128, .f32⟩
  | .hbm, ⟨35, _⟩ => ⟨S8x128x128, .f32⟩
  | .hbm, ⟨36, _⟩ => ⟨S128x128, .i32⟩
  | .hbm, ⟨37, _⟩ => ⟨S_, .i32⟩
  | .hbm, ⟨38, _⟩ => ⟨S128x128, .i32⟩
  | .hbm, ⟨39, _⟩ => ⟨S128x128, .i32⟩
  | .hbm, ⟨40, _⟩ => ⟨S128x128, .i32⟩
  | .hbm, ⟨41, _⟩ => ⟨S128x128, .i1⟩
  | .hbm, ⟨42, _⟩ => ⟨S8x128x128, .i1⟩
  | .hbm, ⟨43, _⟩ => ⟨S_, .f32⟩
  | .hbm, ⟨44, _⟩ => ⟨S8x128x128, .f32⟩
  | .hbm, ⟨45, _⟩ => ⟨S8x128x128, .f32⟩
  | .hbm, ⟨46, _⟩ => ⟨S128x128, .i32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S8x128x128, .i1⟩
  | .hbm, ⟨53, _⟩ => ⟨S_, .f32⟩
  | .hbm, ⟨54, _⟩ => ⟨S8x128x128, .f32⟩
  | .hbm, ⟨55, _⟩ => ⟨S8x128x128, .f32⟩
  | .hbm, ⟨56, _⟩ => ⟨S8x128x128, .f32⟩
  | .hbm, ⟨57, _⟩ => ⟨S8x128x128, .f32⟩
  | .hbm, ⟨58, _⟩ => ⟨S8x128x128, .f32⟩
  | .hbm, ⟨59, _⟩ => ⟨S512x512, .f32⟩
  | .hbm, ⟨60, _⟩ => ⟨S512x512, .f32⟩
  | .hbm, ⟨61, _⟩ => ⟨S8x128x512, .f32⟩
  | .hbm, ⟨62, _⟩ => ⟨S8x128x512, .f32⟩
  | .hbm, ⟨63, _⟩ => ⟨S8x128x1x512, .f32⟩
  | .hbm, ⟨64, _⟩ => ⟨S8x1x128x512, .f32⟩
  | .hbm, ⟨65, _⟩ => ⟨S8x128x128x512, .f32⟩
  | .hbm, ⟨66, _⟩ => ⟨S8x128x128x512, .f32⟩
  | .hbm, ⟨67, _⟩ => ⟨S8x128x128x512, .f32⟩
  | .hbm, ⟨68, _⟩ => ⟨S1x1x1x512, .f32⟩
  | .hbm, ⟨69, _⟩ => ⟨S8x128x128x512, .f32⟩
  | .hbm, ⟨70, _⟩ => ⟨S8x128x128x512, .f32⟩
  | .hbm, ⟨71, _⟩ => ⟨S8x128x128x512, .f32⟩
  | .hbm, ⟨72, _⟩ => ⟨S8x128x128x1, .f32⟩
  | .hbm, ⟨73, _⟩ => ⟨S1x1x1x1, .f32⟩
  | .hbm, ⟨74, _⟩ => ⟨S8x128x128x1, .f32⟩
  | .hbm, ⟨75, _⟩ => ⟨S8x128x128x1, .f32⟩
  | .hbm, ⟨76, _⟩ => ⟨S8x128x128, .f32⟩
  | .hbm, ⟨77, _⟩ => ⟨S512x512, .f32⟩
  | .hbm, ⟨78, _⟩ => ⟨S512x512, .f32⟩
  | .hbm, ⟨79, _⟩ => ⟨S8x128x512, .f32⟩
  | .hbm, ⟨80, _⟩ => ⟨S8x128x512, .f32⟩
  | .hbm, ⟨81, _⟩ => ⟨S8x128x1x512, .f32⟩
  | .hbm, ⟨82, _⟩ => ⟨S8x1x128x512, .f32⟩
  | .hbm, ⟨83, _⟩ => ⟨S8x128x128x512, .f32⟩
  | .hbm, ⟨84, _⟩ => ⟨S8x128x128x512, .f32⟩
  | .hbm, ⟨85, _⟩ => ⟨S8x128x128x512, .f32⟩
  | .hbm, ⟨86, _⟩ => ⟨S1x1x1x512, .f32⟩
  | .hbm, ⟨87, _⟩ => ⟨S8x128x128x512, .f32⟩
  | .hbm, ⟨88, _⟩ => ⟨S8x128x128x512, .f32⟩
  | .hbm, ⟨89, _⟩ => ⟨S8x128x128x512, .f32⟩
  | .hbm, ⟨90, _⟩ => ⟨S8x128x128x1, .f32⟩
  | .hbm, ⟨91, _⟩ => ⟨S1x1x1x1, .f32⟩
  | .hbm, ⟨92, _⟩ => ⟨S8x128x128x1, .f32⟩
  | .hbm, ⟨93, _⟩ => ⟨S8x128x128x1, .f32⟩
  | .hbm, ⟨94, _⟩ => ⟨S8x128x128, .f32⟩
  | .hbm, ⟨95, _⟩ => ⟨S512x512, .f32⟩
  | .hbm, ⟨96, _⟩ => ⟨S512x512, .f32⟩
  | .hbm, ⟨97, _⟩ => ⟨S8x128x512, .f32⟩
  | .hbm, ⟨98, _⟩ => ⟨S8x128x512, .f32⟩
  | .hbm, ⟨99, _⟩ => ⟨S8x128x1x512, .f32⟩
  | .hbm, ⟨100, _⟩ => ⟨S8x1x128x512, .f32⟩
  | .hbm, ⟨101, _⟩ => ⟨S8x128x128x512, .f32⟩
  | .hbm, ⟨102, _⟩ => ⟨S8x128x128x512, .f32⟩
  | .hbm, ⟨103, _⟩ => ⟨S8x128x128x512, .f32⟩
  | .hbm, ⟨104, _⟩ => ⟨S1x1x1x512, .f32⟩
  | .hbm, ⟨105, _⟩ => ⟨S8x128x128x512, .f32⟩
  | .hbm, ⟨106, _⟩ => ⟨S8x128x128x512, .f32⟩
  | .hbm, ⟨107, _⟩ => ⟨S8x128x128x512, .f32⟩
  | .hbm, ⟨108, _⟩ => ⟨S8x128x128x50, .f32⟩
  | .hbm, ⟨109, _⟩ => ⟨S1x1x1x50, .f32⟩
  | .hbm, ⟨110, _⟩ => ⟨S8x128x128x50, .f32⟩
  | .hbm, ⟨111, _⟩ => ⟨S8x128x128x50, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_cst : Ref sig .tc := ⟨.hbm, 43, rfl⟩
abbrev main_call0_v6 : Ref sig .tc := ⟨.hbm, 44, rfl⟩
abbrev main_v19 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_cst : Ref sig .tc := ⟨.hbm, 53, rfl⟩
abbrev main_call1_v6 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩

abbrev nD : Nat := 1
abbrev τ : Topo := Topo.v7x

variable {F : FTy → Type} [FloatOps F]

class Facts₀ : Prop where
  slices_S1024x512_S512x512_0_0 : S1024x512.Slices ![0, 0] S512x512
  slices_S1024x512_S512x512_512_0 : S1024x512.Slices ![512, 0] S512x512
  bcast_S8x128x512_S8x128x1x512_0_1_3 : S8x128x512.BroadcastsInDim S8x128x1x512 (![0, 1, 3] : Fin 3 → Fin S8x128x1x512.rank)
  bcast_S8x128x512_S8x1x128x512_0_2_3 : S8x128x512.BroadcastsInDim S8x1x128x512 (![0, 2, 3] : Fin 3 → Fin S8x1x128x512.rank)
  bcast_S8x128x1x512_S8x128x128x512_0_1_2_3 : S8x128x1x512.BroadcastsInDim S8x128x128x512 (![0, 1, 2, 3] : Fin 4 → Fin S8x128x128x512.rank)
  bcast_S8x1x128x512_S8x128x128x512_0_1_2_3 : S8x1x128x512.BroadcastsInDim S8x128x128x512 (![0, 1, 2, 3] : Fin 4 → Fin S8x128x128x512.rank)
  bcast_S512_S1x1x1x512_3 : S512.BroadcastsInDim S1x1x1x512 (![3] : Fin 1 → Fin S1x1x1x512.rank)
  bcast_S1x1x1x512_S8x128x128x512_0_1_2_3 : S1x1x1x512.BroadcastsInDim S8x128x128x512 (![0, 1, 2, 3] : Fin 4 → Fin S8x128x128x512.rank)
  bcast_S1_S1x1x1x1_3 : S1.BroadcastsInDim S1x1x1x1 (![3] : Fin 1 → Fin S1x1x1x1.rank)
  bcast_S1x1x1x1_S8x128x128x1_0_1_2_3 : S1x1x1x1.BroadcastsInDim S8x128x128x1 (![0, 1, 2, 3] : Fin 4 → Fin S8x128x128x1.rank)
  shapeCasts_S8x128x128x1_S8x128x128 : S8x128x128x1.ShapeCasts S8x128x128
  transposes_S8x128x128_S8x128x128_0_2_1 : S8x128x128.Transposes [0, 2, 1] S8x128x128
  bcast_S_S128x128 : S_.BroadcastsInDim S128x128 (![] : Fin 0 → Fin S128x128.rank)
  bcast_S128x128_S8x128x128_1_2 : S128x128.BroadcastsInDim S8x128x128 (![1, 2] : Fin 2 → Fin S8x128x128.rank)
  bcast_S_S8x128x128 : S_.BroadcastsInDim S8x128x128 (![] : Fin 0 → Fin S8x128x128.rank)
  bcast_S50_S1x1x1x50_3 : S50.BroadcastsInDim S1x1x1x50 (![3] : Fin 1 → Fin S1x1x1x50.rank)
  bcast_S1x1x1x50_S8x128x128x50_0_1_2_3 : S1x1x1x50.BroadcastsInDim S8x128x128x50 (![0, 1, 2, 3] : Fin 4 → Fin S8x128x128x50.rank)
  dot_S8x128x512_S512x512_S8x128x512_2_0_01_1_n_n_wf : DotDims.WF S8x128x512 S512x512 S8x128x512 [2] [0] [0, 1] [1] [] []
  dot_S8x128x128x512_S512x1_S8x128x128x1_3_0_012_1_n_n_wf : DotDims.WF S8x128x128x512 S512x1 S8x128x128x1 [3] [0] [0, 1, 2] [1] [] []
  dot_S8x128x128x512_S512x50_S8x128x128x50_3_0_012_1_n_n_wf : DotDims.WF S8x128x128x512 S512x50 S8x128x128x50 [3] [0] [0, 1, 2] [1] [] []

variable [Facts₀]

def dot_S8x128x512_S512x512_S8x128x512_2_0_01_1_n_n : DotDims S8x128x512 S512x512 S8x128x512 where
  lhsContracting := [2]
  rhsContracting := [0]
  lhsNonContracting := [0, 1]
  rhsNonContracting := [1]
  lhsBatch := []
  rhsBatch := []
  wf := dot_S8x128x512_S512x512_S8x128x512_2_0_01_1_n_n_wf
def dot_S8x128x128x512_S512x1_S8x128x128x1_3_0_012_1_n_n : DotDims S8x128x128x512 S512x1 S8x128x128x1 where
  lhsContracting := [3]
  rhsContracting := [0]
  lhsNonContracting := [0, 1, 2]
  rhsNonContracting := [1]
  lhsBatch := []
  rhsBatch := []
  wf := dot_S8x128x128x512_S512x1_S8x128x128x1_3_0_012_1_n_n_wf
def dot_S8x128x128x512_S512x50_S8x128x128x50_3_0_012_1_n_n : DotDims S8x128x128x512 S512x50 S8x128x128x50 where
  lhsContracting := [3]
  rhsContracting := [0]
  lhsNonContracting := [0, 1, 2]
  rhsNonContracting := [1]
  lhsBatch := []
  rhsBatch := []
  wf := dot_S8x128x128x512_S512x50_S8x128x128x50_3_0_012_1_n_n_wf

class Facts : Prop extends Facts₀ where

variable [Facts]
-- ==== Proof.HostReads.lean ====
/-
  What the host operations around the two kernels do to the arrays, over the extended reals.

  Before the first kernel the host converts the token features and each head's first-layer weights to a narrower
  float format (the identity on extended reals) and reshapes each first-layer bias [512] to a row [1, 512]; between
  the kernels it converts the second-layer weights and reshapes the second-layer biases to rows. The second
  kernel finds the first kernel's eight output arrays as that kernel left them, and the program's last three
  results are the second kernel's last three output arrays as it left them: no later host operation writes them.
-/
import proofs.«404877_j44659069943968_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Host

open Idealize.ShloMosaic Idealize.ShloMosaic.TcCoe Idealize.SL.Sem Idealize.ShloMosaic.ValueIdx
open Idealize.ShloMosaic.StableHlo
open Cert.KernelIdeal Cert.KernelIdeal.Gen

variable (m : (ℓ : Loc nD τ sig) → Buf (Elt Ideal) ℓ) (ρ : Dev nD → PrngReg)

/-- No operation of the named host stretch writes the buffer, so it keeps its contents across the stretch. -/
local macro "kept_across" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## What the first kernel finds -/

/-- The token features and the four first-layer weight matrices, as launched (the conversions are the identity). -/
theorem V1_inputs (c : Dev nD) :
    (V1 m ρ c main_v0 : S8x128x512.Idx → EReal) = m ((c : Thread nD τ).loc main_arg0)
    ∧ (V1 m ρ c main_v1 : S1024x512.Idx → EReal) = m ((c : Thread nD τ).loc main_arg1)
    ∧ (V1 m ρ c main_v2 : S1024x512.Idx → EReal) = m ((c : Thread nD τ).loc main_arg5)
    ∧ (V1 m ρ c main_v3 : S1024x512.Idx → EReal) = m ((c : Thread nD τ).loc main_arg9)
    ∧ (V1 m ρ c main_v4 : S1024x512.Idx → EReal) = m ((c : Thread nD τ).loc main_arg13) := by
  refine ⟨?_, ?_, ?_, ?_, ?_⟩ <;> (dsimp only [V1, W1, hostOps0]; after_results; rfl)

/-- The four first-layer biases as rows: each is the shape cast of the launched bias. -/
theorem V1_bias_rows (c : Dev nD) :
    (V1 m ρ c main_v5 : S1x512.Idx → EReal) = shapeCast S1x512 (m ((c : Thread nD τ).loc main_arg2) : S512.Idx → EReal) shapeCasts_S512_S1x512
    ∧ (V1 m ρ c main_v6 : S1x512.Idx → EReal) = shapeCast S1x512 (m ((c : Thread nD τ).loc main_arg6) : S512.Idx → EReal) shapeCasts_S512_S1x512
    ∧ (V1 m ρ c main_v7 : S1x512.Idx → EReal) = shapeCast S1x512 (m ((c : Thread nD τ).loc main_arg10) : S512.Idx → EReal) shapeCasts_S512_S1x512
    ∧ (V1 m ρ c main_v8 : S1x512.Idx → EReal) = shapeCast S1x512 (m ((c : Thread nD τ).loc main_arg14) : S512.Idx → EReal) shapeCasts_S512_S1x512 := by
  refine ⟨?_, ?_, ?_, ?_⟩ <;> (dsimp only [V1, W1, hostOps0]; after_results; rfl)

/-- Entry (0, l) of a bias row is entry l of the bias. -/
theorem row_apply (b : S512.Idx → EReal) (u : Fin 1) (l : Fin 512) :
    shapeCast S1x512 b shapeCasts_S512_S1x512 (ix2 u l) = b (ix1 l) := shapeCast_a_1a_apply b _ u l

/-! ## What the second kernel finds -/

/-- The first kernel's eight output arrays, as that kernel left them: the host operations between the kernels write
    none of them. -/
theorem V3_projections (c : Dev nD) :
    V3 m ρ c main_v9_0 = (dat0 (V1 m ρ) c).arrAt 9 cfg0.N ∧ V3 m ρ c main_v9_1 = (dat0 (V1 m ρ) c).arrAt 10 cfg0.N
    ∧ V3 m ρ c main_v9_2 = (dat0 (V1 m ρ) c).arrAt 11 cfg0.N ∧ V3 m ρ c main_v9_3 = (dat0 (V1 m ρ) c).arrAt 12 cfg0.N
    ∧ V3 m ρ c main_v9_4 = (dat0 (V1 m ρ) c).arrAt 13 cfg0.N ∧ V3 m ρ c main_v9_5 = (dat0 (V1 m ρ) c).arrAt 14 cfg0.N
    ∧ V3 m ρ c main_v9_6 = (dat0 (V1 m ρ) c).arrAt 15 cfg0.N ∧ V3 m ρ c main_v9_7 = (dat0 (V1 m ρ) c).arrAt 16 cfg0.N := by
  refine ⟨?_, ?_, ?_, ?_, ?_, ?_, ?_, ?_⟩
  · exact (show StableHlo.after hostOps1 (W2 m ρ c) (Proc.devRef .tc main_v9_0) = W2 m ρ c (Proc.devRef .tc main_v9_0) by kept_across hostOps1).trans (W2_arr m ρ c 9)
  · exact (show StableHlo.after hostOps1 (W2 m ρ c) (Proc.devRef .tc main_v9_1) = W2 m ρ c (Proc.devRef .tc main_v9_1) by kept_across hostOps1).trans (W2_arr m ρ c 10)
  · exact (show StableHlo.after hostOps1 (W2 m ρ c) (Proc.devRef .tc main_v9_2) = W2 m ρ c (Proc.devRef .tc main_v9_2) by kept_across hostOps1).trans (W2_arr m ρ c 11)
  · exact (show StableHlo.after hostOps1 (W2 m ρ c) (Proc.devRef .tc main_v9_3) = W2 m ρ c (Proc.devRef .tc main_v9_3) by kept_across hostOps1).trans (W2_arr m ρ c 12)
  · exact (show StableHlo.after hostOps1 (W2 m ρ c) (Proc.devRef .tc main_v9_4) = W2 m ρ c (Proc.devRef .tc main_v9_4) by kept_across hostOps1).trans (W2_arr m ρ c 13)
  · exact (show StableHlo.after hostOps1 (W2 m ρ c) (Proc.devRef .tc main_v9_5) = W2 m ρ c (Proc.devRef .tc main_v9_5) by kept_across hostOps1).trans (W2_arr m ρ c 14)
  · exact (show StableHlo.after hostOps1 (W2 m ρ c) (Proc.devRef .tc main_v9_6) = W2 m ρ c (Proc.devRef .tc main_v9_6) by kept_across hostOps1).trans (W2_arr m ρ c 15)
  · exact (show StableHlo.after hostOps1 (W2 m ρ c) (Proc.devRef .tc main_v9_7) = W2 m ρ c (Proc.devRef .tc main_v9_7) by kept_across hostOps1).trans (W2_arr m ρ c 16)

/-- An argument that neither the first host stretch nor the first kernel writes is, at the first kernel's exit, as
    launched: stated for the eight second-layer arguments. -/
theorem W2_second_layer (c : Dev nD) :
    W2 m ρ c (Proc.devRef .tc main_arg3) = m ((c : Thread nD τ).loc main_arg3)
    ∧ W2 m ρ c (Proc.devRef .tc main_arg7) = m ((c : Thread nD τ).loc main_arg7)
    ∧ W2 m ρ c (Proc.devRef .tc main_arg11) = m ((c : Thread nD τ).loc main_arg11)
    ∧ W2 m ρ c (Proc.devRef .tc main_arg15) = m ((c : Thread nD τ).loc main_arg15)
    ∧ W2 m ρ c (Proc.devRef .tc main_arg4) = m ((c : Thread nD τ).loc main_arg4)
    ∧ W2 m ρ c (Proc.devRef .tc main_arg8) = m ((c : Thread nD τ).loc main_arg8)
    ∧ W2 m ρ c (Proc.devRef .tc main_arg12) = m ((c : Thread nD τ).loc main_arg12)
    ∧ W2 m ρ c (Proc.devRef .tc main_arg16) = m ((c : Thread nD τ).loc main_arg16) := by
  refine ⟨?_, ?_, ?_, ?_, ?_, ?_, ?_, ?_⟩
  · exact (W2_of_ne m ρ c main_arg3 (by decide)).trans (show StableHlo.after hostOps0 (W0 m ρ c) (Proc.devRef .tc main_arg3) = W0 m ρ c (Proc.devRef .tc main_arg3) by kept_across hostOps0)
  · exact (W2_of_ne m ρ c main_arg7 (by decide)).trans (show StableHlo.after hostOps0 (W0 m ρ c) (Proc.devRef .tc main_arg7) = W0 m ρ c (Proc.devRef .tc main_arg7) by kept_across hostOps0)
  · exact (W2_of_ne m ρ c main_arg11 (by decide)).trans (show StableHlo.after hostOps0 (W0 m ρ c) (Proc.devRef .tc main_arg11) = W0 m ρ c (Proc.devRef .tc main_arg11) by kept_across hostOps0)
  · exact (W2_of_ne m ρ c main_arg15 (by decide)).trans (show StableHlo.after hostOps0 (W0 m ρ c) (Proc.devRef .tc main_arg15) = W0 m ρ c (Proc.devRef .tc main_arg15) by kept_across hostOps0)
  · exact (W2_of_ne m ρ c main_arg4 (by decide)).trans (show StableHlo.after hostOps0 (W0 m ρ c) (Proc.devRef .tc main_arg4) = W0 m ρ c (Proc.devRef .tc main_arg4) by kept_across hostOps0)
  · exact (W2_of_ne m ρ c main_arg8 (by decide)).trans (show StableHlo.after hostOps0 (W0 m ρ c) (Proc.devRef .tc main_arg8) = W0 m ρ c (Proc.devRef .tc main_arg8) by kept_across hostOps0)
  · exact (W2_of_ne m ρ c main_arg12 (by decide)).trans (show StableHlo.after hostOps0 (W0 m ρ c) (Proc.devRef .tc main_arg12) = W0 m ρ c (Proc.devRef .tc main_arg12) by kept_across hostOps0)
  · exact (W2_of_ne m ρ c main_arg16 (by decide)).trans (show StableHlo.after hostOps0 (W0 m ρ c) (Proc.devRef .tc main_arg16) = W0 m ρ c (Proc.devRef .tc main_arg16) by kept_across hostOps0)

set_option maxHeartbeats 1600000 in
/-- The four second-layer weight matrices as launched (the conversions are the identity), and the four second-layer
    biases as rows. -/
theorem V3_second_layer (c : Dev nD) :
    (V3 m ρ c main_v10 : S512x1.Idx → EReal) = m ((c : Thread nD τ).loc main_arg3)
    ∧ (V3 m ρ c main_v11 : S512x1.Idx → EReal) = m ((c : Thread nD τ).loc main_arg7)
    ∧ (V3 m ρ c main_v12 : S512x1.Idx → EReal) = m ((c : Thread nD τ).loc main_arg11)
    ∧ (V3 m ρ c main_v13 : S512x50.Idx → EReal) = m ((c : Thread nD τ).loc main_arg15)
    ∧ (V3 m ρ c main_v14 : S1x1.Idx → EReal) = shapeCast S1x1 (m ((c : Thread nD τ).loc main_arg4) : S1.Idx → EReal) shapeCasts_S1_S1x1
    ∧ (V3 m ρ c main_v15 : S1x1.Idx → EReal) = shapeCast S1x1 (m ((c : Thread nD τ).loc main_arg8) : S1.Idx → EReal) shapeCasts_S1_S1x1
    ∧ (V3 m ρ c main_v16 : S1x1.Idx → EReal) = shapeCast S1x1 (m ((c : Thread nD τ).loc main_arg12) : S1.Idx → EReal) shapeCasts_S1_S1x1
    ∧ (V3 m ρ c main_v17 : S1x50.Idx → EReal) = shapeCast S1x50 (m ((c : Thread nD τ).loc main_arg16) : S50.Idx → EReal) shapeCasts_S50_S1x50 := by
  obtain ⟨a3, a7, a11, a15, a4, a8, a12, a16⟩ := W2_second_layer m ρ c
  refine ⟨?_, ?_, ?_, ?_, ?_, ?_, ?_, ?_⟩
  · rw [← a3]; dsimp only [V3, W3, hostOps1]; after_results; rfl
  · rw [← a7]; dsimp only [V3, W3, hostOps1]; after_results; rfl
  · rw [← a11]; dsimp only [V3, W3, hostOps1]; after_results; rfl
  · rw [← a15]; dsimp only [V3, W3, hostOps1]; after_results; rfl
  · rw [← a4]; dsimp only [V3, W3, hostOps1]; after_results; rfl
  · rw [← a8]; dsimp only [V3, W3, hostOps1]; after_results; rfl
  · rw [← a12]; dsimp only [V3, W3, hostOps1]; after_results; rfl
  · rw [← a16]; dsimp only [V3, W3, hostOps1]; after_results; rfl

/-- Entry (0, o) of a one-entry bias row is entry o of the bias. -/
theorem row1_apply (b : S1.Idx → EReal) (u : Fin 1) (o : Fin 1) :
    shapeCast S1x1 b shapeCasts_S1_S1x1 (ix2 u o) = b (ix1 o) := shapeCast_a_1a_apply b _ u o

/-- Entry (0, o) of the fifty-entry bias row is entry o of the bias. -/
theorem row50_apply (b : S50.Idx → EReal) (u : Fin 1) (o : Fin 50) :
    shapeCast S1x50 b shapeCasts_S50_S1x50 (ix2 u o) = b (ix1 o) := shapeCast_a_1a_apply b _ u o

/-! ## The results -/

/-- The program's last three results are the second kernel's last three output arrays as it left them: no host
    operation after the kernel writes them. -/
theorem W8_last_three (c : Dev nD) :
    W8 m ρ c (Proc.devRef .tc main_v18_1) = (dat1 (V3 m ρ) c).arrAt 17 cfg1.N
    ∧ W8 m ρ c (Proc.devRef .tc main_v18_2) = (dat1 (V3 m ρ) c).arrAt 18 cfg1.N
    ∧ W8 m ρ c (Proc.devRef .tc main_v18_3) = (dat1 (V3 m ρ) c).arrAt 19 cfg1.N := by
  refine ⟨?_, ?_, ?_⟩
  · calc W8 m ρ c (Proc.devRef .tc main_v18_1)
      _ = W7 m ρ c (Proc.devRef .tc main_v18_1) := by kept_across hostOps2_3
      _ = W6 m ρ c (Proc.devRef .tc main_v18_1) := by kept_across hostOps2_2
      _ = W5 m ρ c (Proc.devRef .tc main_v18_1) := by kept_across hostOps2_1
      _ = W4 m ρ c (Proc.devRef .tc main_v18_1) := by kept_across hostOps2
      _ = (dat1 (V3 m ρ) c).arrAt 17 cfg1.N := W4_arr m ρ c 17
  · calc W8 m ρ c (Proc.devRef .tc main_v18_2)
      _ = W7 m ρ c (Proc.devRef .tc main_v18_2) := by kept_across hostOps2_3
      _ = W6 m ρ c (Proc.devRef .tc main_v18_2) := by kept_across hostOps2_2
      _ = W5 m ρ c (Proc.devRef .tc main_v18_2) := by kept_across hostOps2_1
      _ = W4 m ρ c (Proc.devRef .tc main_v18_2) := by kept_across hostOps2
      _ = (dat1 (V3 m ρ) c).arrAt 18 cfg1.N := W4_arr m ρ c 18
  · calc W8 m ρ c (Proc.devRef .tc main_v18_3)
      _ = W7 m ρ c (Proc.devRef .tc main_v18_3) := by kept_across hostOps2_3
      _ = W6 m ρ c (Proc.devRef .tc main_v18_3) := by kept_across hostOps2_2
      _ = W5 m ρ c (Proc.devRef .tc main_v18_3) := by kept_across hostOps2_1
      _ = W4 m ρ c (Proc.devRef .tc main_v18_3) := by kept_across hostOps2
      _ = (dat1 (V3 m ρ) c).arrAt 19 cfg1.N := W4_arr m ρ c 19

end Cert.KernelIdeal.Host

end
-- ==== Proof.TailValue.lean ====
/-
  The last host operations on the first result, as one function of the second kernel's first output array.

  With X the [8, 128, 128] array, and Xᵀ its transpose in the last two axes, the program returns
    ( triu(Xᵀ) + (triu(Xᵀ, 1))ᵀ )ᵀ,
  where triu keeps the entries on and above the diagonal (the host writes it as a select on "row index − 1 ≥ column
  index", zero where it holds) and triu(·, 1) those strictly above it ("row index ≥ column index"). Both programs
  apply exactly these operations, so the function is never opened: it is only named.
-/
import proofs.«404877_j44659069943968_3_alg».proof.Proof.Gen.KernelIdeal.Frame
import Idealize.ShloMosaic.Lib.StableHlo.Run
import Idealize.ShloMosaic.PureOps.Ideal

set_option maxRecDepth 16384

noncomputable section

namespace Cert.KernelIdeal.Host

open Idealize.ShloMosaic Idealize.ShloMosaic.TcCoe Idealize.SL.Sem
open Idealize.ShloMosaic.StableHlo
open Cert.KernelIdeal Cert.KernelIdeal.Gen

/-- The mask "row index + k ≥ column index" over [8, 128, 128], the same on every batch row. -/
def maskGe (k : BitVec 32) : IVec S8x128x128 1 :=
  broadcastInDim S8x128x128 ![1, 2] bcast_S128x128_S8x128x128_1_2
    (cmpi .sge (addi (iotaInDim S128x128 32 0) (broadcastInDim S128x128 ![] bcast_S_S128x128 (constantI S_ 32 k)))
      (iotaInDim S128x128 32 1))

/-- The zero array. -/
def zeros : FVec Ideal S8x128x128 .f32 :=
  broadcastInDim S8x128x128 ![] bcast_S_S8x128x128 (constant (F := Ideal) S_ .f32 0x00000000#32)

/-- Transposition in the last two axes. -/
def swap12 (X : FVec Ideal S8x128x128 .f32) : FVec Ideal S8x128x128 .f32 :=
  transpose S8x128x128 [0, 2, 1] X transposes_S8x128x128_S8x128x128_0_2_1

/-- The symmetrization the program applies to the first head's output. -/
def tail (X : FVec Ideal S8x128x128 .f32) : FVec Ideal S8x128x128 .f32 :=
  swap12 (addf (select (maskGe 4294967295#32) zeros (swap12 X)) (swap12 (select (maskGe 0#32) zeros (swap12 X))))

/-- Contents moved to a typed reference's buffer type and back are unchanged. -/
theorem ofBuf_toBuf {T : BufTy} (x : TRef sig T) (v : T.Contents (Elt Ideal)) : x.ofBuf (x.toBuf v) = v := by
  obtain ⟨r, h, h1, h2⟩ := x
  subst h
  rfl

/-- At the literal references of the two triangular masks' operands and results the move is the identity. -/
theorem ofBuf_v19 (u : ((main_v19 : Ref sig .tc).ty).Contents (Elt Ideal)) :
    (TRef.of (T := ⟨S8x128x128, .f32⟩) main_v19).ofBuf u = u := rfl
theorem toBuf_v20 (v : (⟨S8x128x128, .f32⟩ : BufTy).Contents (Elt Ideal)) :
    (TRef.of (T := ⟨S8x128x128, .f32⟩) main_v20).toBuf v = v := rfl
theorem toBuf_v21 (v : (⟨S8x128x128, .f32⟩ : BufTy).Contents (Elt Ideal)) :
    (TRef.of (T := ⟨S8x128x128, .f32⟩) main_v21).toBuf v = v := rfl

variable (X : Valuation τ sig (Elt Ideal))

/-- The stretch that transposes the kernel's first output. -/
theorem after_transpose :
    (StableHlo.after hostOps2 X (Proc.devRef .tc main_v19) : S8x128x128.Idx → EReal) = swap12 (X (Proc.devRef .tc main_v18_0)) := by
  dsimp only [hostOps2]; after_results; rfl

/-- The first triangular mask's stretch: its result, and the transposed array it leaves alone. -/
theorem after_triu :
    (StableHlo.after hostOps2_1 X (Proc.devRef .tc main_v20) : S8x128x128.Idx → EReal)
      = select (maskGe 4294967295#32) zeros (X (Proc.devRef .tc main_v19)) := by
  dsimp only [hostOps2_1]; after_results; simp only [ofBuf_toBuf]; rw [toBuf_v20, ofBuf_v19]; rfl

theorem after_triu_keeps :
    StableHlo.after hostOps2_1 X (Proc.devRef .tc main_v19) = X (Proc.devRef .tc main_v19) := by
  exact StableHlo.after_of_forall_not_mem _ _ (List.forall_iff_forall_mem.mp (by
    simp only [hostOps2_1, List.Forall, StableHlo.nullary_writes, StableHlo.unary_writes, StableHlo.binary_writes,
      StableHlo.ternary_writes, Finset.mem_singleton]
    repeat' apply And.intro
    all_goals exact StableHlo.devRef_ne_of_ne (by decide)))

/-- The second triangular mask's stretch: its result, and the first mask's result it leaves alone. -/
theorem after_triu1 :
    (StableHlo.after hostOps2_2 X (Proc.devRef .tc main_v21) : S8x128x128.Idx → EReal)
      = select (maskGe 0#32) zeros (X (Proc.devRef .tc main_v19)) := by
  dsimp only [hostOps2_2]; after_results; simp only [ofBuf_toBuf]; rw [toBuf_v21, ofBuf_v19]; rfl

theorem after_triu1_keeps :
    StableHlo.after hostOps2_2 X (Proc.devRef .tc main_v20) = X (Proc.devRef .tc main_v20) := by
  exact StableHlo.after_of_forall_not_mem _ _ (List.forall_iff_forall_mem.mp (by
    simp only [hostOps2_2, List.Forall, StableHlo.nullary_writes, StableHlo.unary_writes, StableHlo.binary_writes,
      StableHlo.ternary_writes, Finset.mem_singleton]
    repeat' apply And.intro
    all_goals exact StableHlo.devRef_ne_of_ne (by decide)))

/-- The last stretch: transpose, add, transpose. -/
theorem after_sum :
    (StableHlo.after hostOps2_3 X (Proc.devRef .tc main_v24) : S8x128x128.Idx → EReal)
      = swap12 (addf (X (Proc.devRef .tc main_v20) : S8x128x128.Idx → EReal) (swap12 (X (Proc.devRef .tc main_v21)))) := by
  dsimp only [hostOps2_3]; after_results; rfl

variable (m : (ℓ : Loc nD τ sig) → Buf (Elt Ideal) ℓ) (ρ : Dev nD → PrngReg)

/-- THE FIRST RESULT: the symmetrization of the second kernel's first output array as that kernel left it. -/
theorem W8_first (c : Dev nD) :
    (W8 m ρ c (Proc.devRef .tc main_v24) : S8x128x128.Idx → EReal) = tail ((dat1 (V3 m ρ) c).arrAt 16 cfg1.N) := by
  rw [← W4_arr m ρ c 16]
  show StableHlo.after hostOps2_3 (StableHlo.after hostOps2_2 (StableHlo.after hostOps2_1 (StableHlo.after hostOps2 (W4 m ρ c)))) (Proc.devRef .tc main_v24)
    = tail (W4 m ρ c (Proc.devRef .tc main_v18_0))
  generalize W4 m ρ c = Y
  rw [after_sum, after_triu1_keeps, after_triu1, after_triu, after_triu_keeps, after_transpose]
  rfl

end Cert.KernelIdeal.Host

end
-- ==== Proof.ProjPayload.lean ====
/-
  The projection kernel's arithmetic, read one element at a time over the extended reals.

  At one batch row the kernel multiplies the [128, 512] block of token features by the top half and by the bottom
  half of a head's first-layer weight matrix ([1024, 512], rows 0..511 and rows 512..1023), adds the head's
  first-layer bias row to the first product, and stores the two [128, 512] results. Entry (i, l) of the first is
  Σ_k x[i, k] · W1[k, l] + b1[l], of the second Σ_k x[i, k] · W1[512 + k, l]: a matrix product into a zero
  accumulator is the plain sum of products, and the shape casts that add or drop the leading unit axis and the
  broadcast of the bias row only re-address elements.
-/
import proofs.«404877_j44659069943968_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Proj

open Idealize.ShloMosaic Idealize.ShloMosaic.TcCoe Idealize.SL.Sem Idealize.ShloMosaic.ValueIdx
open Cert.KernelIdeal Cert.KernelIdeal.Gen

/-! ## The [128, 512] × [512, 512] product at an entry -/

theorem lhs_axis0 (i : S128x512.Idx) (q : dot_S128x512_S512x512_S128x512_1_0_0_1_n_n.contr.Idx) :
    (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
theorem lhs_axis1 (i : S128x512.Idx) (q : dot_S128x512_S512x512_S128x512_1_0_0_1_n_n.contr.Idx) :
    (dot_S128x512_S512x512_S128x512_1_0_0_1_n_n.lhsIdx i q 1).val = (q ⟨0, by decide⟩).val :=
  dot_S128x512_S512x512_S128x512_1_0_0_1_n_n.lhsIdx_val_of_single rfl i q
theorem rhs_axis0 (i : S128x512.Idx) (q : dot_S128x512_S512x512_S128x512_1_0_0_1_n_n.contr.Idx) :
    (dot_S128x512_S512x512_S128x512_1_0_0_1_n_n.rhsIdx i q 0).val = (q ⟨0, by decide⟩).val :=
  dot_S128x512_S512x512_S128x512_1_0_0_1_n_n.rhsIdx_val_of_single rfl i q
theorem rhs_axis1 (i : S128x512.Idx) (q : dot_S128x512_S512x512_S128x512_1_0_0_1_n_n.contr.Idx) :
    (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl

/-- Entry (i, l) of the product into a zero accumulator is Σ_k a[i, k] · w[k, l]. -/
theorem product_apply (a : FVec Ideal S128x512 .bf16) (w : FVec Ideal S512x512 .bf16) (i : Fin 128) (l : Fin 512) :
    matmul (F := Ideal) dot_S128x512_S512x512_S128x512_1_0_0_1_n_n none a w (constant (F := Ideal) S128x512 .f32 0x00000000#32) (ix2 i l)
      = ∑ k : Fin 512, a (ix2 i k) * w (ix2 k l) := by
  simp only [matmul]
  rw [Ideal.matmul_constant_zero_apply, ← Equiv.sum_comp (contrEquiv1 dot_S128x512_S512x512_S128x512_1_0_0_1_n_n 512 rfl rfl).symm]
  refine Finset.sum_congr rfl fun k _ => ?_
  have hk := contrEquiv1_symm_val dot_S128x512_S512x512_S128x512_1_0_0_1_n_n 512 rfl rfl k
  have el : dot_S128x512_S512x512_S128x512_1_0_0_1_n_n.lhsIdx (ix2 i l) ((contrEquiv1 dot_S128x512_S512x512_S128x512_1_0_0_1_n_n 512 rfl rfl).symm k) = ix2 i k := funext fun a => Fin.ext (by
    match a with
    | ⟨0, _⟩ => exact lhs_axis0 _ _
    | ⟨1, _⟩ => exact (lhs_axis1 _ _).trans hk)
  have er : dot_S128x512_S512x512_S128x512_1_0_0_1_n_n.rhsIdx (ix2 i l) ((contrEquiv1 dot_S128x512_S512x512_S128x512_1_0_0_1_n_n 512 rfl rfl).symm k) = ix2 k l := funext fun a => Fin.ext (by
    match a with
    | ⟨0, _⟩ => exact (rhs_axis0 _ _).trans hk
    | ⟨1, _⟩ => exact rhs_axis1 _ _)
  rw [el, er]

/-! ## The two stored values as functions of the loaded blocks -/

variable {F : FTy → Type} [FloatOps F]

/-- What the kernel stores for "left": the product with the top half plus the broadcast bias row, as [1, 128, 512]. -/
def leftPay (x0 : Vec F S1x128x512 .bf16) (w : Vec F S512x512 .bf16) (b : Vec F S1x512 .f32) : FVec F S1x128x512 .f32 :=
  shapeCast S1x128x512
    (addf (matmul dot_S128x512_S512x512_S128x512_1_0_0_1_n_n none (shapeCast S128x512 x0 shapeCasts_S1x128x512_S128x512)
        (shapeCast S512x512 w shapeCasts_S512x512_S512x512) (constant S128x512 .f32 0x00000000#32))
      (broadcastTo S128x512 (shapeCast S1x512 b shapeCasts_S1x512_S1x512) broadcasts_S1x512_S128x512))
    shapeCasts_S128x512_S1x128x512

/-- What the kernel stores for "right": the product with the bottom half, as [1, 128, 512]. -/
def rightPay (x0 : Vec F S1x128x512 .bf16) (w : Vec F S512x512 .bf16) : FVec F S1x128x512 .f32 :=
  shapeCast S1x128x512
    (matmul dot_S128x512_S512x512_S128x512_1_0_0_1_n_n none (shapeCast S128x512 x0 shapeCasts_S1x128x512_S128x512)
        (shapeCast S512x512 w shapeCasts_S512x512_S512x512) (constant S128x512 .f32 0x00000000#32))
    shapeCasts_S128x512_S1x128x512

/-- The four heads' stored "left" values are this one function of their loaded blocks. -/
theorem left_s_eq (x0 : Vec F S1x128x512 .bf16) (w : Vec F S512x512 .bf16) (b : Vec F S1x512 .f32) :
    k0_pay4 x0 w b = leftPay x0 w b := rfl
theorem left_h_eq (x0 : Vec F S1x128x512 .bf16) (w : Vec F S512x512 .bf16) (b : Vec F S1x512 .f32) :
    k0_pay8 (k0_pay6 x0 w b) = leftPay x0 w b := rfl
theorem left_t_eq (x0 : Vec F S1x128x512 .bf16) (w : Vec F S512x512 .bf16) (b : Vec F S1x512 .f32) :
    k0_pay10 (k0_pay3 x0) w b = leftPay x0 w b := rfl
theorem left_l_eq (x0 : Vec F S1x128x512 .bf16) (w : Vec F S512x512 .bf16) (b : Vec F S1x512 .f32) :
    k0_pay1 (k0_pay12 (k0_pay3 x0) w b) = leftPay x0 w b := rfl

/-- The four heads' stored "right" values are this one function of their loaded blocks. -/
theorem right_s_eq (x0 : Vec F S1x128x512 .bf16) (w : Vec F S512x512 .bf16) : k0_pay5 x0 w = rightPay x0 w := rfl
theorem right_h_eq (x0 : Vec F S1x128x512 .bf16) (w : Vec F S512x512 .bf16) : k0_pay9 (k0_pay7 x0 w) = rightPay x0 w := rfl
theorem right_t_eq (x0 : Vec F S1x128x512 .bf16) (w : Vec F S512x512 .bf16) : k0_pay11 (k0_pay3 x0) w = rightPay x0 w := rfl
theorem right_l_eq (x0 : Vec F S1x128x512 .bf16) (w : Vec F S512x512 .bf16) :
    k0_pay2 (k0_pay13 (k0_pay3 x0) w) = rightPay x0 w := rfl

/-- Entry (0, i, l) of the stored "left" value: Σ_k x[0, i, k] · w[k, l] + b[0, l]. -/
theorem leftPay_apply (x0 : Vec Ideal S1x128x512 .bf16) (w : Vec Ideal S512x512 .bf16) (b : Vec Ideal S1x512 .f32)
    (u : Fin 1) (i : Fin 128) (l : Fin 512) :
    leftPay (F := Ideal) x0 w b (ix3 u i l) = (∑ k : Fin 512, x0 (ix3 (0 : Fin 1) i k) * w (ix2 k l)) + b (ix2 (0 : Fin 1) l) := by
  unfold leftPay
  rw [shapeCast_ab_1ab_apply, addf_apply, product_apply, broadcastTo_1b_ab_apply, shapeCast_self, shapeCast_self]
  refine congrArg (· + b (ix2 (0 : Fin 1) l)) (Finset.sum_congr rfl fun k _ => ?_)
  rw [shapeCast_1ab_ab_apply]

/-- Entry (0, i, l) of the stored "right" value: Σ_k x[0, i, k] · w[k, l]. -/
theorem rightPay_apply (x0 : Vec Ideal S1x128x512 .bf16) (w : Vec Ideal S512x512 .bf16)
    (u : Fin 1) (i : Fin 128) (l : Fin 512) :
    rightPay (F := Ideal) x0 w (ix3 u i l) = ∑ k : Fin 512, x0 (ix3 (0 : Fin 1) i k) * w (ix2 k l) := by
  unfold rightPay
  rw [shapeCast_ab_1ab_apply, product_apply, shapeCast_self]
  refine Finset.sum_congr rfl fun k _ => ?_
  rw [shapeCast_1ab_ab_apply]

end Cert.KernelIdeal.Proj

end
-- ==== Proof.PairSpec.lean ====
/-
  The mathematics both programs compute, as functions of index coordinates over the extended reals.

  For one scoring head with first-layer weights W1 : [1024, 512] (its top half multiplies the "row" token, its bottom
  half the "column" token), first-layer bias b1 : [512], second-layer weights W2 : [512, n] and bias b2 : [n]:

    left  [b, i, l] = Σ_k x[b, i, k] · W1[k, l]         (+ b1[l] where the bias is folded into the projection)
    right [b, j, l] = Σ_k x[b, j, k] · W1[512 + k, l]
    out[b, i, j, o] = Σ_l tanh (pre[b, i, j, l]) · W2[l, o] + b2[o]

  The two programs differ only in where b1 enters the pre-activation: one adds it to "left" before the pairwise
  sum, (left + b1) + right, the other after it, (left + right) + b1. On the extended reals addition is a
  commutative monoid, so the two are equal with no finiteness assumption ("pre_comm").
-/
import Idealize.ShloMosaic.PureOps.Ideal
import Idealize.ShloMosaic.Lib.ValueIdx

noncomputable section

open scoped BigOperators
open Idealize.ShloMosaic Idealize.ShloMosaic.ValueIdx

namespace Cert.PairSpec

/-- Row k of the top half of a [1024, 512] weight matrix. -/
abbrev topRow (k : Fin 512) : Fin 1024 := ⟨k.val, by omega⟩
/-- Row k of the bottom half of a [1024, 512] weight matrix. -/
abbrev botRow (k : Fin 512) : Fin 1024 := ⟨512 + k.val, by omega⟩

/-- The contraction of a token's features with the top half of W1: Σ_k x[b, i, k] · W1[k, l]. -/
def projTop (x : (⟨3, ![8, 128, 512]⟩ : Shape).Idx → EReal) (W1 : (⟨2, ![1024, 512]⟩ : Shape).Idx → EReal)
    (b : Fin 8) (i : Fin 128) (l : Fin 512) : EReal :=
  ∑ k : Fin 512, x (ix3 b i k) * W1 (ix2 (topRow k) l)

/-- The contraction with the bottom half of W1: Σ_k x[b, j, k] · W1[512 + k, l]. -/
def projBot (x : (⟨3, ![8, 128, 512]⟩ : Shape).Idx → EReal) (W1 : (⟨2, ![1024, 512]⟩ : Shape).Idx → EReal)
    (b : Fin 8) (j : Fin 128) (l : Fin 512) : EReal :=
  ∑ k : Fin 512, x (ix3 b j k) * W1 (ix2 (botRow k) l)

/-- The "left" projection array with the first-layer bias folded in: left[b, i, l] = projTop + b1[l]. -/
def leftArr (x : (⟨3, ![8, 128, 512]⟩ : Shape).Idx → EReal) (W1 : (⟨2, ![1024, 512]⟩ : Shape).Idx → EReal)
    (b1 : Fin 512 → EReal) : (⟨3, ![8, 128, 512]⟩ : Shape).Idx → EReal :=
  fun j => projTop x W1 (j 0) (j 1) (j 2) + b1 (j 2)

/-- The "right" projection array: right[b, j, l] = projBot. -/
def rightArr (x : (⟨3, ![8, 128, 512]⟩ : Shape).Idx → EReal) (W1 : (⟨2, ![1024, 512]⟩ : Shape).Idx → EReal) :
    (⟨3, ![8, 128, 512]⟩ : Shape).Idx → EReal :=
  fun j => projBot x W1 (j 0) (j 1) (j 2)

/-- One entry of a head's output from the two projection arrays: Σ_l tanh (L[b,i,l] + R[b,j,l]) · W2[l,o] + b2[o]. -/
def pairEntry {n : Nat} (Lft Rgt : (⟨3, ![8, 128, 512]⟩ : Shape).Idx → EReal)
    (W2 : (⟨2, ![512, n]⟩ : Shape).Idx → EReal) (b2 : Fin n → EReal)
    (b : Fin 8) (i j : Fin 128) (o : Fin n) : EReal :=
  (∑ l : Fin 512, Ideal.tanh (Lft (ix3 b i l) + Rgt (ix3 b j l)) * W2 (ix2 l o)) + b2 o

/-- A head's output entry as a function of the program's arguments (bias folded into "left"). -/
def headEntry {n : Nat} (x : (⟨3, ![8, 128, 512]⟩ : Shape).Idx → EReal) (W1 : (⟨2, ![1024, 512]⟩ : Shape).Idx → EReal)
    (b1 : Fin 512 → EReal) (W2 : (⟨2, ![512, n]⟩ : Shape).Idx → EReal) (b2 : Fin n → EReal)
    (b : Fin 8) (i j : Fin 128) (o : Fin n) : EReal :=
  pairEntry (leftArr x W1 b1) (rightArr x W1) W2 b2 b i j o

/-- A one-column head's output array [8, 128, 128]. -/
def head1 (x : (⟨3, ![8, 128, 512]⟩ : Shape).Idx → EReal) (W1 : (⟨2, ![1024, 512]⟩ : Shape).Idx → EReal)
    (b1 : Fin 512 → EReal) (W2 : (⟨2, ![512, 1]⟩ : Shape).Idx → EReal) (b2 : Fin 1 → EReal) :
    (⟨3, ![8, 128, 128]⟩ : Shape).Idx → EReal :=
  fun j => headEntry x W1 b1 W2 b2 (j 0) (j 1) (j 2) 0

/-- The fifty-column head's output array [8, 128, 128, 50]. -/
def head50 (x : (⟨3, ![8, 128, 512]⟩ : Shape).Idx → EReal) (W1 : (⟨2, ![1024, 512]⟩ : Shape).Idx → EReal)
    (b1 : Fin 512 → EReal) (W2 : (⟨2, ![512, 50]⟩ : Shape).Idx → EReal) (b2 : Fin 50 → EReal) :
    (⟨4, ![8, 128, 128, 50]⟩ : Shape).Idx → EReal :=
  fun j => headEntry x W1 b1 W2 b2 (j 0) (j 1) (j 2) (j 3)

/-- The pre-activation with the bias added last equals the one with the bias folded into "left":
    (p + q) + c = (p + c) + q in any commutative monoid, the extended reals included. -/
theorem pre_comm (p q c : EReal) : p + q + c = p + c + q := add_right_comm p q c

/-- A head's entry written with the bias added after the pairwise sum, as the plain-jnp program does. -/
theorem headEntry_bias_last {n : Nat} (x : (⟨3, ![8, 128, 512]⟩ : Shape).Idx → EReal)
    (W1 : (⟨2, ![1024, 512]⟩ : Shape).Idx → EReal) (b1 : Fin 512 → EReal)
    (W2 : (⟨2, ![512, n]⟩ : Shape).Idx → EReal) (b2 : Fin n → EReal) (b : Fin 8) (i j : Fin 128) (o : Fin n) :
    (∑ l : Fin 512, Ideal.tanh (projTop x W1 b i l + projBot x W1 b j l + b1 l) * W2 (ix2 l o)) + b2 o
      = headEntry x W1 b1 W2 b2 b i j o := by
  unfold headEntry pairEntry leftArr rightArr
  refine congrArg (· + b2 o) (Finset.sum_congr rfl fun l _ => ?_)
  show Ideal.tanh (projTop x W1 b i l + projBot x W1 b j l + b1 l) * W2 (ix2 l o)
    = Ideal.tanh (projTop x W1 b i l + b1 l + projBot x W1 b j l) * W2 (ix2 l o)
  rw [pre_comm]

end Cert.PairSpec

end
-- ==== Proof.ProjBlocks.lean ====
/-
  The projection kernel's blocks: what every head's proof shares.

  At grid point t (the batch row) the kernel reads block t of the token features, [1, 128, 512] of [8, 128, 512]:
  entry (u, i, k) of the block is entry (t, i, k) of the array. A head's weight matrix is loaded whole and read in
  two halves: row k of the top half is row k of the matrix, row k of the bottom half is row 512 + k.
-/
import proofs.«404877_j44659069943968_3_alg».proof.Proof.ProjPayload
import proofs.«404877_j44659069943968_3_alg».proof.Proof.PairSpec

set_option maxRecDepth 16384

noncomputable section

open scoped BigOperators

namespace Cert.KernelIdeal.Proj

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The batch row a grid point stands for. -/
abbrev row (t : Fin cfg0.N) : Fin 8 := t.cast N_0

/-- The grid point of a batch row. -/
abbrev pointOf (b : Fin 8) : Fin cfg0.N := b.cast N_0.symm

/-- The printed index map of the feature window over the grid: block (t, 0, 0). -/
theorem idx_x : ∀ t : Fin cfg0.N, win0_0.index t (0 : Fin 3) = t.val ∧ win0_0.index t (1 : Fin 3) = 0 ∧ win0_0.index t (2 : Fin 3) = 0 :=
  (by decide +kernel : ∀ t : Fin grid0.N, _)

/-- The feature block at point t, read at (u, i, k), is the feature array at (t, i, k). -/
theorem xblk_apply (c : Dev nD) (t : Fin cfg0.N) (u : Fin 1) (i : Fin 128) (k : Fin 512) :
    iblk0 V c 0 t (ix3 u i k) = V c main_v0 (ix3 (row t) i k) := by
  obtain ⟨e0, e1, e2⟩ := idx_x t
  show V c main_v0 (((cfg0.win 0).blk t).view.emb (ix3 u i k)) = V c main_v0 (ix3 (row t) i k)
  refine congrArg _ (funext fun a => Fin.ext ?_)
  match a with
  | ⟨0, _⟩ => show win0_0.index t (0 : Fin 3) * 1 + 1 * u.val = t.val; have := u.isLt; omega
  | ⟨1, _⟩ => show win0_0.index t (1 : Fin 3) * 128 + 1 * i.val = i.val; omega
  | ⟨2, _⟩ => show win0_0.index t (2 : Fin 3) * 512 + 1 * k.val = k.val; omega

/-- Row k of the top half of a loaded weight matrix. -/
theorem top_apply (w : Vec Ideal S1024x512 .bf16) (k l : Fin 512) :
    View.ld w r0_1 (ix2 k l) = w (ix2 (Cert.PairSpec.topRow k) l) := by
  show w (r0_1.idx (ix2 k l)) = _
  refine congrArg _ (funext fun a => Fin.ext ?_)
  match a with
  | ⟨0, _⟩ => show 0 + 1 * k.val = k.val; omega
  | ⟨1, _⟩ => show 0 + 1 * l.val = l.val; omega

/-- Row k of the bottom half of a loaded weight matrix. -/
theorem bot_apply (w : Vec Ideal S1024x512 .bf16) (k l : Fin 512) :
    View.ld w r0_2 (ix2 k l) = w (ix2 (Cert.PairSpec.botRow k) l) := by
  show w (r0_2.idx (ix2 k l)) = _
  refine congrArg _ (funext fun a => Fin.ext ?_)
  match a with
  | ⟨0, _⟩ => show 512 + 1 * k.val = 512 + k.val; omega
  | ⟨1, _⟩ => show 0 + 1 * l.val = l.val; omega

end Cert.KernelIdeal.Proj

end
-- ==== Proof.ProjHeadS.lean ====
/-
  The first head's two projection arrays after the projection kernel's run.

  The head's weight and bias windows hold the whole matrix and the whole row at every grid point; its two output
  windows sit at block (t, 0, 0) of [8, 128, 512] arrays. What point t writes back is block t of
    left [b, i, l] = Σ_k x[b, i, k] · W1[k, l] + b1[l]      and      right[b, i, l] = Σ_k x[b, i, k] · W1[512 + k, l],
  and the eight blocks cover the arrays, so the arrays end holding these functions.
-/
import proofs.«404877_j44659069943968_3_alg».proof.Proof.ProjBlocks

set_option maxRecDepth 16384

noncomputable section

open scoped BigOperators

namespace Cert.KernelIdeal.Proj

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The printed index maps of this head's windows over the grid. -/
theorem idx_w1 : ∀ t : Fin cfg0.N, win0_1.index t (0 : Fin 2) = 0 ∧ win0_1.index t (1 : Fin 2) = 0 :=
  (by decide +kernel : ∀ t : Fin grid0.N, _)
theorem idx_b2 : ∀ t : Fin cfg0.N, win0_2.index t (0 : Fin 2) = 0 ∧ win0_2.index t (1 : Fin 2) = 0 :=
  (by decide +kernel : ∀ t : Fin grid0.N, _)
theorem idx_o9 : ∀ t : Fin cfg0.N, win0_9.index t (0 : Fin 3) = t.val ∧ win0_9.index t (1 : Fin 3) = 0 ∧ win0_9.index t (2 : Fin 3) = 0 :=
  (by decide +kernel : ∀ t : Fin grid0.N, _)
theorem idx_o10 : ∀ t : Fin cfg0.N, win0_10.index t (0 : Fin 3) = t.val ∧ win0_10.index t (1 : Fin 3) = 0 ∧ win0_10.index t (2 : Fin 3) = 0 :=
  (by decide +kernel : ∀ t : Fin grid0.N, _)

/-- The weight window holds the whole weight matrix at every point. -/
theorem wblk1_apply (c : Dev nD) (t : Fin cfg0.N) (r : Fin 1024) (l : Fin 512) :
    iblk0 V c 1 t (ix2 r l) = V c main_v1 (ix2 r l) := by
  obtain ⟨e0, e1⟩ := idx_w1 t
  show V c main_v1 (((cfg0.win 1).blk t).view.emb (ix2 r l)) = V c main_v1 (ix2 r l)
  refine congrArg _ (funext fun a => Fin.ext ?_)
  match a with
  | ⟨0, _⟩ => show win0_1.index t (0 : Fin 2) * 1024 + 1 * r.val = r.val; omega
  | ⟨1, _⟩ => show win0_1.index t (1 : Fin 2) * 512 + 1 * l.val = l.val; omega

/-- The bias window holds the whole bias row at every point. -/
theorem bblk2_apply (c : Dev nD) (t : Fin cfg0.N) (u : Fin 1) (l : Fin 512) :
    iblk0 V c 2 t (ix2 u l) = V c main_v5 (ix2 (0 : Fin 1) l) := by
  obtain ⟨e0, e1⟩ := idx_b2 t
  show V c main_v5 (((cfg0.win 2).blk t).view.emb (ix2 u l)) = V c main_v5 (ix2 (0 : Fin 1) l)
  refine congrArg _ (funext fun a => Fin.ext ?_)
  match a with
  | ⟨0, _⟩ => show win0_2.index t (0 : Fin 2) * 1 + 1 * u.val = 0; have := u.isLt; omega
  | ⟨1, _⟩ => show win0_2.index t (1 : Fin 2) * 512 + 1 * l.val = l.val; omega

/-- WHAT POINT t WRITES BACK to the "left" array is block t of the whole-array function. -/
theorem flushed9 (c : Dev nD) (t : Fin cfg0.N) :
    (dat0 (F := Ideal) V c).flushed 9 t = ((cfg0.win 9).blk t).view.read (Elt Ideal)
      (Cert.PairSpec.leftArr (V c main_v0) (V c main_v1) (fun l => V c main_v5 (ix2 (0 : Fin 1) l))) := by
  show (cfg0.win 9).cut (grid0.coords t) ((dat0 V c).after 9 t) = _
  rw [after0_9]
  unfold out0_9
  rw [View.canon_unit_zero hz3]
  simp only [View.ld_unit_zero (S := S1x128x512) hz3, View.ld_unit_zero (S := S1x512) hz2]
  rw [left_s_eq]
  obtain ⟨o0, o1, o2⟩ := idx_o9 t
  funext j
  obtain ⟨u, i, l, rfl⟩ : ∃ (u : Fin 1) (i : Fin 128) (l : Fin 512), j = ix3 u i l := ⟨j 0, j 1, j 2, eq_ix3 j⟩
  show leftPay (F := Ideal) (iblk0 V c 0 t) (View.ld (iblk0 V c 1 t) r0_1) (iblk0 V c 2 t) (ix3 u i l)
    = Cert.PairSpec.leftArr (V c main_v0) (V c main_v1) (fun l => V c main_v5 (ix2 (0 : Fin 1) l)) (((cfg0.win 9).blk t).view.emb (ix3 u i l))
  have he : ((cfg0.win 9).blk t).view.emb (ix3 u i l) = ix3 (row t) i l := by
    funext a; apply Fin.ext
    match a with
    | ⟨0, _⟩ => show win0_9.index t (0 : Fin 3) * 1 + 1 * u.val = t.val; have := u.isLt; omega
    | ⟨1, _⟩ => show win0_9.index t (1 : Fin 3) * 128 + 1 * i.val = i.val; omega
    | ⟨2, _⟩ => show win0_9.index t (2 : Fin 3) * 512 + 1 * l.val = l.val; omega
  rw [he]
  refine (leftPay_apply _ _ _ u i l).trans ?_
  show _ = Cert.PairSpec.projTop (V c main_v0) (V c main_v1) (row t) i l + V c main_v5 (ix2 (0 : Fin 1) l)
  unfold Cert.PairSpec.projTop
  rw [bblk2_apply]
  refine congrArg (· + V c main_v5 (ix2 (0 : Fin 1) l)) (Finset.sum_congr rfl fun k _ => ?_)
  rw [xblk_apply, top_apply, wblk1_apply]

/-- WHAT POINT t WRITES BACK to the "right" array is block t of the whole-array function. -/
theorem flushed10 (c : Dev nD) (t : Fin cfg0.N) :
    (dat0 (F := Ideal) V c).flushed 10 t = ((cfg0.win 10).blk t).view.read (Elt Ideal)
      (Cert.PairSpec.rightArr (V c main_v0) (V c main_v1)) := by
  show (cfg0.win 10).cut (grid0.coords t) ((dat0 V c).after 10 t) = _
  rw [after0_10]
  unfold out0_10
  rw [View.canon_unit_zero hz3]
  simp only [View.ld_unit_zero (S := S1x128x512) hz3]
  rw [right_s_eq]
  obtain ⟨o0, o1, o2⟩ := idx_o10 t
  funext j
  obtain ⟨u, i, l, rfl⟩ : ∃ (u : Fin 1) (i : Fin 128) (l : Fin 512), j = ix3 u i l := ⟨j 0, j 1, j 2, eq_ix3 j⟩
  show rightPay (F := Ideal) (iblk0 V c 0 t) (View.ld (iblk0 V c 1 t) r0_2) (ix3 u i l)
    = Cert.PairSpec.rightArr (V c main_v0) (V c main_v1) (((cfg0.win 10).blk t).view.emb (ix3 u i l))
  have he : ((cfg0.win 10).blk t).view.emb (ix3 u i l) = ix3 (row t) i l := by
    funext a; apply Fin.ext
    match a with
    | ⟨0, _⟩ => show win0_10.index t (0 : Fin 3) * 1 + 1 * u.val = t.val; have := u.isLt; omega
    | ⟨1, _⟩ => show win0_10.index t (1 : Fin 3) * 128 + 1 * i.val = i.val; omega
    | ⟨2, _⟩ => show win0_10.index t (2 : Fin 3) * 512 + 1 * l.val = l.val; omega
  rw [he]
  refine (rightPay_apply _ _ u i l).trans ?_
  show _ = Cert.PairSpec.projBot (V c main_v0) (V c main_v1) (row t) i l
  unfold Cert.PairSpec.projBot
  refine Finset.sum_congr rfl fun k _ => ?_
  rw [xblk_apply, bot_apply, wblk1_apply]

/-- An index of the "left" array is in point t's block iff each coordinate is in the block's range on its axis. -/
theorem mem_blk9 (t : Fin cfg0.N) (i : S8x128x512.Idx) :
    i ∈ ((cfg0.win 9).blk t).view.set ↔ ∀ a : Fin 3, win0_9.index t a * S1x128x512.size a ≤ (i a).val ∧ (i a).val < win0_9.index t a * S1x128x512.size a + S1x128x512.size a := by
  show i ∈ ((View.whole main_v9_0).slice (win0_9.rect t)).set ↔ _
  rw [View.set_slice_whole, Rect.mem_set_unit]
  exact Iff.rfl

/-- The same for the "right" array. -/
theorem mem_blk10 (t : Fin cfg0.N) (i : S8x128x512.Idx) :
    i ∈ ((cfg0.win 10).blk t).view.set ↔ ∀ a : Fin 3, win0_10.index t a * S1x128x512.size a ≤ (i a).val ∧ (i a).val < win0_10.index t a * S1x128x512.size a + S1x128x512.size a := by
  show i ∈ ((View.whole main_v9_1).slice (win0_10.rect t)).set ↔ _
  rw [View.set_slice_whole, Rect.mem_set_unit]
  exact Iff.rfl

/-- Every index (b, i, l) of the "left" array is in the block of the point that stands for batch row b. -/
theorem cover9 (i : S8x128x512.Idx) : ∃ t : Fin cfg0.N, (cfg0.win 9).flush t = true ∧ i ∈ ((cfg0.win 9).blk t).view.set := by
  refine ⟨pointOf (i 0), flush0_9 _, ?_⟩
  rw [mem_blk9]
  obtain ⟨o0, o1, o2⟩ := idx_o9 (pointOf (i 0))
  have ht : (pointOf (i 0)).val = (i 0).val := rfl
  have h1 : (i 1).val < 128 := (i 1).isLt
  have h2 : (i 2).val < 512 := (i 2).isLt
  intro a
  match a with
  | ⟨0, _⟩ => show win0_9.index (pointOf (i 0)) (0 : Fin 3) * 1 ≤ (i 0).val ∧ (i 0).val < win0_9.index (pointOf (i 0)) (0 : Fin 3) * 1 + 1; omega
  | ⟨1, _⟩ => show win0_9.index (pointOf (i 0)) (1 : Fin 3) * 128 ≤ (i 1).val ∧ (i 1).val < win0_9.index (pointOf (i 0)) (1 : Fin 3) * 128 + 128; omega
  | ⟨2, _⟩ => show win0_9.index (pointOf (i 0)) (2 : Fin 3) * 512 ≤ (i 2).val ∧ (i 2).val < win0_9.index (pointOf (i 0)) (2 : Fin 3) * 512 + 512; omega

/-- The same for the "right" array. -/
theorem cover10 (i : S8x128x512.Idx) : ∃ t : Fin cfg0.N, (cfg0.win 10).flush t = true ∧ i ∈ ((cfg0.win 10).blk t).view.set := by
  refine ⟨pointOf (i 0), flush0_10 _, ?_⟩
  rw [mem_blk10]
  obtain ⟨o0, o1, o2⟩ := idx_o10 (pointOf (i 0))
  have ht : (pointOf (i 0)).val = (i 0).val := rfl
  have h1 : (i 1).val < 128 := (i 1).isLt
  have h2 : (i 2).val < 512 := (i 2).isLt
  intro a
  match a with
  | ⟨0, _⟩ => show win0_10.index (pointOf (i 0)) (0 : Fin 3) * 1 ≤ (i 0).val ∧ (i 0).val < win0_10.index (pointOf (i 0)) (0 : Fin 3) * 1 + 1; omega
  | ⟨1, _⟩ => show win0_10.index (pointOf (i 0)) (1 : Fin 3) * 128 ≤ (i 1).val ∧ (i 1).val < win0_10.index (pointOf (i 0)) (1 : Fin 3) * 128 + 128; omega
  | ⟨2, _⟩ => show win0_10.index (pointOf (i 0)) (2 : Fin 3) * 512 ≤ (i 2).val ∧ (i 2).val < win0_10.index (pointOf (i 0)) (2 : Fin 3) * 512 + 512; omega

/-- THE "left" ARRAY after the run. -/
theorem arr_left_s (c : Dev nD) : (dat0 (F := Ideal) V c).arrAt 9 cfg0.N
    = Cert.PairSpec.leftArr (V c main_v0) (V c main_v1) (fun l => V c main_v5 (ix2 (0 : Fin 1) l)) :=
  (dat0 (F := Ideal) V c).arrAt_eq_of_cover 9 _ (fun t _ => flushed9 V c t) cover9

/-- THE "right" ARRAY after the run. -/
theorem arr_right_s (c : Dev nD) : (dat0 (F := Ideal) V c).arrAt 10 cfg0.N
    = Cert.PairSpec.rightArr (V c main_v0) (V c main_v1) :=
  (dat0 (F := Ideal) V c).arrAt_eq_of_cover 10 _ (fun t _ => flushed10 V c t) cover10

end Cert.KernelIdeal.Proj

end
-- ==== Proof.ProjHeadH.lean ====
/-
  The second head's two projection arrays after the projection kernel's run.

  The head's weight and bias windows hold the whole matrix and the whole row at every grid point; its two output
  windows sit at block (t, 0, 0) of [8, 128, 512] arrays. What point t writes back is block t of
    left [b, i, l] = Σ_k x[b, i, k] · W1[k, l] + b1[l]      and      right[b, i, l] = Σ_k x[b, i, k] · W1[512 + k, l],
  and the eight blocks cover the arrays, so the arrays end holding these functions.
-/
import proofs.«404877_j44659069943968_3_alg».proof.Proof.ProjBlocks

set_option maxRecDepth 16384

noncomputable section

open scoped BigOperators

namespace Cert.KernelIdeal.Proj

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The printed index maps of this head's windows over the grid. -/
theorem idx_w3 : ∀ t : Fin cfg0.N, win0_3.index t (0 : Fin 2) = 0 ∧ win0_3.index t (1 : Fin 2) = 0 :=
  (by decide +kernel : ∀ t : Fin grid0.N, _)
theorem idx_b4 : ∀ t : Fin cfg0.N, win0_4.index t (0 : Fin 2) = 0 ∧ win0_4.index t (1 : Fin 2) = 0 :=
  (by decide +kernel : ∀ t : Fin grid0.N, _)
theorem idx_o11 : ∀ t : Fin cfg0.N, win0_11.index t (0 : Fin 3) = t.val ∧ win0_11.index t (1 : Fin 3) = 0 ∧ win0_11.index t (2 : Fin 3) = 0 :=
  (by decide +kernel : ∀ t : Fin grid0.N, _)
theorem idx_o12 : ∀ t : Fin cfg0.N, win0_12.index t (0 : Fin 3) = t.val ∧ win0_12.index t (1 : Fin 3) = 0 ∧ win0_12.index t (2 : Fin 3) = 0 :=
  (by decide +kernel : ∀ t : Fin grid0.N, _)

/-- The weight window holds the whole weight matrix at every point. -/
theorem wblk3_apply (c : Dev nD) (t : Fin cfg0.N) (r : Fin 1024) (l : Fin 512) :
    iblk0 V c 3 t (ix2 r l) = V c main_v2 (ix2 r l) := by
  obtain ⟨e0, e1⟩ := idx_w3 t
  show V c main_v2 (((cfg0.win 3).blk t).view.emb (ix2 r l)) = V c main_v2 (ix2 r l)
  refine congrArg _ (funext fun a => Fin.ext ?_)
  match a with
  | ⟨0, _⟩ => show win0_3.index t (0 : Fin 2) * 1024 + 1 * r.val = r.val; omega
  | ⟨1, _⟩ => show win0_3.index t (1 : Fin 2) * 512 + 1 * l.val = l.val; omega

/-- The bias window holds the whole bias row at every point. -/
theorem bblk4_apply (c : Dev nD) (t : Fin cfg0.N) (u : Fin 1) (l : Fin 512) :
    iblk0 V c 4 t (ix2 u l) = V c main_v6 (ix2 (0 : Fin 1) l) := by
  obtain ⟨e0, e1⟩ := idx_b4 t
  show V c main_v6 (((cfg0.win 4).blk t).view.emb (ix2 u l)) = V c main_v6 (ix2 (0 : Fin 1) l)
  refine congrArg _ (funext fun a => Fin.ext ?_)
  match a with
  | ⟨0, _⟩ => show win0_4.index t (0 : Fin 2) * 1 + 1 * u.val = 0; have := u.isLt; omega
  | ⟨1, _⟩ => show win0_4.index t (1 : Fin 2) * 512 + 1 * l.val = l.val; omega

/-- WHAT POINT t WRITES BACK to the "left" array is block t of the whole-array function. -/
theorem flushed11 (c : Dev nD) (t : Fin cfg0.N) :
    (dat0 (F := Ideal) V c).flushed 11 t = ((cfg0.win 11).blk t).view.read (Elt Ideal)
      (Cert.PairSpec.leftArr (V c main_v0) (V c main_v2) (fun l => V c main_v6 (ix2 (0 : Fin 1) l))) := by
  show (cfg0.win 11).cut (grid0.coords t) ((dat0 V c).after 11 t) = _
  rw [after0_11]
  unfold out0_11
  rw [View.canon_unit_zero hz3]
  simp only [View.ld_unit_zero (S := S1x128x512) hz3, View.ld_unit_zero (S := S1x512) hz2]
  rw [left_h_eq]
  obtain ⟨o0, o1, o2⟩ := idx_o11 t
  funext j
  obtain ⟨u, i, l, rfl⟩ : ∃ (u : Fin 1) (i : Fin 128) (l : Fin 512), j = ix3 u i l := ⟨j 0, j 1, j 2, eq_ix3 j⟩
  show leftPay (F := Ideal) (iblk0 V c 0 t) (View.ld (iblk0 V c 3 t) r0_1) (iblk0 V c 4 t) (ix3 u i l)
    = Cert.PairSpec.leftArr (V c main_v0) (V c main_v2) (fun l => V c main_v6 (ix2 (0 : Fin 1) l)) (((cfg0.win 11).blk t).view.emb (ix3 u i l))
  have he : ((cfg0.win 11).blk t).view.emb (ix3 u i l) = ix3 (row t) i l := by
    funext a; apply Fin.ext
    match a with
    | ⟨0, _⟩ => show win0_11.index t (0 : Fin 3) * 1 + 1 * u.val = t.val; have := u.isLt; omega
    | ⟨1, _⟩ => show win0_11.index t (1 : Fin 3) * 128 + 1 * i.val = i.val; omega
    | ⟨2, _⟩ => show win0_11.index t (2 : Fin 3) * 512 + 1 * l.val = l.val; omega
  rw [he]
  refine (leftPay_apply _ _ _ u i l).trans ?_
  show _ = Cert.PairSpec.projTop (V c main_v0) (V c main_v2) (row t) i l + V c main_v6 (ix2 (0 : Fin 1) l)
  unfold Cert.PairSpec.projTop
  rw [bblk4_apply]
  refine congrArg (· + V c main_v6 (ix2 (0 : Fin 1) l)) (Finset.sum_congr rfl fun k _ => ?_)
  rw [xblk_apply, top_apply, wblk3_apply]

/-- WHAT POINT t WRITES BACK to the "right" array is block t of the whole-array function. -/
theorem flushed12 (c : Dev nD) (t : Fin cfg0.N) :
    (dat0 (F := Ideal) V c).flushed 12 t = ((cfg0.win 12).blk t).view.read (Elt Ideal)
      (Cert.PairSpec.rightArr (V c main_v0) (V c main_v2)) := by
  show (cfg0.win 12).cut (grid0.coords t) ((dat0 V c).after 12 t) = _
  rw [after0_12]
  unfold out0_12
  rw [View.canon_unit_zero hz3]
  simp only [View.ld_unit_zero (S := S1x128x512) hz3]
  rw [right_h_eq]
  obtain ⟨o0, o1, o2⟩ := idx_o12 t
  funext j
  obtain ⟨u, i, l, rfl⟩ : ∃ (u : Fin 1) (i : Fin 128) (l : Fin 512), j = ix3 u i l := ⟨j 0, j 1, j 2, eq_ix3 j⟩
  show rightPay (F := Ideal) (iblk0 V c 0 t) (View.ld (iblk0 V c 3 t) r0_2) (ix3 u i l)
    = Cert.PairSpec.rightArr (V c main_v0) (V c main_v2) (((cfg0.win 12).blk t).view.emb (ix3 u i l))
  have he : ((cfg0.win 12).blk t).view.emb (ix3 u i l) = ix3 (row t) i l := by
    funext a; apply Fin.ext
    match a with
    | ⟨0, _⟩ => show win0_12.index t (0 : Fin 3) * 1 + 1 * u.val = t.val; have := u.isLt; omega
    | ⟨1, _⟩ => show win0_12.index t (1 : Fin 3) * 128 + 1 * i.val = i.val; omega
    | ⟨2, _⟩ => show win0_12.index t (2 : Fin 3) * 512 + 1 * l.val = l.val; omega
  rw [he]
  refine (rightPay_apply _ _ u i l).trans ?_
  show _ = Cert.PairSpec.projBot (V c main_v0) (V c main_v2) (row t) i l
  unfold Cert.PairSpec.projBot
  refine Finset.sum_congr rfl fun k _ => ?_
  rw [xblk_apply, bot_apply, wblk3_apply]

/-- An index of the "left" array is in point t's block iff each coordinate is in the block's range on its axis. -/
theorem mem_blk11 (t : Fin cfg0.N) (i : S8x128x512.Idx) :
    i ∈ ((cfg0.win 11).blk t).view.set ↔ ∀ a : Fin 3, win0_11.index t a * S1x128x512.size a ≤ (i a).val ∧ (i a).val < win0_11.index t a * S1x128x512.size a + S1x128x512.size a := by
  show i ∈ ((View.whole main_v9_2).slice (win0_11.rect t)).set ↔ _
  rw [View.set_slice_whole, Rect.mem_set_unit]
  exact Iff.rfl

/-- The same for the "right" array. -/
theorem mem_blk12 (t : Fin cfg0.N) (i : S8x128x512.Idx) :
    i ∈ ((cfg0.win 12).blk t).view.set ↔ ∀ a : Fin 3, win0_12.index t a * S1x128x512.size a ≤ (i a).val ∧ (i a).val < win0_12.index t a * S1x128x512.size a + S1x128x512.size a := by
  show i ∈ ((View.whole main_v9_3).slice (win0_12.rect t)).set ↔ _
  rw [View.set_slice_whole, Rect.mem_set_unit]
  exact Iff.rfl

/-- Every index (b, i, l) of the "left" array is in the block of the point that stands for batch row b. -/
theorem cover11 (i : S8x128x512.Idx) : ∃ t : Fin cfg0.N, (cfg0.win 11).flush t = true ∧ i ∈ ((cfg0.win 11).blk t).view.set := by
  refine ⟨pointOf (i 0), flush0_11 _, ?_⟩
  rw [mem_blk11]
  obtain ⟨o0, o1, o2⟩ := idx_o11 (pointOf (i 0))
  have ht : (pointOf (i 0)).val = (i 0).val := rfl
  have h1 : (i 1).val < 128 := (i 1).isLt
  have h2 : (i 2).val < 512 := (i 2).isLt
  intro a
  match a with
  | ⟨0, _⟩ => show win0_11.index (pointOf (i 0)) (0 : Fin 3) * 1 ≤ (i 0).val ∧ (i 0).val < win0_11.index (pointOf (i 0)) (0 : Fin 3) * 1 + 1; omega
  | ⟨1, _⟩ => show win0_11.index (pointOf (i 0)) (1 : Fin 3) * 128 ≤ (i 1).val ∧ (i 1).val < win0_11.index (pointOf (i 0)) (1 : Fin 3) * 128 + 128; omega
  | ⟨2, _⟩ => show win0_11.index (pointOf (i 0)) (2 : Fin 3) * 512 ≤ (i 2).val ∧ (i 2).val < win0_11.index (pointOf (i 0)) (2 : Fin 3) * 512 + 512; omega

/-- The same for the "right" array. -/
theorem cover12 (i : S8x128x512.Idx) : ∃ t : Fin cfg0.N, (cfg0.win 12).flush t = true ∧ i ∈ ((cfg0.win 12).blk t).view.set := by
  refine ⟨pointOf (i 0), flush0_12 _, ?_⟩
  rw [mem_blk12]
  obtain ⟨o0, o1, o2⟩ := idx_o12 (pointOf (i 0))
  have ht : (pointOf (i 0)).val = (i 0).val := rfl
  have h1 : (i 1).val < 128 := (i 1).isLt
  have h2 : (i 2).val < 512 := (i 2).isLt
  intro a
  match a with
  | ⟨0, _⟩ => show win0_12.index (pointOf (i 0)) (0 : Fin 3) * 1 ≤ (i 0).val ∧ (i 0).val < win0_12.index (pointOf (i 0)) (0 : Fin 3) * 1 + 1; omega
  | ⟨1, _⟩ => show win0_12.index (pointOf (i 0)) (1 : Fin 3) * 128 ≤ (i 1).val ∧ (i 1).val < win0_12.index (pointOf (i 0)) (1 : Fin 3) * 128 + 128; omega
  | ⟨2, _⟩ => show win0_12.index (pointOf (i 0)) (2 : Fin 3) * 512 ≤ (i 2).val ∧ (i 2).val < win0_12.index (pointOf (i 0)) (2 : Fin 3) * 512 + 512; omega

/-- THE "left" ARRAY after the run. -/
theorem arr_left_h (c : Dev nD) : (dat0 (F := Ideal) V c).arrAt 11 cfg0.N
    = Cert.PairSpec.leftArr (V c main_v0) (V c main_v2) (fun l => V c main_v6 (ix2 (0 : Fin 1) l)) :=
  (dat0 (F := Ideal) V c).arrAt_eq_of_cover 11 _ (fun t _ => flushed11 V c t) cover11

/-- THE "right" ARRAY after the run. -/
theorem arr_right_h (c : Dev nD) : (dat0 (F := Ideal) V c).arrAt 12 cfg0.N
    = Cert.PairSpec.rightArr (V c main_v0) (V c main_v2) :=
  (dat0 (F := Ideal) V c).arrAt_eq_of_cover 12 _ (fun t _ => flushed12 V c t) cover12

end Cert.KernelIdeal.Proj

end
-- ==== Proof.ProjHeadT.lean ====
/-
  The third head's two projection arrays after the projection kernel's run.

  The head's weight and bias windows hold the whole matrix and the whole row at every grid point; its two output
  windows sit at block (t, 0, 0) of [8, 128, 512] arrays. What point t writes back is block t of
    left [b, i, l] = Σ_k x[b, i, k] · W1[k, l] + b1[l]      and      right[b, i, l] = Σ_k x[b, i, k] · W1[512 + k, l],
  and the eight blocks cover the arrays, so the arrays end holding these functions.
-/
import proofs.«404877_j44659069943968_3_alg».proof.Proof.ProjBlocks

set_option maxRecDepth 16384

noncomputable section

open scoped BigOperators

namespace Cert.KernelIdeal.Proj

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The printed index maps of this head's windows over the grid. -/
theorem idx_w5 : ∀ t : Fin cfg0.N, win0_5.index t (0 : Fin 2) = 0 ∧ win0_5.index t (1 : Fin 2) = 0 :=
  (by decide +kernel : ∀ t : Fin grid0.N, _)
theorem idx_b6 : ∀ t : Fin cfg0.N, win0_6.index t (0 : Fin 2) = 0 ∧ win0_6.index t (1 : Fin 2) = 0 :=
  (by decide +kernel : ∀ t : Fin grid0.N, _)
theorem idx_o13 : ∀ t : Fin cfg0.N, win0_13.index t (0 : Fin 3) = t.val ∧ win0_13.index t (1 : Fin 3) = 0 ∧ win0_13.index t (2 : Fin 3) = 0 :=
  (by decide +kernel : ∀ t : Fin grid0.N, _)
theorem idx_o14 : ∀ t : Fin cfg0.N, win0_14.index t (0 : Fin 3) = t.val ∧ win0_14.index t (1 : Fin 3) = 0 ∧ win0_14.index t (2 : Fin 3) = 0 :=
  (by decide +kernel : ∀ t : Fin grid0.N, _)

/-- The weight window holds the whole weight matrix at every point. -/
theorem wblk5_apply (c : Dev nD) (t : Fin cfg0.N) (r : Fin 1024) (l : Fin 512) :
    iblk0 V c 5 t (ix2 r l) = V c main_v3 (ix2 r l) := by
  obtain ⟨e0, e1⟩ := idx_w5 t
  show V c main_v3 (((cfg0.win 5).blk t).view.emb (ix2 r l)) = V c main_v3 (ix2 r l)
  refine congrArg _ (funext fun a => Fin.ext ?_)
  match a with
  | ⟨0, _⟩ => show win0_5.index t (0 : Fin 2) * 1024 + 1 * r.val = r.val; omega
  | ⟨1, _⟩ => show win0_5.index t (1 : Fin 2) * 512 + 1 * l.val = l.val; omega

/-- The bias window holds the whole bias row at every point. -/
theorem bblk6_apply (c : Dev nD) (t : Fin cfg0.N) (u : Fin 1) (l : Fin 512) :
    iblk0 V c 6 t (ix2 u l) = V c main_v7 (ix2 (0 : Fin 1) l) := by
  obtain ⟨e0, e1⟩ := idx_b6 t
  show V c main_v7 (((cfg0.win 6).blk t).view.emb (ix2 u l)) = V c main_v7 (ix2 (0 : Fin 1) l)
  refine congrArg _ (funext fun a => Fin.ext ?_)
  match a with
  | ⟨0, _⟩ => show win0_6.index t (0 : Fin 2) * 1 + 1 * u.val = 0; have := u.isLt; omega
  | ⟨1, _⟩ => show win0_6.index t (1 : Fin 2) * 512 + 1 * l.val = l.val; omega

/-- WHAT POINT t WRITES BACK to the "left" array is block t of the whole-array function. -/
theorem flushed13 (c : Dev nD) (t : Fin cfg0.N) :
    (dat0 (F := Ideal) V c).flushed 13 t = ((cfg0.win 13).blk t).view.read (Elt Ideal)
      (Cert.PairSpec.leftArr (V c main_v0) (V c main_v3) (fun l => V c main_v7 (ix2 (0 : Fin 1) l))) := by
  show (cfg0.win 13).cut (grid0.coords t) ((dat0 V c).after 13 t) = _
  rw [after0_13]
  unfold out0_13
  rw [View.canon_unit_zero hz3]
  simp only [View.ld_unit_zero (S := S1x128x512) hz3, View.ld_unit_zero (S := S1x512) hz2]
  rw [left_t_eq]
  obtain ⟨o0, o1, o2⟩ := idx_o13 t
  funext j
  obtain ⟨u, i, l, rfl⟩ : ∃ (u : Fin 1) (i : Fin 128) (l : Fin 512), j = ix3 u i l := ⟨j 0, j 1, j 2, eq_ix3 j⟩
  show leftPay (F := Ideal) (iblk0 V c 0 t) (View.ld (iblk0 V c 5 t) r0_1) (iblk0 V c 6 t) (ix3 u i l)
    = Cert.PairSpec.leftArr (V c main_v0) (V c main_v3) (fun l => V c main_v7 (ix2 (0 : Fin 1) l)) (((cfg0.win 13).blk t).view.emb (ix3 u i l))
  have he : ((cfg0.win 13).blk t).view.emb (ix3 u i l) = ix3 (row t) i l := by
    funext a; apply Fin.ext
    match a with
    | ⟨0, _⟩ => show win0_13.index t (0 : Fin 3) * 1 + 1 * u.val = t.val; have := u.isLt; omega
    | ⟨1, _⟩ => show win0_13.index t (1 : Fin 3) * 128 + 1 * i.val = i.val; omega
    | ⟨2, _⟩ => show win0_13.index t (2 : Fin 3) * 512 + 1 * l.val = l.val; omega
  rw [he]
  refine (leftPay_apply _ _ _ u i l).trans ?_
  show _ = Cert.PairSpec.projTop (V c main_v0) (V c main_v3) (row t) i l + V c main_v7 (ix2 (0 : Fin 1) l)
  unfold Cert.PairSpec.projTop
  rw [bblk6_apply]
  refine congrArg (· + V c main_v7 (ix2 (0 : Fin 1) l)) (Finset.sum_congr rfl fun k _ => ?_)
  rw [xblk_apply, top_apply, wblk5_apply]

/-- WHAT POINT t WRITES BACK to the "right" array is block t of the whole-array function. -/
theorem flushed14 (c : Dev nD) (t : Fin cfg0.N) :
    (dat0 (F := Ideal) V c).flushed 14 t = ((cfg0.win 14).blk t).view.read (Elt Ideal)
      (Cert.PairSpec.rightArr (V c main_v0) (V c main_v3)) := by
  show (cfg0.win 14).cut (grid0.coords t) ((dat0 V c).after 14 t) = _
  rw [after0_14]
  unfold out0_14
  rw [View.canon_unit_zero hz3]
  simp only [View.ld_unit_zero (S := S1x128x512) hz3]
  rw [right_t_eq]
  obtain ⟨o0, o1, o2⟩ := idx_o14 t
  funext j
  obtain ⟨u, i, l, rfl⟩ : ∃ (u : Fin 1) (i : Fin 128) (l : Fin 512), j = ix3 u i l := ⟨j 0, j 1, j 2, eq_ix3 j⟩
  show rightPay (F := Ideal) (iblk0 V c 0 t) (View.ld (iblk0 V c 5 t) r0_2) (ix3 u i l)
    = Cert.PairSpec.rightArr (V c main_v0) (V c main_v3) (((cfg0.win 14).blk t).view.emb (ix3 u i l))
  have he : ((cfg0.win 14).blk t).view.emb (ix3 u i l) = ix3 (row t) i l := by
    funext a; apply Fin.ext
    match a with
    | ⟨0, _⟩ => show win0_14.index t (0 : Fin 3) * 1 + 1 * u.val = t.val; have := u.isLt; omega
    | ⟨1, _⟩ => show win0_14.index t (1 : Fin 3) * 128 + 1 * i.val = i.val; omega
    | ⟨2, _⟩ => show win0_14.index t (2 : Fin 3) * 512 + 1 * l.val = l.val; omega
  rw [he]
  refine (rightPay_apply _ _ u i l).trans ?_
  show _ = Cert.PairSpec.projBot (V c main_v0) (V c main_v3) (row t) i l
  unfold Cert.PairSpec.projBot
  refine Finset.sum_congr rfl fun k _ => ?_
  rw [xblk_apply, bot_apply, wblk5_apply]

/-- An index of the "left" array is in point t's block iff each coordinate is in the block's range on its axis. -/
theorem mem_blk13 (t : Fin cfg0.N) (i : S8x128x512.Idx) :
    i ∈ ((cfg0.win 13).blk t).view.set ↔ ∀ a : Fin 3, win0_13.index t a * S1x128x512.size a ≤ (i a).val ∧ (i a).val < win0_13.index t a * S1x128x512.size a + S1x128x512.size a := by
  show i ∈ ((View.whole main_v9_4).slice (win0_13.rect t)).set ↔ _
  rw [View.set_slice_whole, Rect.mem_set_unit]
  exact Iff.rfl

/-- The same for the "right" array. -/
theorem mem_blk14 (t : Fin cfg0.N) (i : S8x128x512.Idx) :
    i ∈ ((cfg0.win 14).blk t).view.set ↔ ∀ a : Fin 3, win0_14.index t a * S1x128x512.size a ≤ (i a).val ∧ (i a).val < win0_14.index t a * S1x128x512.size a + S1x128x512.size a := by
  show i ∈ ((View.whole main_v9_5).slice (win0_14.rect t)).set ↔ _
  rw [View.set_slice_whole, Rect.mem_set_unit]
  exact Iff.rfl

/-- Every index (b, i, l) of the "left" array is in the block of the point that stands for batch row b. -/
theorem cover13 (i : S8x128x512.Idx) : ∃ t : Fin cfg0.N, (cfg0.win 13).flush t = true ∧ i ∈ ((cfg0.win 13).blk t).view.set := by
  refine ⟨pointOf (i 0), flush0_13 _, ?_⟩
  rw [mem_blk13]
  obtain ⟨o0, o1, o2⟩ := idx_o13 (pointOf (i 0))
  have ht : (pointOf (i 0)).val = (i 0).val := rfl
  have h1 : (i 1).val < 128 := (i 1).isLt
  have h2 : (i 2).val < 512 := (i 2).isLt
  intro a
  match a with
  | ⟨0, _⟩ => show win0_13.index (pointOf (i 0)) (0 : Fin 3) * 1 ≤ (i 0).val ∧ (i 0).val < win0_13.index (pointOf (i 0)) (0 : Fin 3) * 1 + 1; omega
  | ⟨1, _⟩ => show win0_13.index (pointOf (i 0)) (1 : Fin 3) * 128 ≤ (i 1).val ∧ (i 1).val < win0_13.index (pointOf (i 0)) (1 : Fin 3) * 128 + 128; omega
  | ⟨2, _⟩ => show win0_13.index (pointOf (i 0)) (2 : Fin 3) * 512 ≤ (i 2).val ∧ (i 2).val < win0_13.index (pointOf (i 0)) (2 : Fin 3) * 512 + 512; omega

/-- The same for the "right" array. -/
theorem cover14 (i : S8x128x512.Idx) : ∃ t : Fin cfg0.N, (cfg0.win 14).flush t = true ∧ i ∈ ((cfg0.win 14).blk t).view.set := by
  refine ⟨pointOf (i 0), flush0_14 _, ?_⟩
  rw [mem_blk14]
  obtain ⟨o0, o1, o2⟩ := idx_o14 (pointOf (i 0))
  have ht : (pointOf (i 0)).val = (i 0).val := rfl
  have h1 : (i 1).val < 128 := (i 1).isLt
  have h2 : (i 2).val < 512 := (i 2).isLt
  intro a
  match a with
  | ⟨0, _⟩ => show win0_14.index (pointOf (i 0)) (0 : Fin 3) * 1 ≤ (i 0).val ∧ (i 0).val < win0_14.index (pointOf (i 0)) (0 : Fin 3) * 1 + 1; omega
  | ⟨1, _⟩ => show win0_14.index (pointOf (i 0)) (1 : Fin 3) * 128 ≤ (i 1).val ∧ (i 1).val < win0_14.index (pointOf (i 0)) (1 : Fin 3) * 128 + 128; omega
  | ⟨2, _⟩ => show win0_14.index (pointOf (i 0)) (2 : Fin 3) * 512 ≤ (i 2).val ∧ (i 2).val < win0_14.index (pointOf (i 0)) (2 : Fin 3) * 512 + 512; omega

/-- THE "left" ARRAY after the run. -/
theorem arr_left_t (c : Dev nD) : (dat0 (F := Ideal) V c).arrAt 13 cfg0.N
    = Cert.PairSpec.leftArr (V c main_v0) (V c main_v3) (fun l => V c main_v7 (ix2 (0 : Fin 1) l)) :=
  (dat0 (F := Ideal) V c).arrAt_eq_of_cover 13 _ (fun t _ => flushed13 V c t) cover13

/-- THE "right" ARRAY after the run. -/
theorem arr_right_t (c : Dev nD) : (dat0 (F := Ideal) V c).arrAt 14 cfg0.N
    = Cert.PairSpec.rightArr (V c main_v0) (V c main_v3) :=
  (dat0 (F := Ideal) V c).arrAt_eq_of_cover 14 _ (fun t _ => flushed14 V c t) cover14

end Cert.KernelIdeal.Proj

end
-- ==== Proof.ProjHeadL.lean ====
/-
  The fourth head's two projection arrays after the projection kernel's run.

  The head's weight and bias windows hold the whole matrix and the whole row at every grid point; its two output
  windows sit at block (t, 0, 0) of [8, 128, 512] arrays. What point t writes back is block t of
    left [b, i, l] = Σ_k x[b, i, k] · W1[k, l] + b1[l]      and      right[b, i, l] = Σ_k x[b, i, k] · W1[512 + k, l],
  and the eight blocks cover the arrays, so the arrays end holding these functions.
-/
import proofs.«404877_j44659069943968_3_alg».proof.Proof.ProjBlocks

set_option maxRecDepth 16384

noncomputable section

open scoped BigOperators

namespace Cert.KernelIdeal.Proj

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The printed index maps of this head's windows over the grid. -/
theorem idx_w7 : ∀ t : Fin cfg0.N, win0_7.index t (0 : Fin 2) = 0 ∧ win0_7.index t (1 : Fin 2) = 0 :=
  (by decide +kernel : ∀ t : Fin grid0.N, _)
theorem idx_b8 : ∀ t : Fin cfg0.N, win0_8.index t (0 : Fin 2) = 0 ∧ win0_8.index t (1 : Fin 2) = 0 :=
  (by decide +kernel : ∀ t : Fin grid0.N, _)
theorem idx_o15 : ∀ t : Fin cfg0.N, win0_15.index t (0 : Fin 3) = t.val ∧ win0_15.index t (1 : Fin 3) = 0 ∧ win0_15.index t (2 : Fin 3) = 0 :=
  (by decide +kernel : ∀ t : Fin grid0.N, _)
theorem idx_o16 : ∀ t : Fin cfg0.N, win0_16.index t (0 : Fin 3) = t.val ∧ win0_16.index t (1 : Fin 3) = 0 ∧ win0_16.index t (2 : Fin 3) = 0 :=
  (by decide +kernel : ∀ t : Fin grid0.N, _)

/-- The weight window holds the whole weight matrix at every point. -/
theorem wblk7_apply (c : Dev nD) (t : Fin cfg0.N) (r : Fin 1024) (l : Fin 512) :
    iblk0 V c 7 t (ix2 r l) = V c main_v4 (ix2 r l) := by
  obtain ⟨e0, e1⟩ := idx_w7 t
  show V c main_v4 (((cfg0.win 7).blk t).view.emb (ix2 r l)) = V c main_v4 (ix2 r l)
  refine congrArg _ (funext fun a => Fin.ext ?_)
  match a with
  | ⟨0, _⟩ => show win0_7.index t (0 : Fin 2) * 1024 + 1 * r.val = r.val; omega
  | ⟨1, _⟩ => show win0_7.index t (1 : Fin 2) * 512 + 1 * l.val = l.val; omega

/-- The bias window holds the whole bias row at every point. -/
theorem bblk8_apply (c : Dev nD) (t : Fin cfg0.N) (u : Fin 1) (l : Fin 512) :
    iblk0 V c 8 t (ix2 u l) = V c main_v8 (ix2 (0 : Fin 1) l) := by
  obtain ⟨e0, e1⟩ := idx_b8 t
  show V c main_v8 (((cfg0.win 8).blk t).view.emb (ix2 u l)) = V c main_v8 (ix2 (0 : Fin 1) l)
  refine congrArg _ (funext fun a => Fin.ext ?_)
  match a with
  | ⟨0, _⟩ => show win0_8.index t (0 : Fin 2) * 1 + 1 * u.val = 0; have := u.isLt; omega
  | ⟨1, _⟩ => show win0_8.index t (1 : Fin 2) * 512 + 1 * l.val = l.val; omega

/-- WHAT POINT t WRITES BACK to the "left" array is block t of the whole-array function. -/
theorem flushed15 (c : Dev nD) (t : Fin cfg0.N) :
    (dat0 (F := Ideal) V c).flushed 15 t = ((cfg0.win 15).blk t).view.read (Elt Ideal)
      (Cert.PairSpec.leftArr (V c main_v0) (V c main_v4) (fun l => V c main_v8 (ix2 (0 : Fin 1) l))) := by
  show (cfg0.win 15).cut (grid0.coords t) ((dat0 V c).after 15 t) = _
  rw [after0_15]
  unfold out0_15
  rw [View.canon_unit_zero hz3]
  simp only [View.ld_unit_zero (S := S1x128x512) hz3, View.ld_unit_zero (S := S1x512) hz2]
  rw [left_l_eq]
  obtain ⟨o0, o1, o2⟩ := idx_o15 t
  funext j
  obtain ⟨u, i, l, rfl⟩ : ∃ (u : Fin 1) (i : Fin 128) (l : Fin 512), j = ix3 u i l := ⟨j 0, j 1, j 2, eq_ix3 j⟩
  show leftPay (F := Ideal) (iblk0 V c 0 t) (View.ld (iblk0 V c 7 t) r0_1) (iblk0 V c 8 t) (ix3 u i l)
    = Cert.PairSpec.leftArr (V c main_v0) (V c main_v4) (fun l => V c main_v8 (ix2 (0 : Fin 1) l)) (((cfg0.win 15).blk t).view.emb (ix3 u i l))
  have he : ((cfg0.win 15).blk t).view.emb (ix3 u i l) = ix3 (row t) i l := by
    funext a; apply Fin.ext
    match a with
    | ⟨0, _⟩ => show win0_15.index t (0 : Fin 3) * 1 + 1 * u.val = t.val; have := u.isLt; omega
    | ⟨1, _⟩ => show win0_15.index t (1 : Fin 3) * 128 + 1 * i.val = i.val; omega
    | ⟨2, _⟩ => show win0_15.index t (2 : Fin 3) * 512 + 1 * l.val = l.val; omega
  rw [he]
  refine (leftPay_apply _ _ _ u i l).trans ?_
  show _ = Cert.PairSpec.projTop (V c main_v0) (V c main_v4) (row t) i l + V c main_v8 (ix2 (0 : Fin 1) l)
  unfold Cert.PairSpec.projTop
  rw [bblk8_apply]
  refine congrArg (· + V c main_v8 (ix2 (0 : Fin 1) l)) (Finset.sum_congr rfl fun k _ => ?_)
  rw [xblk_apply, top_apply, wblk7_apply]

/-- WHAT POINT t WRITES BACK to the "right" array is block t of the whole-array function. -/
theorem flushed16 (c : Dev nD) (t : Fin cfg0.N) :
    (dat0 (F := Ideal) V c).flushed 16 t = ((cfg0.win 16).blk t).view.read (Elt Ideal)
      (Cert.PairSpec.rightArr (V c main_v0) (V c main_v4)) := by
  show (cfg0.win 16).cut (grid0.coords t) ((dat0 V c).after 16 t) = _
  rw [after0_16]
  unfold out0_16
  rw [View.canon_unit_zero hz3]
  simp only [View.ld_unit_zero (S := S1x128x512) hz3]
  rw [right_l_eq]
  obtain ⟨o0, o1, o2⟩ := idx_o16 t
  funext j
  obtain ⟨u, i, l, rfl⟩ : ∃ (u : Fin 1) (i : Fin 128) (l : Fin 512), j = ix3 u i l := ⟨j 0, j 1, j 2, eq_ix3 j⟩
  show rightPay (F := Ideal) (iblk0 V c 0 t) (View.ld (iblk0 V c 7 t) r0_2) (ix3 u i l)
    = Cert.PairSpec.rightArr (V c main_v0) (V c main_v4) (((cfg0.win 16).blk t).view.emb (ix3 u i l))
  have he : ((cfg0.win 16).blk t).view.emb (ix3 u i l) = ix3 (row t) i l := by
    funext a; apply Fin.ext
    match a with
    | ⟨0, _⟩ => show win0_16.index t (0 : Fin 3) * 1 + 1 * u.val = t.val; have := u.isLt; omega
    | ⟨1, _⟩ => show win0_16.index t (1 : Fin 3) * 128 + 1 * i.val = i.val; omega
    | ⟨2, _⟩ => show win0_16.index t (2 : Fin 3) * 512 + 1 * l.val = l.val; omega
  rw [he]
  refine (rightPay_apply _ _ u i l).trans ?_
  show _ = Cert.PairSpec.projBot (V c main_v0) (V c main_v4) (row t) i l
  unfold Cert.PairSpec.projBot
  refine Finset.sum_congr rfl fun k _ => ?_
  rw [xblk_apply, bot_apply, wblk7_apply]

/-- An index of the "left" array is in point t's block iff each coordinate is in the block's range on its axis. -/
theorem mem_blk15 (t : Fin cfg0.N) (i : S8x128x512.Idx) :
    i ∈ ((cfg0.win 15).blk t).view.set ↔ ∀ a : Fin 3, win0_15.index t a * S1x128x512.size a ≤ (i a).val ∧ (i a).val < win0_15.index t a * S1x128x512.size a + S1x128x512.size a := by
  show i ∈ ((View.whole main_v9_6).slice (win0_15.rect t)).set ↔ _
  rw [View.set_slice_whole, Rect.mem_set_unit]
  exact Iff.rfl

/-- The same for the "right" array. -/
theorem mem_blk16 (t : Fin cfg0.N) (i : S8x128x512.Idx) :
    i ∈ ((cfg0.win 16).blk t).view.set ↔ ∀ a : Fin 3, win0_16.index t a * S1x128x512.size a ≤ (i a).val ∧ (i a).val < win0_16.index t a * S1x128x512.size a + S1x128x512.size a := by
  show i ∈ ((View.whole main_v9_7).slice (win0_16.rect t)).set ↔ _
  rw [View.set_slice_whole, Rect.mem_set_unit]
  exact Iff.rfl

/-- Every index (b, i, l) of the "left" array is in the block of the point that stands for batch row b. -/
theorem cover15 (i : S8x128x512.Idx) : ∃ t : Fin cfg0.N, (cfg0.win 15).flush t = true ∧ i ∈ ((cfg0.win 15).blk t).view.set := by
  refine ⟨pointOf (i 0), flush0_15 _, ?_⟩
  rw [mem_blk15]
  obtain ⟨o0, o1, o2⟩ := idx_o15 (pointOf (i 0))
  have ht : (pointOf (i 0)).val = (i 0).val := rfl
  have h1 : (i 1).val < 128 := (i 1).isLt
  have h2 : (i 2).val < 512 := (i 2).isLt
  intro a
  match a with
  | ⟨0, _⟩ => show win0_15.index (pointOf (i 0)) (0 : Fin 3) * 1 ≤ (i 0).val ∧ (i 0).val < win0_15.index (pointOf (i 0)) (0 : Fin 3) * 1 + 1; omega
  | ⟨1, _⟩ => show win0_15.index (pointOf (i 0)) (1 : Fin 3) * 128 ≤ (i 1).val ∧ (i 1).val < win0_15.index (pointOf (i 0)) (1 : Fin 3) * 128 + 128; omega
  | ⟨2, _⟩ => show win0_15.index (pointOf (i 0)) (2 : Fin 3) * 512 ≤ (i 2).val ∧ (i 2).val < win0_15.index (pointOf (i 0)) (2 : Fin 3) * 512 + 512; omega

/-- The same for the "right" array. -/
theorem cover16 (i : S8x128x512.Idx) : ∃ t : Fin cfg0.N, (cfg0.win 16).flush t = true ∧ i ∈ ((cfg0.win 16).blk t).view.set := by
  refine ⟨pointOf (i 0), flush0_16 _, ?_⟩
  rw [mem_blk16]
  obtain ⟨o0, o1, o2⟩ := idx_o16 (pointOf (i 0))
  have ht : (pointOf (i 0)).val = (i 0).val := rfl
  have h1 : (i 1).val < 128 := (i 1).isLt
  have h2 : (i 2).val < 512 := (i 2).isLt
  intro a
  match a with
  | ⟨0, _⟩ => show win0_16.index (pointOf (i 0)) (0 : Fin 3) * 1 ≤ (i 0).val ∧ (i 0).val < win0_16.index (pointOf (i 0)) (0 : Fin 3) * 1 + 1; omega
  | ⟨1, _⟩ => show win0_16.index (pointOf (i 0)) (1 : Fin 3) * 128 ≤ (i 1).val ∧ (i 1).val < win0_16.index (pointOf (i 0)) (1 : Fin 3) * 128 + 128; omega
  | ⟨2, _⟩ => show win0_16.index (pointOf (i 0)) (2 : Fin 3) * 512 ≤ (i 2).val ∧ (i 2).val < win0_16.index (pointOf (i 0)) (2 : Fin 3) * 512 + 512; omega

/-- THE "left" ARRAY after the run. -/
theorem arr_left_l (c : Dev nD) : (dat0 (F := Ideal) V c).arrAt 15 cfg0.N
    = Cert.PairSpec.leftArr (V c main_v0) (V c main_v4) (fun l => V c main_v8 (ix2 (0 : Fin 1) l)) :=
  (dat0 (F := Ideal) V c).arrAt_eq_of_cover 15 _ (fun t _ => flushed15 V c t) cover15

/-- THE "right" ARRAY after the run. -/
theorem arr_right_l (c : Dev nD) : (dat0 (F := Ideal) V c).arrAt 16 cfg0.N
    = Cert.PairSpec.rightArr (V c main_v0) (V c main_v4) :=
  (dat0 (F := Ideal) V c).arrAt_eq_of_cover 16 _ (fun t _ => flushed16 V c t) cover16

end Cert.KernelIdeal.Proj

end
-- ==== Proof.PairValue.lean ====
/-
  The pairwise kernel's four output arrays after its run, as whole-array functions of the arrays the region finds.

  At grid point (b, q) the kernel reads rows 32q .. 32q+31 of a head's "left" array at batch b, the whole "right"
  array at batch b, the head's second-layer weights and bias, and writes rows 32q .. 32q+31 of the head's output at
  batch b: out[b, i, j, o] = Σ_l tanh (left[b, i, l] + right[b, j, l]) · W2[l, o] + b2[o]. The 8 × 4 blocks tile each
  output array, so the array ends holding that function at every index.
-/
import proofs.«404877_j44659069943968_3_alg».proof.Proof.Gen.KernelIdeal.Frame
import proofs.«404877_j44659069943968_3_alg».proof.Proof.PairSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Pair

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## Re-addressing: the shape casts and broadcasts the kernel's arithmetic passes through -/

section Layout
variable {α : Type}

/-- An `[a, b]` array cast to `[a, 1, b]` reads, at `(i, u, l)`, the operand at `(i, l)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (l : Fin b) :
    shapeCast ⟨3, ![a, 1, b]⟩ x h (ix3 i u l) = x (ix2 i l) :=
  shapeCast_apply x h _ _ (by
    have hu : u.val = 0 := by omega
    rw [Shape.rowMajor_val_three, Shape.rowMajor_val_two]
    show i.val * b + l.val = (i.val * 1 + u.val) * b + l.val
    rw [hu, Nat.mul_one, Nat.add_zero])

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b, c]` array cast to `[n, c]` reads, at row `i · b + j` and column `l`, the operand at `(i, j, l)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (l : Fin c) (r : Fin n)
    (hr : r.val = i.val * b + j.val) :
    shapeCast ⟨2, ![n, c]⟩ x h (ix2 r l) = x (ix3 i j l) :=
  shapeCast_apply x h _ _ (by
    rw [Shape.rowMajor_val_three, Shape.rowMajor_val_two]
    show (i.val * b + j.val) * c + l.val = r.val * c + l.val
    rw [hr])

/-- An `[n, c]` array cast to `[a, b, c]` reads, at `(i, j, l)`, the operand at row `i · b + j` and column `l`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (l : Fin c) (r : Fin n)
    (hr : r.val = i.val * b + j.val) :
    shapeCast ⟨3, ![a, b, c]⟩ x h (ix3 i j l) = x (ix2 r l) :=
  shapeCast_apply x h _ _ (by
    rw [Shape.rowMajor_val_three, Shape.rowMajor_val_two]
    show r.val * c + l.val = (i.val * b + j.val) * c + l.val
    rw [hr])

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(i, j, l)`, the operand at `(0, j, l)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

end Layout

/-- The hyperbolic tangent of a vector of extended reals, read at an index. -/
theorem tanh_apply {s : Shape} {φ : FTy} (a : FVec Ideal s φ) (i : s.Idx) : tanh a i = Ideal.tanh (a i) := rfl

/-- Row `i' · 128 + j` of the `[4096, ·]` matrices the kernel multiplies: the pair (row `i'` of the block, column token `j`). -/
def pairRow (i' : Fin 32) (j : Fin 128) : Fin 4096 := ⟨i'.val * 128 + j.val, by have := i'.isLt; have := j.isLt; omega⟩

theorem pairRow_val (i' : Fin 32) (j : Fin 128) : (pairRow i' j).val = i'.val * 128 + j.val := rfl

/-! ## The [4096, 512] × [512, n] products at an entry (n = 1 and n = 50) -/

theorem lhs1_axis0 (i : S4096x1.Idx) (q : dot_S4096x512_S512x1_S4096x1_1_0_0_1_n_n.contr.Idx) :
    (dot_S4096x512_S512x1_S4096x1_1_0_0_1_n_n.lhsIdx i q 0).val = (i 0).val := by
  unfold DotDims.lhsIdx
  rw [dif_neg (show ¬(0 : Fin S4096x512.rank) ∈ dot_S4096x512_S512x1_S4096x1_1_0_0_1_n_n.lhsBatch by decide), dif_pos (show (0 : Fin S4096x512.rank) ∈ dot_S4096x512_S512x1_S4096x1_1_0_0_1_n_n.lhsNonContracting by decide)]
  rfl
theorem lhs1_axis1 (i : S4096x1.Idx) (q : dot_S4096x512_S512x1_S4096x1_1_0_0_1_n_n.contr.Idx) :
    (dot_S4096x512_S512x1_S4096x1_1_0_0_1_n_n.lhsIdx i q 1).val = (q ⟨0, by decide⟩).val :=
  dot_S4096x512_S512x1_S4096x1_1_0_0_1_n_n.lhsIdx_val_of_single rfl i q
theorem rhs1_axis0 (i : S4096x1.Idx) (q : dot_S4096x512_S512x1_S4096x1_1_0_0_1_n_n.contr.Idx) :
    (dot_S4096x512_S512x1_S4096x1_1_0_0_1_n_n.rhsIdx i q 0).val = (q ⟨0, by decide⟩).val :=
  dot_S4096x512_S512x1_S4096x1_1_0_0_1_n_n.rhsIdx_val_of_single rfl i q
theorem rhs1_axis1 (i : S4096x1.Idx) (q : dot_S4096x512_S512x1_S4096x1_1_0_0_1_n_n.contr.Idx) :
    (dot_S4096x512_S512x1_S4096x1_1_0_0_1_n_n.rhsIdx i q 1).val = (i 1).val := by
  unfold DotDims.rhsIdx
  rw [dif_neg (show ¬(1 : Fin S512x1.rank) ∈ dot_S4096x512_S512x1_S4096x1_1_0_0_1_n_n.rhsBatch by decide), dif_pos (show (1 : Fin S512x1.rank) ∈ dot_S4096x512_S512x1_S4096x1_1_0_0_1_n_n.rhsNonContracting by decide)]
  rfl

/-- Entry (r, o) of the [4096, 512] × [512, 1] product into a zero accumulator is Σ_k a[r, k] · w[k, o]. -/
theorem product1_apply (a : FVec Ideal S4096x512 .bf16) (w : FVec Ideal S512x1 .bf16) (r : Fin 4096) (o : Fin 1) :
    matmul (F := Ideal) dot_S4096x512_S512x1_S4096x1_1_0_0_1_n_n none a w (constant (F := Ideal) S4096x1 .f32 0x00000000#32) (ix2 r o)
      = ∑ k : Fin 512, a (ix2 r k) * w (ix2 k o) := by
  simp only [matmul]
  rw [Ideal.matmul_constant_zero_apply, ← Equiv.sum_comp (contrEquiv1 dot_S4096x512_S512x1_S4096x1_1_0_0_1_n_n 512 rfl rfl).symm]
  refine Finset.sum_congr rfl fun k _ => ?_
  have hk := contrEquiv1_symm_val dot_S4096x512_S512x1_S4096x1_1_0_0_1_n_n 512 rfl rfl k
  have el : dot_S4096x512_S512x1_S4096x1_1_0_0_1_n_n.lhsIdx (ix2 r o) ((contrEquiv1 dot_S4096x512_S512x1_S4096x1_1_0_0_1_n_n 512 rfl rfl).symm k) = ix2 r k := funext fun a => Fin.ext (by
    match a with
    | ⟨0, _⟩ => exact lhs1_axis0 _ _
    | ⟨1, _⟩ => exact (lhs1_axis1 _ _).trans hk)
  have er : dot_S4096x512_S512x1_S4096x1_1_0_0_1_n_n.rhsIdx (ix2 r o) ((contrEquiv1 dot_S4096x512_S512x1_S4096x1_1_0_0_1_n_n 512 rfl rfl).symm k) = ix2 k o := funext fun a => Fin.ext (by
    match a with
    | ⟨0, _⟩ => exact (rhs1_axis0 _ _).trans hk
    | ⟨1, _⟩ => exact rhs1_axis1 _ _)
  rw [el, er]

theorem lhs50_axis0 (i : S4096x50.Idx) (q : dot_S4096x512_S512x50_S4096x50_1_0_0_1_n_n.contr.Idx) :
    (dot_S4096x512_S512x50_S4096x50_1_0_0_1_n_n.lhsIdx i q 0).val = (i 0).val := by
  unfold DotDims.lhsIdx
  rw [dif_neg (show ¬(0 : Fin S4096x512.rank) ∈ dot_S4096x512_S512x50_S4096x50_1_0_0_1_n_n.lhsBatch by decide), dif_pos (show (0 : Fin S4096x512.rank) ∈ dot_S4096x512_S512x50_S4096x50_1_0_0_1_n_n.lhsNonContracting by decide)]
  rfl
theorem lhs50_axis1 (i : S4096x50.Idx) (q : dot_S4096x512_S512x50_S4096x50_1_0_0_1_n_n.contr.Idx) :
    (dot_S4096x512_S512x50_S4096x50_1_0_0_1_n_n.lhsIdx i q 1).val = (q ⟨0, by decide⟩).val :=
  dot_S4096x512_S512x50_S4096x50_1_0_0_1_n_n.lhsIdx_val_of_single rfl i q
theorem rhs50_axis0 (i : S4096x50.Idx) (q : dot_S4096x512_S512x50_S4096x50_1_0_0_1_n_n.contr.Idx) :
    (dot_S4096x512_S512x50_S4096x50_1_0_0_1_n_n.rhsIdx i q 0).val = (q ⟨0, by decide⟩).val :=
  dot_S4096x512_S512x50_S4096x50_1_0_0_1_n_n.rhsIdx_val_of_single rfl i q
theorem rhs50_axis1 (i : S4096x50.Idx) (q : dot_S4096x512_S512x50_S4096x50_1_0_0_1_n_n.contr.Idx) :
    (dot_S4096x512_S512x50_S4096x50_1_0_0_1_n_n.rhsIdx i q 1).val = (i 1).val := by
  unfold DotDims.rhsIdx
  rw [dif_neg (show ¬(1 : Fin S512x50.rank) ∈ dot_S4096x512_S512x50_S4096x50_1_0_0_1_n_n.rhsBatch by decide), dif_pos (show (1 : Fin S512x50.rank) ∈ dot_S4096x512_S512x50_S4096x50_1_0_0_1_n_n.rhsNonContracting by decide)]
  rfl

/-- Entry (r, o) of the [4096, 512] × [512, 50] product into a zero accumulator is Σ_k a[r, k] · w[k, o]. -/
theorem product50_apply (a : FVec Ideal S4096x512 .bf16) (w : FVec Ideal S512x50 .bf16) (r : Fin 4096) (o : Fin 50) :
    matmul (F := Ideal) dot_S4096x512_S512x50_S4096x50_1_0_0_1_n_n none a w (constant (F := Ideal) S4096x50 .f32 0x00000000#32) (ix2 r o)
      = ∑ k : Fin 512, a (ix2 r k) * w (ix2 k o) := by
  simp only [matmul]
  rw [Ideal.matmul_constant_zero_apply, ← Equiv.sum_comp (contrEquiv1 dot_S4096x512_S512x50_S4096x50_1_0_0_1_n_n 512 rfl rfl).symm]
  refine Finset.sum_congr rfl fun k _ => ?_
  have hk := contrEquiv1_symm_val dot_S4096x512_S512x50_S4096x50_1_0_0_1_n_n 512 rfl rfl k
  have el : dot_S4096x512_S512x50_S4096x50_1_0_0_1_n_n.lhsIdx (ix2 r o) ((contrEquiv1 dot_S4096x512_S512x50_S4096x50_1_0_0_1_n_n 512 rfl rfl).symm k) = ix2 r k := funext fun a => Fin.ext (by
    match a with
    | ⟨0, _⟩ => exact lhs50_axis0 _ _
    | ⟨1, _⟩ => exact (lhs50_axis1 _ _).trans hk)
  have er : dot_S4096x512_S512x50_S4096x50_1_0_0_1_n_n.rhsIdx (ix2 r o) ((contrEquiv1 dot_S4096x512_S512x50_S4096x50_1_0_0_1_n_n 512 rfl rfl).symm k) = ix2 k o := funext fun a => Fin.ext (by
    match a with
    | ⟨0, _⟩ => exact (rhs50_axis0 _ _).trans hk
    | ⟨1, _⟩ => exact rhs50_axis1 _ _)
  rw [el, er]

/-! ## The stored values as functions of the loaded blocks -/

section Payloads
variable {F : FTy → Type} [FloatOps F]

/-- The activations as a [4096, 512] matrix: row i' · 128 + j holds tanh (left[0, i', l] + right[0, j, l]) over l,
    the "left" block's rows broadcast along the column tokens and the "right" block broadcast along the block's rows. -/
def act (x0 : Vec F S1x32x512 .f32) (x1 : Vec F S1x128x512 .f32) : FVec F S4096x512 .bf16 :=
  shapeCast S4096x512
    (truncf .bf16
      (tanh (addf
        (broadcastTo S32x128x512
          (shapeCast S32x1x512 (shapeCast S32x512 x0 shapeCasts_S1x32x512_S32x512) shapeCasts_S32x512_S32x1x512)
          broadcasts_S32x1x512_S32x128x512)
        (broadcastTo S32x128x512
          (shapeCast S1x128x512 (shapeCast S128x512 x1 shapeCasts_S1x128x512_S128x512) shapeCasts_S128x512_S1x128x512)
          broadcasts_S1x128x512_S32x128x512)))
      bitsLt_bf16_f32)
    shapeCasts_S32x128x512_S4096x512

/-- What the kernel stores for a one-column head: the activations times W2 plus the bias, as [1, 32, 128]. -/
def pay1 (x0 : Vec F S1x32x512 .f32) (x1 : Vec F S1x128x512 .f32) (w : Vec F S512x1 .bf16) (b : Vec F S1x1 .f32) :
    FVec F S1x32x128 .f32 :=
  shapeCast S1x32x128
    (shapeCast S32x128
      (shapeCast S32x128x1
        (addf (matmul dot_S4096x512_S512x1_S4096x1_1_0_0_1_n_n none (act x0 x1) (shapeCast S512x1 w shapeCasts_S512x1_S512x1)
            (constant S4096x1 .f32 0x00000000#32))
          (broadcastTo S4096x1 (shapeCast S1x1 b shapeCasts_S1x1_S1x1) broadcasts_S1x1_S4096x1))
        shapeCasts_S4096x1_S32x128x1)
      shapeCasts_S32x128x1_S32x128)
    shapeCasts_S32x128_S1x32x128

/-- What the kernel stores for the fifty-column head, as [1, 32, 128, 50]. -/
def pay50 (x0 : Vec F S1x32x512 .f32) (x1 : Vec F S1x128x512 .f32) (w : Vec F S512x50 .bf16) (b : Vec F S1x50 .f32) :
    FVec F S1x32x128x50 .f32 :=
  shapeCast S1x32x128x50
    (shapeCast S32x128x50
      (addf (matmul dot_S4096x512_S512x50_S4096x50_1_0_0_1_n_n none (act x0 x1) (shapeCast S512x50 w shapeCasts_S512x50_S512x50)
          (constant S4096x50 .f32 0x00000000#32))
        (broadcastTo S4096x50 (shapeCast S1x50 b shapeCasts_S1x50_S1x50) broadcasts_S1x50_S4096x50))
      shapeCasts_S4096x50_S32x128x50)
    shapeCasts_S32x128x50_S1x32x128x50

/-- The three one-column heads' stored values are this one function of their loaded blocks. -/
theorem pay_s_eq (x0 : Vec F S1x32x512 .f32) (x1 : Vec F S1x128x512 .f32) (w : Vec F S512x1 .bf16) (b : Vec F S1x1 .f32) :
    k1_pay2 x0 x1 w b = pay1 x0 x1 w b := rfl
theorem pay_h_eq (x0 : Vec F S1x32x512 .f32) (x1 : Vec F S1x128x512 .f32) (w : Vec F S512x1 .bf16) (b : Vec F S1x1 .f32) :
    k1_pay4 (k1_pay3 x0 x1) w b = pay1 x0 x1 w b := rfl
theorem pay_t_eq (x0 : Vec F S1x32x512 .f32) (x1 : Vec F S1x128x512 .f32) (w : Vec F S512x1 .bf16) (b : Vec F S1x1 .f32) :
    k1_pay5 x0 x1 w b = pay1 x0 x1 w b := rfl
/-- The fifty-column head's stored value. -/
theorem pay_l_eq (x0 : Vec F S1x32x512 .f32) (x1 : Vec F S1x128x512 .f32) (w : Vec F S512x50 .bf16) (b : Vec F S1x50 .f32) :
    k1_pay1 x0 x1 w b = pay50 x0 x1 w b := rfl

end Payloads

/-- Entry (i' · 128 + j, l) of the activations: tanh (left[0, i', l] + right[0, j, l]). -/
theorem act_apply (x0 : Vec Ideal S1x32x512 .f32) (x1 : Vec Ideal S1x128x512 .f32) (i' : Fin 32) (j : Fin 128) (l : Fin 512) :
    act (F := Ideal) x0 x1 (ix2 (pairRow i' j) l) = Ideal.tanh (x0 (ix3 (0 : Fin 1) i' l) + x1 (ix3 (0 : Fin 1) j l)) := by
  unfold act
  rw [shapeCast_abc_nc_apply _ _ i' j l (pairRow i' j) (pairRow_val i' j), truncf_apply, tanh_apply,
    addf_apply, broadcastTo_a1c_abc_apply, broadcastTo_1bc_abc_apply, shapeCast_ab_a1b_apply, shapeCast_1ab_ab_apply,
    shapeCast_ab_1ab_apply, shapeCast_1ab_ab_apply]

/-- Entry (0, i', j) of a one-column head's stored value: Σ_l tanh (left[0, i', l] + right[0, j, l]) · W2[l, 0] + b2[0, 0]. -/
theorem pay1_apply (x0 : Vec Ideal S1x32x512 .f32) (x1 : Vec Ideal S1x128x512 .f32) (w : Vec Ideal S512x1 .bf16)
    (b : Vec Ideal S1x1 .f32) (u : Fin 1) (i' : Fin 32) (j : Fin 128) :
    pay1 (F := Ideal) x0 x1 w b (ix3 u i' j)
      = (∑ l : Fin 512, Ideal.tanh (x0 (ix3 (0 : Fin 1) i' l) + x1 (ix3 (0 : Fin 1) j l)) * w (ix2 l (0 : Fin 1)))
          + b (ix2 (0 : Fin 1) (0 : Fin 1)) := by
  unfold pay1
  rw [shapeCast_ab_1ab_apply, shapeCast_ab1_ab_apply,
    shapeCast_nc_abc_apply _ _ i' j (0 : Fin 1) (pairRow i' j) (pairRow_val i' j),
    addf_apply, product1_apply, broadcastTo_1b_ab_apply, shapeCast_self, shapeCast_self]
  refine congrArg (· + b (ix2 (0 : Fin 1) (0 : Fin 1))) (Finset.sum_congr rfl fun l _ => ?_)
  rw [act_apply]

/-- Entry (0, i', j, o) of the fifty-column head's stored value. -/
theorem pay50_apply (x0 : Vec Ideal S1x32x512 .f32) (x1 : Vec Ideal S1x128x512 .f32) (w : Vec Ideal S512x50 .bf16)
    (b : Vec Ideal S1x50 .f32) (u : Fin 1) (i' : Fin 32) (j : Fin 128) (o : Fin 50) :
    pay50 (F := Ideal) x0 x1 w b (ix4 u i' j o)
      = (∑ l : Fin 512, Ideal.tanh (x0 (ix3 (0 : Fin 1) i' l) + x1 (ix3 (0 : Fin 1) j l)) * w (ix2 l o))
          + b (ix2 (0 : Fin 1) o) := by
  unfold pay50
  rw [shapeCast_abc_1abc_apply,
    shapeCast_nc_abc_apply _ _ i' j o (pairRow i' j) (pairRow_val i' j),
    addf_apply, product50_apply, broadcastTo_1b_ab_apply, shapeCast_self, shapeCast_self]
  refine congrArg (· + b (ix2 (0 : Fin 1) o)) (Finset.sum_congr rfl fun l _ => ?_)
  rw [act_apply]

/-! ## One stored entry is the head's output entry -/

/-- Two functions of a rank-3 index agree when they agree at every triple of coordinates. -/
theorem funext_ix3 {n0 n1 n2 : ℕ} {α : Type} {f g : (⟨3, ![n0, n1, n2]⟩ : Shape).Idx → α}
    (h : ∀ (a : Fin n0) (b : Fin n1) (c : Fin n2), f (ix3 a b c) = g (ix3 a b c)) : f = g :=
  funext fun y => by rw [eq_ix3 y]; exact h _ _ _

/-- Two functions of a rank-4 index agree when they agree at every quadruple of coordinates. -/
theorem funext_ix4 {n0 n1 n2 n3 : ℕ} {α : Type} {f g : (⟨4, ![n0, n1, n2, n3]⟩ : Shape).Idx → α}
    (h : ∀ (a : Fin n0) (b : Fin n1) (c : Fin n2) (d : Fin n3), f (ix4 a b c d) = g (ix4 a b c d)) : f = g :=
  funext fun y => by rw [eq_ix4 y]; exact h _ _ _ _

/-- A stored entry (0, i', j) of a one-column head is the head's output entry (b, i, jj), when row i' of the loaded
    "left" block is row (b, i) of the "left" array, row j of the loaded "right" block is row (b, jj) of the "right"
    array, and the loaded weights and bias are the head's. -/
theorem pay1_entry (L R : (⟨3, ![8, 128, 512]⟩ : Shape).Idx → EReal) (W : (⟨2, ![512, 1]⟩ : Shape).Idx → EReal)
    (B : (⟨2, ![1, 1]⟩ : Shape).Idx → EReal)
    (x0 : Vec Ideal S1x32x512 .f32) (x1 : Vec Ideal S1x128x512 .f32) (w : Vec Ideal S512x1 .bf16) (bb : Vec Ideal S1x1 .f32)
    (u : Fin 1) (i' : Fin 32) (j : Fin 128) (b : Fin 8) (i jj : Fin 128)
    (h0 : ∀ l : Fin 512, x0 (ix3 (0 : Fin 1) i' l) = L (ix3 b i l))
    (h1 : ∀ l : Fin 512, x1 (ix3 (0 : Fin 1) j l) = R (ix3 b jj l))
    (h2 : ∀ l : Fin 512, w (ix2 l (0 : Fin 1)) = W (ix2 l (0 : Fin 1)))
    (h3 : bb (ix2 (0 : Fin 1) (0 : Fin 1)) = B (ix2 (0 : Fin 1) (0 : Fin 1))) :
    pay1 (F := Ideal) x0 x1 w bb (ix3 u i' j)
      = Cert.PairSpec.pairEntry L R W (fun o => B (ix2 (0 : Fin 1) o)) b i jj (0 : Fin 1) := by
  rw [pay1_apply, h3]
  unfold Cert.PairSpec.pairEntry
  refine congrArg (· + B (ix2 (0 : Fin 1) (0 : Fin 1))) (Finset.sum_congr rfl fun l _ => ?_)
  rw [h0, h1, h2]

/-- The same for the fifty-column head, at output column o. -/
theorem pay50_entry (L R : (⟨3, ![8, 128, 512]⟩ : Shape).Idx → EReal) (W : (⟨2, ![512, 50]⟩ : Shape).Idx → EReal)
    (B : (⟨2, ![1, 50]⟩ : Shape).Idx → EReal)
    (x0 : Vec Ideal S1x32x512 .f32) (x1 : Vec Ideal S1x128x512 .f32) (w : Vec Ideal S512x50 .bf16) (bb : Vec Ideal S1x50 .f32)
    (u : Fin 1) (i' : Fin 32) (j : Fin 128) (o : Fin 50) (b : Fin 8) (i jj : Fin 128) (oo : Fin 50)
    (h0 : ∀ l : Fin 512, x0 (ix3 (0 : Fin 1) i' l) = L (ix3 b i l))
    (h1 : ∀ l : Fin 512, x1 (ix3 (0 : Fin 1) j l) = R (ix3 b jj l))
    (h2 : ∀ l : Fin 512, w (ix2 l o) = W (ix2 l oo))
    (h3 : bb (ix2 (0 : Fin 1) o) = B (ix2 (0 : Fin 1) oo)) :
    pay50 (F := Ideal) x0 x1 w bb (ix4 u i' j o)
      = Cert.PairSpec.pairEntry L R W (fun o => B (ix2 (0 : Fin 1) o)) b i jj oo := by
  rw [pay50_apply, h3]
  unfold Cert.PairSpec.pairEntry
  refine congrArg (· + B (ix2 (0 : Fin 1) oo)) (Finset.sum_congr rfl fun l _ => ?_)
  rw [h0, h1, h2]

/-! ## From the blocks to the arrays

At grid point t with coordinates (b, q) every window of a head sits at a block index fixed by (b, q): the "left" block and
the output block at (b, q, 0), the "right" block at (b, 0, 0), the weights and the bias at the origin. A block's element
y lies in its array at index · size + y on each axis, so the stored entry (0, i', j) is the output array's entry
(b, 32 q + i', j), computed from rows (b, 32 q + i') of "left" and (b, j) of "right". The 8 × 4 points' output blocks
cover every index (b, i, j): the point with coordinates (b, i / 32). -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ### The first one-column head (windows 0, 1, 2, 3 into window 16) -/

/-- The block indices of the head's windows at every grid point, decided over the 32 points. -/
theorem idx_s : ∀ t : Fin cfg1.N,
    win1_0.index t (0 : Fin 3) = win1_16.index t (0 : Fin 3) ∧ win1_0.index t (1 : Fin 3) = win1_16.index t (1 : Fin 3)
    ∧ win1_0.index t (2 : Fin 3) = 0
    ∧ win1_1.index t (0 : Fin 3) = win1_16.index t (0 : Fin 3) ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_16.index t (2 : Fin 3) = 0 :=
  (by decide +kernel : ∀ t : Fin grid1.N, _)

/-- Every block index (b, q, 0) of the output is some grid point's. -/
theorem onto_s : ∀ (q0 : Fin 8) (q1 : Fin 4), ∃ t : Fin cfg1.N, win1_16.index t = ![q0.val, q1.val, 0] :=
  (by decide +kernel : ∀ (q0 : Fin 8) (q1 : Fin 4), ∃ t : Fin grid1.N, win1_16.index t = ![q0.val, q1.val, 0])

/-- What grid point t writes back to the head's output array is block t of the head's output function. -/
theorem flushed_s (c : Dev nD) (t : Fin cfg1.N) :
    (dat1 (F := Ideal) V c).flushed 16 t = ((cfg1.win 16).blk t).view.read (Elt Ideal)
      (fun (j : S8x128x128.Idx) => Cert.PairSpec.pairEntry (V c main_v9_0) (V c main_v9_1) (V c main_v10)
        (fun o => V c main_v14 (ix2 (0 : Fin 1) o)) (j 0) (j 1) (j 2) (0 : Fin 1)) := by
  show (cfg1.win 16).cut (grid1.coords t) ((dat1 V c).after 16 t) = _
  rw [after1_16]
  unfold out1_16
  rw [View.canon_unit_zero hz3]
  simp only [View.ld_unit_zero (S := S1x32x512) hz3, View.ld_unit_zero (S := S1x128x512) hz3,
    View.ld_unit_zero (S := S512x1) hz2, View.ld_unit_zero (S := S1x1) hz2]
  rw [pay_s_eq]
  obtain ⟨e00, e01, e02, e10, e11, e12, e20, e21, e30, e31, e162⟩ := idx_s t
  refine funext_ix3 (n0 := 1) (n1 := 32) (n2 := 128) fun u i' j => ?_
  show pay1 (iblk1 V c 0 t) (iblk1 V c 1 t) (iblk1 V c 2 t) (iblk1 V c 3 t) (ix3 u i' j)
    = Cert.PairSpec.pairEntry (V c main_v9_0) (V c main_v9_1) (V c main_v10) (fun o => V c main_v14 (ix2 (0 : Fin 1) o))
        (((cfg1.win 16).blk t).view.emb (ix3 u i' j) 0) (((cfg1.win 16).blk t).view.emb (ix3 u i' j) 1)
        (((cfg1.win 16).blk t).view.emb (ix3 u i' j) 2) (0 : Fin 1)
  refine pay1_entry (V c main_v9_0) (V c main_v9_1) (V c main_v10) (V c main_v14)
    (iblk1 V c 0 t) (iblk1 V c 1 t) (iblk1 V c 2 t) (iblk1 V c 3 t) u i' j
    (((cfg1.win 16).blk t).view.emb (ix3 u i' j) 0) (((cfg1.win 16).blk t).view.emb (ix3 u i' j) 1)
    (((cfg1.win 16).blk t).view.emb (ix3 u i' j) 2) (fun l => ?_) (fun l => ?_) (fun l => ?_) ?_
  · show V c main_v9_0 (((cfg1.win 0).blk t).view.emb (ix3 (0 : Fin 1) i' l)) = _
    refine congrArg (V c main_v9_0) (funext fun a => Fin.ext ?_)
    match a with
    | ⟨0, _⟩ =>
      show win1_0.index t (0 : Fin 3) * 1 + 1 * 0 = win1_16.index t (0 : Fin 3) * 1 + 1 * u.val
      have := u.isLt; omega
    | ⟨1, _⟩ =>
      show win1_0.index t (1 : Fin 3) * 32 + 1 * i'.val = win1_16.index t (1 : Fin 3) * 32 + 1 * i'.val
      omega
    | ⟨2, _⟩ =>
      show win1_0.index t (2 : Fin 3) * 512 + 1 * l.val = l.val
      omega
  · show V c main_v9_1 (((cfg1.win 1).blk t).view.emb (ix3 (0 : Fin 1) j l)) = _
    refine congrArg (V c main_v9_1) (funext fun a => Fin.ext ?_)
    match a with
    | ⟨0, _⟩ =>
      show win1_1.index t (0 : Fin 3) * 1 + 1 * 0 = win1_16.index t (0 : Fin 3) * 1 + 1 * u.val
      have := u.isLt; omega
    | ⟨1, _⟩ =>
      show win1_1.index t (1 : Fin 3) * 128 + 1 * j.val = win1_16.index t (2 : Fin 3) * 128 + 1 * j.val
      omega
    | ⟨2, _⟩ =>
      show win1_1.index t (2 : Fin 3) * 512 + 1 * l.val = l.val
      omega
  · show V c main_v10 (((cfg1.win 2).blk t).view.emb (ix2 l (0 : Fin 1))) = _
    refine congrArg (V c main_v10) (funext fun a => Fin.ext ?_)
    match a with
    | ⟨0, _⟩ =>
      show win1_2.index t (0 : Fin 2) * 512 + 1 * l.val = l.val
      omega
    | ⟨1, _⟩ =>
      show win1_2.index t (1 : Fin 2) * 1 + 1 * 0 = 0
      omega
  · show V c main_v14 (((cfg1.win 3).blk t).view.emb (ix2 (0 : Fin 1) (0 : Fin 1))) = _
    refine congrArg (V c main_v14) (funext fun a => Fin.ext ?_)
    match a with
    | ⟨0, _⟩ =>
      show win1_3.index t (0 : Fin 2) * 1 + 1 * 0 = 0
      omega
    | ⟨1, _⟩ =>
      show win1_3.index t (1 : Fin 2) * 1 + 1 * 0 = 0
      omega

/-- An index of the output array is in point t's block iff each coordinate is in the block's range on its axis. -/
theorem mem_blk_s (t : Fin cfg1.N) (i : S8x128x128.Idx) :
    i ∈ ((cfg1.win 16).blk t).view.set ↔ ∀ a : Fin 3, win1_16.index t a * S1x32x128.size a ≤ (i a).val
      ∧ (i a).val < win1_16.index t a * S1x32x128.size a + S1x32x128.size a := by
  show i ∈ ((View.whole main_v18_0).slice (win1_16.rect t)).set ↔ _
  rw [View.set_slice_whole, Rect.mem_set_unit]
  exact Iff.rfl

/-- Every index (b, i, j) of the output array is in the block of the point with coordinates (b, i / 32). -/
theorem cover_s (i : S8x128x128.Idx) :
    ∃ t : Fin cfg1.N, (cfg1.win 16).flush t = true ∧ i ∈ ((cfg1.win 16).blk t).view.set := by
  have hi0 : (i 0).val < 8 := (i 0).isLt
  have hi1 : (i 1).val < 128 := (i 1).isLt
  have hi2 : (i 2).val < 128 := (i 2).isLt
  obtain ⟨t, ht⟩ := onto_s ⟨(i 0).val, hi0⟩ ⟨(i 1).val / 32, by omega⟩
  have q0 : win1_16.index t (0 : Fin 3) = (i 0).val := congrFun ht 0
  have q1 : win1_16.index t (1 : Fin 3) = (i 1).val / 32 := congrFun ht 1
  have q2 : win1_16.index t (2 : Fin 3) = 0 := congrFun ht 2
  refine ⟨t, flush1_16 t, ?_⟩
  rw [mem_blk_s]
  intro a
  match a with
  | ⟨0, _⟩ =>
    show win1_16.index t (0 : Fin 3) * 1 ≤ (i 0).val ∧ (i 0).val < win1_16.index t (0 : Fin 3) * 1 + 1
    omega
  | ⟨1, _⟩ =>
    show win1_16.index t (1 : Fin 3) * 32 ≤ (i 1).val ∧ (i 1).val < win1_16.index t (1 : Fin 3) * 32 + 32
    omega
  | ⟨2, _⟩ =>
    show win1_16.index t (2 : Fin 3) * 128 ≤ (i 2).val ∧ (i 2).val < win1_16.index t (2 : Fin 3) * 128 + 128
    omega

/-- The first one-column head's output array. -/
theorem arr_s (c : Dev nD) : (dat1 (F := Ideal) V c).arrAt 16 cfg1.N
    = fun (j : S8x128x128.Idx) => Cert.PairSpec.pairEntry (V c main_v9_0) (V c main_v9_1) (V c main_v10)
        (fun o => V c main_v14 (ix2 (0 : Fin 1) o)) (j 0) (j 1) (j 2) (0 : Fin 1) :=
  (dat1 (F := Ideal) V c).arrAt_eq_of_cover 16 _ (fun t _ => flushed_s V c t) cover_s

/-! ### The second one-column head (windows 4, 5, 6, 7 into window 17) -/

/-- The block indices of the head's windows at every grid point, decided over the 32 points. -/
theorem idx_h : ∀ t : Fin cfg1.N,
    win1_4.index t (0 : Fin 3) = win1_17.index t (0 : Fin 3) ∧ win1_4.index t (1 : Fin 3) = win1_17.index t (1 : Fin 3)
    ∧ win1_4.index t (2 : Fin 3) = 0
    ∧ win1_5.index t (0 : Fin 3) = win1_17.index t (0 : Fin 3) ∧ win1_5.index t (1 : Fin 3) = 0 ∧ win1_5.index t (2 : Fin 3) = 0
    ∧ win1_6.index t (0 : Fin 2) = 0 ∧ win1_6.index t (1 : Fin 2) = 0
    ∧ win1_7.index t (0 : Fin 2) = 0 ∧ win1_7.index t (1 : Fin 2) = 0
    ∧ win1_17.index t (2 : Fin 3) = 0 :=
  (by decide +kernel : ∀ t : Fin grid1.N, _)

/-- Every block index (b, q, 0) of the output is some grid point's. -/
theorem onto_h : ∀ (q0 : Fin 8) (q1 : Fin 4), ∃ t : Fin cfg1.N, win1_17.index t = ![q0.val, q1.val, 0] :=
  (by decide +kernel : ∀ (q0 : Fin 8) (q1 : Fin 4), ∃ t : Fin grid1.N, win1_17.index t = ![q0.val, q1.val, 0])

/-- What grid point t writes back to the head's output array is block t of the head's output function. -/
theorem flushed_h (c : Dev nD) (t : Fin cfg1.N) :
    (dat1 (F := Ideal) V c).flushed 17 t = ((cfg1.win 17).blk t).view.read (Elt Ideal)
      (fun (j : S8x128x128.Idx) => Cert.PairSpec.pairEntry (V c main_v9_2) (V c main_v9_3) (V c main_v11)
        (fun o => V c main_v15 (ix2 (0 : Fin 1) o)) (j 0) (j 1) (j 2) (0 : Fin 1)) := by
  show (cfg1.win 17).cut (grid1.coords t) ((dat1 V c).after 17 t) = _
  rw [after1_17]
  unfold out1_17
  rw [View.canon_unit_zero hz3]
  simp only [View.ld_unit_zero (S := S1x32x512) hz3, View.ld_unit_zero (S := S1x128x512) hz3,
    View.ld_unit_zero (S := S512x1) hz2, View.ld_unit_zero (S := S1x1) hz2]
  rw [pay_h_eq]
  obtain ⟨e00, e01, e02, e10, e11, e12, e20, e21, e30, e31, e172⟩ := idx_h t
  refine funext_ix3 (n0 := 1) (n1 := 32) (n2 := 128) fun u i' j => ?_
  show pay1 (iblk1 V c 4 t) (iblk1 V c 5 t) (iblk1 V c 6 t) (iblk1 V c 7 t) (ix3 u i' j)
    = Cert.PairSpec.pairEntry (V c main_v9_2) (V c main_v9_3) (V c main_v11) (fun o => V c main_v15 (ix2 (0 : Fin 1) o))
        (((cfg1.win 17).blk t).view.emb (ix3 u i' j) 0) (((cfg1.win 17).blk t).view.emb (ix3 u i' j) 1)
        (((cfg1.win 17).blk t).view.emb (ix3 u i' j) 2) (0 : Fin 1)
  refine pay1_entry (V c main_v9_2) (V c main_v9_3) (V c main_v11) (V c main_v15)
    (iblk1 V c 4 t) (iblk1 V c 5 t) (iblk1 V c 6 t) (iblk1 V c 7 t) u i' j
    (((cfg1.win 17).blk t).view.emb (ix3 u i' j) 0) (((cfg1.win 17).blk t).view.emb (ix3 u i' j) 1)
    (((cfg1.win 17).blk t).view.emb (ix3 u i' j) 2) (fun l => ?_) (fun l => ?_) (fun l => ?_) ?_
  · show V c main_v9_2 (((cfg1.win 4).blk t).view.emb (ix3 (0 : Fin 1) i' l)) = _
    refine congrArg (V c main_v9_2) (funext fun a => Fin.ext ?_)
    match a with
    | ⟨0, _⟩ =>
      show win1_4.index t (0 : Fin 3) * 1 + 1 * 0 = win1_17.index t (0 : Fin 3) * 1 + 1 * u.val
      have := u.isLt; omega
    | ⟨1, _⟩ =>
      show win1_4.index t (1 : Fin 3) * 32 + 1 * i'.val = win1_17.index t (1 : Fin 3) * 32 + 1 * i'.val
      omega
    | ⟨2, _⟩ =>
      show win1_4.index t (2 : Fin 3) * 512 + 1 * l.val = l.val
      omega
  · show V c main_v9_3 (((cfg1.win 5).blk t).view.emb (ix3 (0 : Fin 1) j l)) = _
    refine congrArg (V c main_v9_3) (funext fun a => Fin.ext ?_)
    match a with
    | ⟨0, _⟩ =>
      show win1_5.index t (0 : Fin 3) * 1 + 1 * 0 = win1_17.index t (0 : Fin 3) * 1 + 1 * u.val
      have := u.isLt; omega
    | ⟨1, _⟩ =>
      show win1_5.index t (1 : Fin 3) * 128 + 1 * j.val = win1_17.index t (2 : Fin 3) * 128 + 1 * j.val
      omega
    | ⟨2, _⟩ =>
      show win1_5.index t (2 : Fin 3) * 512 + 1 * l.val = l.val
      omega
  · show V c main_v11 (((cfg1.win 6).blk t).view.emb (ix2 l (0 : Fin 1))) = _
    refine congrArg (V c main_v11) (funext fun a => Fin.ext ?_)
    match a with
    | ⟨0, _⟩ =>
      show win1_6.index t (0 : Fin 2) * 512 + 1 * l.val = l.val
      omega
    | ⟨1, _⟩ =>
      show win1_6.index t (1 : Fin 2) * 1 + 1 * 0 = 0
      omega
  · show V c main_v15 (((cfg1.win 7).blk t).view.emb (ix2 (0 : Fin 1) (0 : Fin 1))) = _
    refine congrArg (V c main_v15) (funext fun a => Fin.ext ?_)
    match a with
    | ⟨0, _⟩ =>
      show win1_7.index t (0 : Fin 2) * 1 + 1 * 0 = 0
      omega
    | ⟨1, _⟩ =>
      show win1_7.index t (1 : Fin 2) * 1 + 1 * 0 = 0
      omega

/-- An index of the output array is in point t's block iff each coordinate is in the block's range on its axis. -/
theorem mem_blk_h (t : Fin cfg1.N) (i : S8x128x128.Idx) :
    i ∈ ((cfg1.win 17).blk t).view.set ↔ ∀ a : Fin 3, win1_17.index t a * S1x32x128.size a ≤ (i a).val
      ∧ (i a).val < win1_17.index t a * S1x32x128.size a + S1x32x128.size a := by
  show i ∈ ((View.whole main_v18_1).slice (win1_17.rect t)).set ↔ _
  rw [View.set_slice_whole, Rect.mem_set_unit]
  exact Iff.rfl

/-- Every index (b, i, j) of the output array is in the block of the point with coordinates (b, i / 32). -/
theorem cover_h (i : S8x128x128.Idx) :
    ∃ t : Fin cfg1.N, (cfg1.win 17).flush t = true ∧ i ∈ ((cfg1.win 17).blk t).view.set := by
  have hi0 : (i 0).val < 8 := (i 0).isLt
  have hi1 : (i 1).val < 128 := (i 1).isLt
  have hi2 : (i 2).val < 128 := (i 2).isLt
  obtain ⟨t, ht⟩ := onto_h ⟨(i 0).val, hi0⟩ ⟨(i 1).val / 32, by omega⟩
  have q0 : win1_17.index t (0 : Fin 3) = (i 0).val := congrFun ht 0
  have q1 : win1_17.index t (1 : Fin 3) = (i 1).val / 32 := congrFun ht 1
  have q2 : win1_17.index t (2 : Fin 3) = 0 := congrFun ht 2
  refine ⟨t, flush1_17 t, ?_⟩
  rw [mem_blk_h]
  intro a
  match a with
  | ⟨0, _⟩ =>
    show win1_17.index t (0 : Fin 3) * 1 ≤ (i 0).val ∧ (i 0).val < win1_17.index t (0 : Fin 3) * 1 + 1
    omega
  | ⟨1, _⟩ =>
    show win1_17.index t (1 : Fin 3) * 32 ≤ (i 1).val ∧ (i 1).val < win1_17.index t (1 : Fin 3) * 32 + 32
    omega
  | ⟨2, _⟩ =>
    show win1_17.index t (2 : Fin 3) * 128 ≤ (i 2).val ∧ (i 2).val < win1_17.index t (2 : Fin 3) * 128 + 128
    omega

/-- The second one-column head's output array. -/
theorem arr_h (c : Dev nD) : (dat1 (F := Ideal) V c).arrAt 17 cfg1.N
    = fun (j : S8x128x128.Idx) => Cert.PairSpec.pairEntry (V c main_v9_2) (V c main_v9_3) (V c main_v11)
        (fun o => V c main_v15 (ix2 (0 : Fin 1) o)) (j 0) (j 1) (j 2) (0 : Fin 1) :=
  (dat1 (F := Ideal) V c).arrAt_eq_of_cover 17 _ (fun t _ => flushed_h V c t) cover_h

/-! ### The third one-column head (windows 8, 9, 10, 11 into window 18) -/

/-- The block indices of the head's windows at every grid point, decided over the 32 points. -/
theorem idx_t : ∀ t : Fin cfg1.N,
    win1_8.index t (0 : Fin 3) = win1_18.index t (0 : Fin 3) ∧ win1_8.index t (1 : Fin 3) = win1_18.index t (1 : Fin 3)
    ∧ win1_8.index t (2 : Fin 3) = 0
    ∧ win1_9.index t (0 : Fin 3) = win1_18.index t (0 : Fin 3) ∧ win1_9.index t (1 : Fin 3) = 0 ∧ win1_9.index t (2 : Fin 3) = 0
    ∧ win1_10.index t (0 : Fin 2) = 0 ∧ win1_10.index t (1 : Fin 2) = 0
    ∧ win1_11.index t (0 : Fin 2) = 0 ∧ win1_11.index t (1 : Fin 2) = 0
    ∧ win1_18.index t (2 : Fin 3) = 0 :=
  (by decide +kernel : ∀ t : Fin grid1.N, _)

/-- Every block index (b, q, 0) of the output is some grid point's. -/
theorem onto_t : ∀ (q0 : Fin 8) (q1 : Fin 4), ∃ t : Fin cfg1.N, win1_18.index t = ![q0.val, q1.val, 0] :=
  (by decide +kernel : ∀ (q0 : Fin 8) (q1 : Fin 4), ∃ t : Fin grid1.N, win1_18.index t = ![q0.val, q1.val, 0])

/-- What grid point t writes back to the head's output array is block t of the head's output function. -/
theorem flushed_t (c : Dev nD) (t : Fin cfg1.N) :
    (dat1 (F := Ideal) V c).flushed 18 t = ((cfg1.win 18).blk t).view.read (Elt Ideal)
      (fun (j : S8x128x128.Idx) => Cert.PairSpec.pairEntry (V c main_v9_4) (V c main_v9_5) (V c main_v12)
        (fun o => V c main_v16 (ix2 (0 : Fin 1) o)) (j 0) (j 1) (j 2) (0 : Fin 1)) := by
  show (cfg1.win 18).cut (grid1.coords t) ((dat1 V c).after 18 t) = _
  rw [after1_18]
  unfold out1_18
  rw [View.canon_unit_zero hz3]
  simp only [View.ld_unit_zero (S := S1x32x512) hz3, View.ld_unit_zero (S := S1x128x512) hz3,
    View.ld_unit_zero (S := S512x1) hz2, View.ld_unit_zero (S := S1x1) hz2]
  rw [pay_t_eq]
  obtain ⟨e00, e01, e02, e10, e11, e12, e20, e21, e30, e31, e182⟩ := idx_t t
  refine funext_ix3 (n0 := 1) (n1 := 32) (n2 := 128) fun u i' j => ?_
  show pay1 (iblk1 V c 8 t) (iblk1 V c 9 t) (iblk1 V c 10 t) (iblk1 V c 11 t) (ix3 u i' j)
    = Cert.PairSpec.pairEntry (V c main_v9_4) (V c main_v9_5) (V c main_v12) (fun o => V c main_v16 (ix2 (0 : Fin 1) o))
        (((cfg1.win 18).blk t).view.emb (ix3 u i' j) 0) (((cfg1.win 18).blk t).view.emb (ix3 u i' j) 1)
        (((cfg1.win 18).blk t).view.emb (ix3 u i' j) 2) (0 : Fin 1)
  refine pay1_entry (V c main_v9_4) (V c main_v9_5) (V c main_v12) (V c main_v16)
    (iblk1 V c 8 t) (iblk1 V c 9 t) (iblk1 V c 10 t) (iblk1 V c 11 t) u i' j
    (((cfg1.win 18).blk t).view.emb (ix3 u i' j) 0) (((cfg1.win 18).blk t).view.emb (ix3 u i' j) 1)
    (((cfg1.win 18).blk t).view.emb (ix3 u i' j) 2) (fun l => ?_) (fun l => ?_) (fun l => ?_) ?_
  · show V c main_v9_4 (((cfg1.win 8).blk t).view.emb (ix3 (0 : Fin 1) i' l)) = _
    refine congrArg (V c main_v9_4) (funext fun a => Fin.ext ?_)
    match a with
    | ⟨0, _⟩ =>
      show win1_8.index t (0 : Fin 3) * 1 + 1 * 0 = win1_18.index t (0 : Fin 3) * 1 + 1 * u.val
      have := u.isLt; omega
    | ⟨1, _⟩ =>
      show win1_8.index t (1 : Fin 3) * 32 + 1 * i'.val = win1_18.index t (1 : Fin 3) * 32 + 1 * i'.val
      omega
    | ⟨2, _⟩ =>
      show win1_8.index t (2 : Fin 3) * 512 + 1 * l.val = l.val
      omega
  · show V c main_v9_5 (((cfg1.win 9).blk t).view.emb (ix3 (0 : Fin 1) j l)) = _
    refine congrArg (V c main_v9_5) (funext fun a => Fin.ext ?_)
    match a with
    | ⟨0, _⟩ =>
      show win1_9.index t (0 : Fin 3) * 1 + 1 * 0 = win1_18.index t (0 : Fin 3) * 1 + 1 * u.val
      have := u.isLt; omega
    | ⟨1, _⟩ =>
      show win1_9.index t (1 : Fin 3) * 128 + 1 * j.val = win1_18.index t (2 : Fin 3) * 128 + 1 * j.val
      omega
    | ⟨2, _⟩ =>
      show win1_9.index t (2 : Fin 3) * 512 + 1 * l.val = l.val
      omega
  · show V c main_v12 (((cfg1.win 10).blk t).view.emb (ix2 l (0 : Fin 1))) = _
    refine congrArg (V c main_v12) (funext fun a => Fin.ext ?_)
    match a with
    | ⟨0, _⟩ =>
      show win1_10.index t (0 : Fin 2) * 512 + 1 * l.val = l.val
      omega
    | ⟨1, _⟩ =>
      show win1_10.index t (1 : Fin 2) * 1 + 1 * 0 = 0
      omega
  · show V c main_v16 (((cfg1.win 11).blk t).view.emb (ix2 (0 : Fin 1) (0 : Fin 1))) = _
    refine congrArg (V c main_v16) (funext fun a => Fin.ext ?_)
    match a with
    | ⟨0, _⟩ =>
      show win1_11.index t (0 : Fin 2) * 1 + 1 * 0 = 0
      omega
    | ⟨1, _⟩ =>
      show win1_11.index t (1 : Fin 2) * 1 + 1 * 0 = 0
      omega

/-- An index of the output array is in point t's block iff each coordinate is in the block's range on its axis. -/
theorem mem_blk_t (t : Fin cfg1.N) (i : S8x128x128.Idx) :
    i ∈ ((cfg1.win 18).blk t).view.set ↔ ∀ a : Fin 3, win1_18.index t a * S1x32x128.size a ≤ (i a).val
      ∧ (i a).val < win1_18.index t a * S1x32x128.size a + S1x32x128.size a := by
  show i ∈ ((View.whole main_v18_2).slice (win1_18.rect t)).set ↔ _
  rw [View.set_slice_whole, Rect.mem_set_unit]
  exact Iff.rfl

/-- Every index (b, i, j) of the output array is in the block of the point with coordinates (b, i / 32). -/
theorem cover_t (i : S8x128x128.Idx) :
    ∃ t : Fin cfg1.N, (cfg1.win 18).flush t = true ∧ i ∈ ((cfg1.win 18).blk t).view.set := by
  have hi0 : (i 0).val < 8 := (i 0).isLt
  have hi1 : (i 1).val < 128 := (i 1).isLt
  have hi2 : (i 2).val < 128 := (i 2).isLt
  obtain ⟨t, ht⟩ := onto_t ⟨(i 0).val, hi0⟩ ⟨(i 1).val / 32, by omega⟩
  have q0 : win1_18.index t (0 : Fin 3) = (i 0).val := congrFun ht 0
  have q1 : win1_18.index t (1 : Fin 3) = (i 1).val / 32 := congrFun ht 1
  have q2 : win1_18.index t (2 : Fin 3) = 0 := congrFun ht 2
  refine ⟨t, flush1_18 t, ?_⟩
  rw [mem_blk_t]
  intro a
  match a with
  | ⟨0, _⟩ =>
    show win1_18.index t (0 : Fin 3) * 1 ≤ (i 0).val ∧ (i 0).val < win1_18.index t (0 : Fin 3) * 1 + 1
    omega
  | ⟨1, _⟩ =>
    show win1_18.index t (1 : Fin 3) * 32 ≤ (i 1).val ∧ (i 1).val < win1_18.index t (1 : Fin 3) * 32 + 32
    omega
  | ⟨2, _⟩ =>
    show win1_18.index t (2 : Fin 3) * 128 ≤ (i 2).val ∧ (i 2).val < win1_18.index t (2 : Fin 3) * 128 + 128
    omega

/-- The third one-column head's output array. -/
theorem arr_t (c : Dev nD) : (dat1 (F := Ideal) V c).arrAt 18 cfg1.N
    = fun (j : S8x128x128.Idx) => Cert.PairSpec.pairEntry (V c main_v9_4) (V c main_v9_5) (V c main_v12)
        (fun o => V c main_v16 (ix2 (0 : Fin 1) o)) (j 0) (j 1) (j 2) (0 : Fin 1) :=
  (dat1 (F := Ideal) V c).arrAt_eq_of_cover 18 _ (fun t _ => flushed_t V c t) cover_t

/-! ### The fifty-column head (windows 12, 13, 14, 15 into window 19) -/

/-- The block indices of the head's windows at every grid point, decided over the 32 points. -/
theorem idx_l : ∀ t : Fin cfg1.N,
    win1_12.index t (0 : Fin 3) = win1_19.index t (0 : Fin 4) ∧ win1_12.index t (1 : Fin 3) = win1_19.index t (1 : Fin 4)
    ∧ win1_12.index t (2 : Fin 3) = 0
    ∧ win1_13.index t (0 : Fin 3) = win1_19.index t (0 : Fin 4) ∧ win1_13.index t (1 : Fin 3) = 0 ∧ win1_13.index t (2 : Fin 3) = 0
    ∧ win1_14.index t (0 : Fin 2) = 0 ∧ win1_14.index t (1 : Fin 2) = 0
    ∧ win1_15.index t (0 : Fin 2) = 0 ∧ win1_15.index t (1 : Fin 2) = 0
    ∧ win1_19.index t (2 : Fin 4) = 0 ∧ win1_19.index t (3 : Fin 4) = 0 :=
  (by decide +kernel : ∀ t : Fin grid1.N, _)

/-- Every block index (b, q, 0, 0) of the output is some grid point's. -/
theorem onto_l : ∀ (q0 : Fin 8) (q1 : Fin 4), ∃ t : Fin cfg1.N, win1_19.index t = ![q0.val, q1.val, 0, 0] :=
  (by decide +kernel : ∀ (q0 : Fin 8) (q1 : Fin 4), ∃ t : Fin grid1.N, win1_19.index t = ![q0.val, q1.val, 0, 0])

/-- What grid point t writes back to the head's output array is block t of the head's output function. -/
theorem flushed_l (c : Dev nD) (t : Fin cfg1.N) :
    (dat1 (F := Ideal) V c).flushed 19 t = ((cfg1.win 19).blk t).view.read (Elt Ideal)
      (fun (j : S8x128x128x50.Idx) => Cert.PairSpec.pairEntry (V c main_v9_6) (V c main_v9_7) (V c main_v13)
        (fun o => V c main_v17 (ix2 (0 : Fin 1) o)) (j 0) (j 1) (j 2) (j 3)) := by
  show (cfg1.win 19).cut (grid1.coords t) ((dat1 V c).after 19 t) = _
  rw [after1_19]
  unfold out1_19
  rw [View.canon_unit_zero hz4]
  simp only [View.ld_unit_zero (S := S1x32x512) hz3, View.ld_unit_zero (S := S1x128x512) hz3,
    View.ld_unit_zero (S := S512x50) hz2, View.ld_unit_zero (S := S1x50) hz2]
  rw [pay_l_eq]
  obtain ⟨e00, e01, e02, e10, e11, e12, e20, e21, e30, e31, e192, e193⟩ := idx_l t
  refine funext_ix4 (n0 := 1) (n1 := 32) (n2 := 128) (n3 := 50) fun u i' j o => ?_
  show pay50 (iblk1 V c 12 t) (iblk1 V c 13 t) (iblk1 V c 14 t) (iblk1 V c 15 t) (ix4 u i' j o)
    = Cert.PairSpec.pairEntry (V c main_v9_6) (V c main_v9_7) (V c main_v13) (fun o => V c main_v17 (ix2 (0 : Fin 1) o))
        (((cfg1.win 19).blk t).view.emb (ix4 u i' j o) 0) (((cfg1.win 19).blk t).view.emb (ix4 u i' j o) 1)
        (((cfg1.win 19).blk t).view.emb (ix4 u i' j o) 2) (((cfg1.win 19).blk t).view.emb (ix4 u i' j o) 3)
  refine pay50_entry (V c main_v9_6) (V c main_v9_7) (V c main_v13) (V c main_v17)
    (iblk1 V c 12 t) (iblk1 V c 13 t) (iblk1 V c 14 t) (iblk1 V c 15 t) u i' j o
    (((cfg1.win 19).blk t).view.emb (ix4 u i' j o) 0) (((cfg1.win 19).blk t).view.emb (ix4 u i' j o) 1)
    (((cfg1.win 19).blk t).view.emb (ix4 u i' j o) 2) (((cfg1.win 19).blk t).view.emb (ix4 u i' j o) 3)
    (fun l => ?_) (fun l => ?_) (fun l => ?_) ?_
  · show V c main_v9_6 (((cfg1.win 12).blk t).view.emb (ix3 (0 : Fin 1) i' l)) = _
    refine congrArg (V c main_v9_6) (funext fun a => Fin.ext ?_)
    match a with
    | ⟨0, _⟩ =>
      show win1_12.index t (0 : Fin 3) * 1 + 1 * 0 = win1_19.index t (0 : Fin 4) * 1 + 1 * u.val
      have := u.isLt; omega
    | ⟨1, _⟩ =>
      show win1_12.index t (1 : Fin 3) * 32 + 1 * i'.val = win1_19.index t (1 : Fin 4) * 32 + 1 * i'.val
      omega
    | ⟨2, _⟩ =>
      show win1_12.index t (2 : Fin 3) * 512 + 1 * l.val = l.val
      omega
  · show V c main_v9_7 (((cfg1.win 13).blk t).view.emb (ix3 (0 : Fin 1) j l)) = _
    refine congrArg (V c main_v9_7) (funext fun a => Fin.ext ?_)
    match a with
    | ⟨0, _⟩ =>
      show win1_13.index t (0 : Fin 3) * 1 + 1 * 0 = win1_19.index t (0 : Fin 4) * 1 + 1 * u.val
      have := u.isLt; omega
    | ⟨1, _⟩ =>
      show win1_13.index t (1 : Fin 3) * 128 + 1 * j.val = win1_19.index t (2 : Fin 4) * 128 + 1 * j.val
      omega
    | ⟨2, _⟩ =>
      show win1_13.index t (2 : Fin 3) * 512 + 1 * l.val = l.val
      omega
  · show V c main_v13 (((cfg1.win 14).blk t).view.emb (ix2 l o)) = _
    refine congrArg (V c main_v13) (funext fun a => Fin.ext ?_)
    match a with
    | ⟨0, _⟩ =>
      show win1_14.index t (0 : Fin 2) * 512 + 1 * l.val = l.val
      omega
    | ⟨1, _⟩ =>
      show win1_14.index t (1 : Fin 2) * 50 + 1 * o.val = win1_19.index t (3 : Fin 4) * 50 + 1 * o.val
      omega
  · show V c main_v17 (((cfg1.win 15).blk t).view.emb (ix2 (0 : Fin 1) o)) = _
    refine congrArg (V c main_v17) (funext fun a => Fin.ext ?_)
    match a with
    | ⟨0, _⟩ =>
      show win1_15.index t (0 : Fin 2) * 1 + 1 * 0 = 0
      omega
    | ⟨1, _⟩ =>
      show win1_15.index t (1 : Fin 2) * 50 + 1 * o.val = win1_19.index t (3 : Fin 4) * 50 + 1 * o.val
      omega

/-- An index of the output array is in point t's block iff each coordinate is in the block's range on its axis. -/
theorem mem_blk_l (t : Fin cfg1.N) (i : S8x128x128x50.Idx) :
    i ∈ ((cfg1.win 19).blk t).view.set ↔ ∀ a : Fin 4, win1_19.index t a * S1x32x128x50.size a ≤ (i a).val
      ∧ (i a).val < win1_19.index t a * S1x32x128x50.size a + S1x32x128x50.size a := by
  show i ∈ ((View.whole main_v18_3).slice (win1_19.rect t)).set ↔ _
  rw [View.set_slice_whole, Rect.mem_set_unit]
  exact Iff.rfl

/-- Every index (b, i, j, o) of the output array is in the block of the point with coordinates (b, i / 32). -/
theorem cover_l (i : S8x128x128x50.Idx) :
    ∃ t : Fin cfg1.N, (cfg1.win 19).flush t = true ∧ i ∈ ((cfg1.win 19).blk t).view.set := by
  have hi0 : (i 0).val < 8 := (i 0).isLt
  have hi1 : (i 1).val < 128 := (i 1).isLt
  have hi2 : (i 2).val < 128 := (i 2).isLt
  have hi3 : (i 3).val < 50 := (i 3).isLt
  obtain ⟨t, ht⟩ := onto_l ⟨(i 0).val, hi0⟩ ⟨(i 1).val / 32, by omega⟩
  have q0 : win1_19.index t (0 : Fin 4) = (i 0).val := congrFun ht 0
  have q1 : win1_19.index t (1 : Fin 4) = (i 1).val / 32 := congrFun ht 1
  have q2 : win1_19.index t (2 : Fin 4) = 0 := congrFun ht 2
  have q3 : win1_19.index t (3 : Fin 4) = 0 := congrFun ht 3
  refine ⟨t, flush1_19 t, ?_⟩
  rw [mem_blk_l]
  intro a
  match a with
  | ⟨0, _⟩ =>
    show win1_19.index t (0 : Fin 4) * 1 ≤ (i 0).val ∧ (i 0).val < win1_19.index t (0 : Fin 4) * 1 + 1
    omega
  | ⟨1, _⟩ =>
    show win1_19.index t (1 : Fin 4) * 32 ≤ (i 1).val ∧ (i 1).val < win1_19.index t (1 : Fin 4) * 32 + 32
    omega
  | ⟨2, _⟩ =>
    show win1_19.index t (2 : Fin 4) * 128 ≤ (i 2).val ∧ (i 2).val < win1_19.index t (2 : Fin 4) * 128 + 128
    omega
  | ⟨3, _⟩ =>
    show win1_19.index t (3 : Fin 4) * 50 ≤ (i 3).val ∧ (i 3).val < win1_19.index t (3 : Fin 4) * 50 + 50
    omega

/-- The fifty-column head's output array. -/
theorem arr_l (c : Dev nD) : (dat1 (F := Ideal) V c).arrAt 19 cfg1.N
    = fun (j : S8x128x128x50.Idx) => Cert.PairSpec.pairEntry (V c main_v9_6) (V c main_v9_7) (V c main_v13)
        (fun o => V c main_v17 (ix2 (0 : Fin 1) o)) (j 0) (j 1) (j 2) (j 3) :=
  (dat1 (F := Ideal) V c).arrAt_eq_of_cover 19 _ (fun t _ => flushed_l V c t) cover_l

end Cert.KernelIdeal.Pair

end
-- ==== Proof.KernelResults.lean ====
/-
  The kernel program's four results as the specification's functions of its arguments.

  Chaining what each part of the program does: the second kernel's output arrays are the pairwise function of the
  first kernel's projection arrays and the second-layer parameters; the projection arrays are the two
  contractions of the token features with the halves of the first-layer weights, the bias folded into the first;
  the host operations around the kernels only convert formats (the identity here) and reshape biases to rows. The
  last three results are the second kernel's last three outputs; the first is its first output symmetrized.
-/
import proofs.«404877_j44659069943968_3_alg».proof.Proof.HostReads
import proofs.«404877_j44659069943968_3_alg».proof.Proof.TailValue
import proofs.«404877_j44659069943968_3_alg».proof.Proof.ProjHeadS
import proofs.«404877_j44659069943968_3_alg».proof.Proof.ProjHeadH
import proofs.«404877_j44659069943968_3_alg».proof.Proof.ProjHeadT
import proofs.«404877_j44659069943968_3_alg».proof.Proof.ProjHeadL
import proofs.«404877_j44659069943968_3_alg».proof.Proof.PairValue

set_option maxRecDepth 16384

noncomputable section

namespace Cert.KernelIdeal.Results

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The eight projection arrays the second kernel finds, as functions of the launch arguments. -/
theorem projections (c : Dev nD) :
    V3 m ρ c main_v9_0 = Cert.PairSpec.leftArr (m ((c : Thread nD τ).loc main_arg0)) (m ((c : Thread nD τ).loc main_arg1)) (fun l => m ((c : Thread nD τ).loc main_arg2) (ix1 l))
    ∧ V3 m ρ c main_v9_1 = Cert.PairSpec.rightArr (m ((c : Thread nD τ).loc main_arg0)) (m ((c : Thread nD τ).loc main_arg1))
    ∧ V3 m ρ c main_v9_2 = Cert.PairSpec.leftArr (m ((c : Thread nD τ).loc main_arg0)) (m ((c : Thread nD τ).loc main_arg5)) (fun l => m ((c : Thread nD τ).loc main_arg6) (ix1 l))
    ∧ V3 m ρ c main_v9_3 = Cert.PairSpec.rightArr (m ((c : Thread nD τ).loc main_arg0)) (m ((c : Thread nD τ).loc main_arg5))
    ∧ V3 m ρ c main_v9_4 = Cert.PairSpec.leftArr (m ((c : Thread nD τ).loc main_arg0)) (m ((c : Thread nD τ).loc main_arg9)) (fun l => m ((c : Thread nD τ).loc main_arg10) (ix1 l))
    ∧ V3 m ρ c main_v9_5 = Cert.PairSpec.rightArr (m ((c : Thread nD τ).loc main_arg0)) (m ((c : Thread nD τ).loc main_arg9))
    ∧ V3 m ρ c main_v9_6 = Cert.PairSpec.leftArr (m ((c : Thread nD τ).loc main_arg0)) (m ((c : Thread nD τ).loc main_arg13)) (fun l => m ((c : Thread nD τ).loc main_arg14) (ix1 l))
    ∧ V3 m ρ c main_v9_7 = Cert.PairSpec.rightArr (m ((c : Thread nD τ).loc main_arg0)) (m ((c : Thread nD τ).loc main_arg13)) := by
  obtain ⟨p0, p1, p2, p3, p4, p5, p6, p7⟩ := Host.V3_projections m ρ c
  obtain ⟨x0, x1, x2, x3, x4⟩ := Host.V1_inputs m ρ c
  obtain ⟨r5, r6, r7, r8⟩ := Host.V1_bias_rows m ρ c
  have hrow : ∀ b : S512.Idx → EReal,
      (fun l : Fin 512 => shapeCast S1x512 b shapeCasts_S512_S1x512 (ix2 (0 : Fin 1) l)) = fun l => b (ix1 l) :=
    fun b => funext fun l => Host.row_apply b 0 l
  refine ⟨?_, ?_, ?_, ?_, ?_, ?_, ?_, ?_⟩
  · rw [p0, Proj.arr_left_s (V1 m ρ) c, x0, x1, r5, hrow]
  · rw [p1, Proj.arr_right_s (V1 m ρ) c, x0, x1]
  · rw [p2, Proj.arr_left_h (V1 m ρ) c, x0, x2, r6, hrow]
  · rw [p3, Proj.arr_right_h (V1 m ρ) c, x0, x2]
  · rw [p4, Proj.arr_left_t (V1 m ρ) c, x0, x3, r7, hrow]
  · rw [p5, Proj.arr_right_t (V1 m ρ) c, x0, x3]
  · rw [p6, Proj.arr_left_l (V1 m ρ) c, x0, x4, r8, hrow]
  · rw [p7, Proj.arr_right_l (V1 m ρ) c, x0, x4]

/-- The second kernel's first output array: the first one-column head. -/
theorem out_s (c : Dev nD) : (dat1 (V3 m ρ) c).arrAt 16 cfg1.N
    = Cert.PairSpec.head1 (m ((c : Thread nD τ).loc main_arg0)) (m ((c : Thread nD τ).loc main_arg1)) (fun l => m ((c : Thread nD τ).loc main_arg2) (ix1 l))
        (m ((c : Thread nD τ).loc main_arg3)) (fun o => m ((c : Thread nD τ).loc main_arg4) (ix1 o)) := by
  obtain ⟨q0, q1, -, -, -, -, -, -⟩ := projections m ρ c
  obtain ⟨w10, -, -, -, b14, -, -, -⟩ := Host.V3_second_layer m ρ c
  have hrow : ∀ b : S1.Idx → EReal,
      (fun o : Fin 1 => shapeCast S1x1 b shapeCasts_S1_S1x1 (ix2 (0 : Fin 1) o)) = fun o => b (ix1 o) :=
    fun b => funext fun o => Host.row1_apply b 0 o
  rw [Pair.arr_s (V3 m ρ) c, q0, q1, w10, b14, hrow]
  rfl

/-- THE FIRST RESULT: the symmetrized first head. -/
theorem res_s (c : Dev nD) : (W8 m ρ c (Proc.devRef .tc main_v24) : S8x128x128.Idx → EReal)
    = Host.tail (Cert.PairSpec.head1 (m ((c : Thread nD τ).loc main_arg0)) (m ((c : Thread nD τ).loc main_arg1)) (fun l => m ((c : Thread nD τ).loc main_arg2) (ix1 l))
        (m ((c : Thread nD τ).loc main_arg3)) (fun o => m ((c : Thread nD τ).loc main_arg4) (ix1 o))) := by
  rw [Host.W8_first m ρ c, out_s m ρ c]

/-- THE SECOND RESULT: the second one-column head. -/
theorem res_h (c : Dev nD) : (W8 m ρ c (Proc.devRef .tc main_v18_1) : S8x128x128.Idx → EReal)
    = Cert.PairSpec.head1 (m ((c : Thread nD τ).loc main_arg0)) (m ((c : Thread nD τ).loc main_arg5)) (fun l => m ((c : Thread nD τ).loc main_arg6) (ix1 l))
        (m ((c : Thread nD τ).loc main_arg7)) (fun o => m ((c : Thread nD τ).loc main_arg8) (ix1 o)) := by
  obtain ⟨h1, -, -⟩ := Host.W8_last_three m ρ c
  obtain ⟨-, -, q2, q3, -, -, -, -⟩ := projections m ρ c
  obtain ⟨-, w11, -, -, -, b15, -, -⟩ := Host.V3_second_layer m ρ c
  have hrow : ∀ b : S1.Idx → EReal,
      (fun o : Fin 1 => shapeCast S1x1 b shapeCasts_S1_S1x1 (ix2 (0 : Fin 1) o)) = fun o => b (ix1 o) :=
    fun b => funext fun o => Host.row1_apply b 0 o
  rw [h1, Pair.arr_h (V3 m ρ) c, q2, q3, w11, b15, hrow]
  rfl

/-- THE THIRD RESULT: the third one-column head. -/
theorem res_t (c : Dev nD) : (W8 m ρ c (Proc.devRef .tc main_v18_2) : S8x128x128.Idx → EReal)
    = Cert.PairSpec.head1 (m ((c : Thread nD τ).loc main_arg0)) (m ((c : Thread nD τ).loc main_arg9)) (fun l => m ((c : Thread nD τ).loc main_arg10) (ix1 l))
        (m ((c : Thread nD τ).loc main_arg11)) (fun o => m ((c : Thread nD τ).loc main_arg12) (ix1 o)) := by
  obtain ⟨-, h2, -⟩ := Host.W8_last_three m ρ c
  obtain ⟨-, -, -, -, q4, q5, -, -⟩ := projections m ρ c
  obtain ⟨-, -, w12, -, -, -, b16, -⟩ := Host.V3_second_layer m ρ c
  have hrow : ∀ b : S1.Idx → EReal,
      (fun o : Fin 1 => shapeCast S1x1 b shapeCasts_S1_S1x1 (ix2 (0 : Fin 1) o)) = fun o => b (ix1 o) :=
    fun b => funext fun o => Host.row1_apply b 0 o
  rw [h2, Pair.arr_t (V3 m ρ) c, q4, q5, w12, b16, hrow]
  rfl

/-- THE FOURTH RESULT: the fifty-column head. -/
theorem res_l (c : Dev nD) : (W8 m ρ c (Proc.devRef .tc main_v18_3) : S8x128x128x50.Idx → EReal)
    = Cert.PairSpec.head50 (m ((c : Thread nD τ).loc main_arg0)) (m ((c : Thread nD τ).loc main_arg13)) (fun l => m ((c : Thread nD τ).loc main_arg14) (ix1 l))
        (m ((c : Thread nD τ).loc main_arg15)) (fun o => m ((c : Thread nD τ).loc main_arg16) (ix1 o)) := by
  obtain ⟨-, -, h3⟩ := Host.W8_last_three m ρ c
  obtain ⟨-, -, -, -, -, -, q6, q7⟩ := projections m ρ c
  obtain ⟨-, -, -, w13, -, -, -, b17⟩ := Host.V3_second_layer m ρ c
  have hrow : ∀ b : S50.Idx → EReal,
      (fun o : Fin 50 => shapeCast S1x50 b shapeCasts_S50_S1x50 (ix2 (0 : Fin 1) o)) = fun o => b (ix1 o) :=
    fun b => funext fun o => Host.row50_apply b 0 o
  rw [h3, Pair.arr_l (V3 m ρ) c, q6, q7, w13, b17, hrow]
  rfl

end Cert.KernelIdeal.Results

end
-- ==== Proof.RefValue.lean ====
/-
  The plain-jnp program's four results as the specification's functions of its arguments.

  Each head is computed as: the two contractions of the token features with the halves of W1, broadcast over the
  column and the row token, added, the bias added LAST, tanh, the contraction with W2, the second bias. Read at an
  index this is Σ_l tanh (projTop + projBot + b1[l]) · W2[l, o] + b2[o], which equals the specification's entry
  (bias folded into "left") by commutativity of addition on the extended reals.
-/
import proofs.«404877_j44659069943968_3_alg».proof.Proof.RefRead
import proofs.«404877_j44659069943968_3_alg».proof.Proof.PairSpec

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

/-! ## The one-column head: its stages from the two slices of W1 to the pre-activation -/

/-- Σ_k x[b, i, k] · W1[k, l]: the contraction with the sliced top half reads W1 at row k. -/
theorem top1 (x : (⟨S8x128x512, .f32⟩ : BufTy).Contents (Elt Ideal)) (W1 : (⟨S1024x512, .f32⟩ : BufTy).Contents (Elt Ideal)) (j : S8x128x512.Idx) :
    ReadP.val_main_v26 (F := Ideal) x W1 j = Cert.PairSpec.projTop x W1 (j 0) (j 1) (j 2) := by
  rw [ReadP.val_main_v26_apply]
  unfold Cert.PairSpec.projTop
  refine Finset.sum_congr rfl fun k _ => ?_
  rw [ReadP.val_main_v24_apply]
  have e1 : ReadP.lidx_main_v26 j k = ix3 (j 0) (j 1) k := funext fun a => Fin.ext (by
    match a with | ⟨0, _⟩ => rfl | ⟨1, _⟩ => rfl | ⟨2, _⟩ => rfl)
  have e2 : ReadP.idx_main_v24 (ReadP.ridx_main_v26 j k) = ix2 (Cert.PairSpec.topRow k) (j 2) := funext fun a => Fin.ext (by
    match a with | ⟨0, _⟩ => rfl | ⟨1, _⟩ => rfl)
  exact congrArg₂ (· * ·) (congrArg x e1) (congrArg W1 e2)

/-- Σ_k x[b, j, k] · W1[512 + k, l]: the slice of the bottom half shifts the row by 512. -/
theorem bot1 (x : (⟨S8x128x512, .f32⟩ : BufTy).Contents (Elt Ideal)) (W1 : (⟨S1024x512, .f32⟩ : BufTy).Contents (Elt Ideal)) (j : S8x128x512.Idx) :
    ReadP.val_main_v27 (F := Ideal) x W1 j = Cert.PairSpec.projBot x W1 (j 0) (j 1) (j 2) := by
  rw [ReadP.val_main_v27_apply]
  unfold Cert.PairSpec.projBot
  refine Finset.sum_congr rfl fun k _ => ?_
  rw [ReadP.val_main_v25_apply]
  have e1 : ReadP.lidx_main_v27 j k = ix3 (j 0) (j 1) k := funext fun a => Fin.ext (by
    match a with | ⟨0, _⟩ => rfl | ⟨1, _⟩ => rfl | ⟨2, _⟩ => rfl)
  have e2 : ReadP.idx_main_v25 (ReadP.ridx_main_v27 j k) = ix2 (Cert.PairSpec.botRow k) (j 2) := funext fun a => Fin.ext (by
    match a with | ⟨0, _⟩ => rfl | ⟨1, _⟩ => rfl)
  exact congrArg₂ (· * ·) (congrArg x e1) (congrArg W1 e2)

/-- The pre-activation at (b, i, j, l): the two broadcasts re-address the projections, the bias is added last. -/
theorem pre1 (x : (⟨S8x128x512, .f32⟩ : BufTy).Contents (Elt Ideal)) (W1 : (⟨S1024x512, .f32⟩ : BufTy).Contents (Elt Ideal))
    (b1 : (⟨S512, .f32⟩ : BufTy).Contents (Elt Ideal)) (b : Fin 8) (p q : Fin 128) (l : Fin 512) :
    ReadP.val_main_v35 (F := Ideal) x W1 b1 (ix4 b p q l)
      = Cert.PairSpec.projTop x W1 b p l + Cert.PairSpec.projBot x W1 b q l + b1 (ix1 l) := by
  rw [ReadP.val_main_v35_apply, ReadP.val_main_v32_apply, ReadP.val_main_v30_apply, ReadP.val_main_v28_apply, top1,
    ReadP.val_main_v31_apply, ReadP.val_main_v29_apply, bot1, ReadP.val_main_v34_apply, ReadP.val_main_v33_apply,
    Ideal.addf_def, Ideal.addf_def]
  have e : ReadP.idx_main_v33 (ReadP.idx_main_v34 (ix4 b p q l)) = ix1 l := funext fun a => Fin.ext (by
    match a with | ⟨0, _⟩ => rfl)
  rw [e]
  rfl

/-- A one-column head of the reference (stated over the second head's stages, at any arguments). -/
theorem head1_ref (x : (⟨S8x128x512, .f32⟩ : BufTy).Contents (Elt Ideal)) (W1 : (⟨S1024x512, .f32⟩ : BufTy).Contents (Elt Ideal))
    (b1 : (⟨S512, .f32⟩ : BufTy).Contents (Elt Ideal)) (W2 : (⟨S512x1, .f32⟩ : BufTy).Contents (Elt Ideal))
    (b2 : (⟨S1, .f32⟩ : BufTy).Contents (Elt Ideal)) :
    ReadP.val_main_v41 (F := Ideal) x W1 b1 W2 b2
      = Cert.PairSpec.head1 x W1 (fun l => b1 (ix1 l)) W2 (fun o => b2 (ix1 o)) := by
  funext i
  obtain ⟨b, p, q, rfl⟩ : ∃ b p q, i = ix3 b p q := ⟨i 0, i 1, i 2, eq_ix3 i⟩
  have hb := b.isLt
  have hp := p.isLt
  have hq := q.isLt
  -- dropping the trailing unit axis: the row-major position of (b, i, j) splits back into (b, i, j, 0)
  have e41 : ReadP.idx_main_v41 (ix3 b p q) = ix4 b p q (0 : Fin 1) := funext fun a => Fin.ext (by
    match a with
    | ⟨0, _⟩ => show ((b.val * 128 + p.val) * 128 + q.val) / 16384 = b.val; omega
    | ⟨1, _⟩ => show ((b.val * 128 + p.val) * 128 + q.val) / 128 % 128 = p.val; omega
    | ⟨2, _⟩ => show ((b.val * 128 + p.val) * 128 + q.val) / 1 % 128 = q.val; omega
    | ⟨3, _⟩ => rfl)
  rw [ReadP.val_main_v41_apply, e41, ReadP.val_main_v40_apply, ReadP.val_main_v37_apply, ReadP.val_main_v39_apply,
    ReadP.val_main_v38_apply, Ideal.addf_def]
  refine Eq.trans ?_ (Cert.PairSpec.headEntry_bias_last x W1 (fun l => b1 (ix1 l)) W2 (fun o => b2 (ix1 o)) b p q 0)
  refine congrArg₂ (· + ·) (Finset.sum_congr rfl fun l _ => ?_) ?_
  · rw [ReadP.val_main_v36_apply, Ideal.hostUnary_tanh_def]
    have el : ReadP.lidx_main_v37 (ix4 b p q (0 : Fin 1)) l = ix4 b p q l := funext fun a => Fin.ext (by
      match a with | ⟨0, _⟩ => rfl | ⟨1, _⟩ => rfl | ⟨2, _⟩ => rfl | ⟨3, _⟩ => rfl)
    have er : ReadP.ridx_main_v37 (ix4 b p q (0 : Fin 1)) l = ix2 l (0 : Fin 1) := funext fun a => Fin.ext (by
      match a with | ⟨0, _⟩ => rfl | ⟨1, _⟩ => rfl)
    rw [el, er, pre1]
  · exact congrArg b2 (funext fun a => Fin.ext (by match a with | ⟨0, _⟩ => rfl))

/-! ## The fifty-column head: the same stages over its own arguments -/

/-- Σ_k x[b, i, k] · W1[k, l]: the contraction with the sliced top half reads W1 at row k. -/
theorem top50 (x : (⟨S8x128x512, .f32⟩ : BufTy).Contents (Elt Ideal)) (W1 : (⟨S1024x512, .f32⟩ : BufTy).Contents (Elt Ideal)) (j : S8x128x512.Idx) :
    ReadP.val_main_v62 (F := Ideal) x W1 j = Cert.PairSpec.projTop x W1 (j 0) (j 1) (j 2) := by
  rw [ReadP.val_main_v62_apply]
  unfold Cert.PairSpec.projTop
  refine Finset.sum_congr rfl fun k _ => ?_
  rw [ReadP.val_main_v60_apply]
  have e1 : ReadP.lidx_main_v62 j k = ix3 (j 0) (j 1) k := funext fun a => Fin.ext (by
    match a with | ⟨0, _⟩ => rfl | ⟨1, _⟩ => rfl | ⟨2, _⟩ => rfl)
  have e2 : ReadP.idx_main_v60 (ReadP.ridx_main_v62 j k) = ix2 (Cert.PairSpec.topRow k) (j 2) := funext fun a => Fin.ext (by
    match a with | ⟨0, _⟩ => rfl | ⟨1, _⟩ => rfl)
  exact congrArg₂ (· * ·) (congrArg x e1) (congrArg W1 e2)

/-- Σ_k x[b, j, k] · W1[512 + k, l]: the slice of the bottom half shifts the row by 512. -/
theorem bot50 (x : (⟨S8x128x512, .f32⟩ : BufTy).Contents (Elt Ideal)) (W1 : (⟨S1024x512, .f32⟩ : BufTy).Contents (Elt Ideal)) (j : S8x128x512.Idx) :
    ReadP.val_main_v63 (F := Ideal) x W1 j = Cert.PairSpec.projBot x W1 (j 0) (j 1) (j 2) := by
  rw [ReadP.val_main_v63_apply]
  unfold Cert.PairSpec.projBot
  refine Finset.sum_congr rfl fun k _ => ?_
  rw [ReadP.val_main_v61_apply]
  have e1 : ReadP.lidx_main_v63 j k = ix3 (j 0) (j 1) k := funext fun a => Fin.ext (by
    match a with | ⟨0, _⟩ => rfl | ⟨1, _⟩ => rfl | ⟨2, _⟩ => rfl)
  have e2 : ReadP.idx_main_v61 (ReadP.ridx_main_v63 j k) = ix2 (Cert.PairSpec.botRow k) (j 2) := funext fun a => Fin.ext (by
    match a with | ⟨0, _⟩ => rfl | ⟨1, _⟩ => rfl)
  exact congrArg₂ (· * ·) (congrArg x e1) (congrArg W1 e2)

/-- The pre-activation at (b, i, j, l): the two broadcasts re-address the projections, the bias is added last. -/
theorem pre50 (x : (⟨S8x128x512, .f32⟩ : BufTy).Contents (Elt Ideal)) (W1 : (⟨S1024x512, .f32⟩ : BufTy).Contents (Elt Ideal))
    (b1 : (⟨S512, .f32⟩ : BufTy).Contents (Elt Ideal)) (b : Fin 8) (p q : Fin 128) (l : Fin 512) :
    ReadP.val_main_v71 (F := Ideal) x W1 b1 (ix4 b p q l)
      = Cert.PairSpec.projTop x W1 b p l + Cert.PairSpec.projBot x W1 b q l + b1 (ix1 l) := by
  rw [ReadP.val_main_v71_apply, ReadP.val_main_v68_apply, ReadP.val_main_v66_apply, ReadP.val_main_v64_apply, top50,
    ReadP.val_main_v67_apply, ReadP.val_main_v65_apply, bot50, ReadP.val_main_v70_apply, ReadP.val_main_v69_apply,
    Ideal.addf_def, Ideal.addf_def]
  have e : ReadP.idx_main_v69 (ReadP.idx_main_v70 (ix4 b p q l)) = ix1 l := funext fun a => Fin.ext (by
    match a with | ⟨0, _⟩ => rfl)
  rw [e]
  rfl

/-- The fifty-column head of the reference. -/
theorem head50_ref (x : (⟨S8x128x512, .f32⟩ : BufTy).Contents (Elt Ideal)) (W1 : (⟨S1024x512, .f32⟩ : BufTy).Contents (Elt Ideal))
    (b1 : (⟨S512, .f32⟩ : BufTy).Contents (Elt Ideal)) (W2 : (⟨S512x50, .f32⟩ : BufTy).Contents (Elt Ideal))
    (b2 : (⟨S50, .f32⟩ : BufTy).Contents (Elt Ideal)) :
    ReadP.val_main_v76 (F := Ideal) x W1 b1 W2 b2
      = Cert.PairSpec.head50 x W1 (fun l => b1 (ix1 l)) W2 (fun o => b2 (ix1 o)) := by
  funext i
  obtain ⟨b, p, q, o, rfl⟩ : ∃ b p q o, i = ix4 b p q o := ⟨i 0, i 1, i 2, i 3, eq_ix4 i⟩
  rw [ReadP.val_main_v76_apply, ReadP.val_main_v73_apply, ReadP.val_main_v75_apply, ReadP.val_main_v74_apply, Ideal.addf_def]
  refine Eq.trans ?_ (Cert.PairSpec.headEntry_bias_last x W1 (fun l => b1 (ix1 l)) W2 (fun o => b2 (ix1 o)) b p q o)
  refine congrArg₂ (· + ·) (Finset.sum_congr rfl fun l _ => ?_) ?_
  · rw [ReadP.val_main_v72_apply, Ideal.hostUnary_tanh_def]
    have el : ReadP.lidx_main_v73 (ix4 b p q o) l = ix4 b p q l := funext fun a => Fin.ext (by
      match a with | ⟨0, _⟩ => rfl | ⟨1, _⟩ => rfl | ⟨2, _⟩ => rfl | ⟨3, _⟩ => rfl)
    have er : ReadP.ridx_main_v73 (ix4 b p q o) l = ix2 l o := funext fun a => Fin.ext (by
      match a with | ⟨0, _⟩ => rfl | ⟨1, _⟩ => rfl)
    rw [el, er, pre50]
  · exact congrArg b2 (funext fun a => Fin.ext (by match a with | ⟨0, _⟩ => rfl))

end Cert.ReferenceIdeal.RefValue

end
-- ==== Proof.RefResults.lean ====
/-
  The plain-jnp program's four results as the specification's functions, the first under the symmetrization.

  The second and third results are one-column heads; the first is a one-column head followed by the host's last
  operations ( triu(Xᵀ) + (triu(Xᵀ, 1))ᵀ )ᵀ, named as one function and never opened; the fourth is the fifty-column
  head. The three one-column heads are the same composition of operations at different arguments.
-/
import proofs.«404877_j44659069943968_3_alg».proof.Proof.RefValue

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

/-- The mask "row index + k ≥ column index" over [8, 128, 128], the same on every batch row. -/
def maskGe (k : BitVec 32) : IVec S8x128x128 1 :=
  broadcastInDim S8x128x128 ![1, 2] bcast_S128x128_S8x128x128_1_2
    (cmpi .sge (addi (iotaInDim S128x128 32 0) (broadcastInDim S128x128 ![] bcast_S_S128x128 (constantI S_ 32 k)))
      (iotaInDim S128x128 32 1))

/-- The zero array. -/
def zeros : FVec Ideal S8x128x128 .f32 :=
  broadcastInDim S8x128x128 ![] bcast_S_S8x128x128 (constant (F := Ideal) S_ .f32 0x00000000#32)

/-- Transposition in the last two axes. -/
def swap12 (X : FVec Ideal S8x128x128 .f32) : FVec Ideal S8x128x128 .f32 :=
  transpose S8x128x128 [0, 2, 1] X transposes_S8x128x128_S8x128x128_0_2_1

/-- The symmetrization the program applies to the first head's output. -/
def tail (X : FVec Ideal S8x128x128 .f32) : FVec Ideal S8x128x128 .f32 :=
  swap12 (addf (select (maskGe 4294967295#32) zeros (swap12 X)) (swap12 (select (maskGe 0#32) zeros (swap12 X))))

variable (x : (⟨S8x128x512, .f32⟩ : BufTy).Contents (Elt Ideal)) (W1 : (⟨S1024x512, .f32⟩ : BufTy).Contents (Elt Ideal))
  (b1 : (⟨S512, .f32⟩ : BufTy).Contents (Elt Ideal))

/-- The first result: the symmetrization of the first one-column head. -/
theorem res0_eq (W2 : (⟨S512x1, .f32⟩ : BufTy).Contents (Elt Ideal)) (b2 : (⟨S1, .f32⟩ : BufTy).Contents (Elt Ideal)) :
    ReadP.val_main_v23 (F := Ideal) x W1 b1 W2 b2
      = tail (Cert.PairSpec.head1 x W1 (fun l => b1 (ix1 l)) W2 (fun o => b2 (ix1 o))) := by
  rw [← head1_ref]; rfl

/-- The second result: a one-column head. -/
theorem res1_eq (W2 : (⟨S512x1, .f32⟩ : BufTy).Contents (Elt Ideal)) (b2 : (⟨S1, .f32⟩ : BufTy).Contents (Elt Ideal)) :
    ReadP.val_main_v41 (F := Ideal) x W1 b1 W2 b2
      = Cert.PairSpec.head1 x W1 (fun l => b1 (ix1 l)) W2 (fun o => b2 (ix1 o)) := head1_ref x W1 b1 W2 b2

/-- The third result: a one-column head. -/
theorem res2_eq (W2 : (⟨S512x1, .f32⟩ : BufTy).Contents (Elt Ideal)) (b2 : (⟨S1, .f32⟩ : BufTy).Contents (Elt Ideal)) :
    ReadP.val_main_v59 (F := Ideal) x W1 b1 W2 b2
      = Cert.PairSpec.head1 x W1 (fun l => b1 (ix1 l)) W2 (fun o => b2 (ix1 o)) := by
  rw [← head1_ref]; rfl

/-- The fourth result: the fifty-column head. -/
theorem res3_eq (W2 : (⟨S512x50, .f32⟩ : BufTy).Contents (Elt Ideal)) (b2 : (⟨S50, .f32⟩ : BufTy).Contents (Elt Ideal)) :
    ReadP.val_main_v76 (F := Ideal) x W1 b1 W2 b2
      = Cert.PairSpec.head50 x W1 (fun l => b1 (ix1 l)) W2 (fun o => b2 (ix1 o)) := head50_ref x W1 b1 W2 b2

end Cert.ReferenceIdeal.RefValue

end
-- ==== Proof.RefFold.lean ====
/-
  The plain-jnp program's results read off the fold of its operations, stretch by stretch.

  The program is a straight line of 95 host operations. Its run leaves every buffer at the fold of the operations
  over the launch contents. The list falls into seven stretches: the first head up to its transposition; the two
  triangular masks; transpose-add-transpose; then the three other heads. A stretch writes only its own buffers, so
  a result is read off its own stretch, the buffers it takes over from earlier stretches being unchanged since, and
  the arguments unchanged throughout.
-/
import proofs.«404877_j44659069943968_3_alg».proof.Proof.RefResults
import Idealize.ShloMosaic.Lib.Pipeline.Frame
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx
open Cert.ReferenceIdeal.ValueP

/-- No operation of the named stretch writes the buffer, so it keeps its contents across the stretch. -/
local macro "kept_across" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- Contents moved to a typed reference's buffer type and back are unchanged. -/
theorem ofBuf_toBuf {T : BufTy} (x : TRef sig T) (v : T.Contents (Elt Ideal)) : x.ofBuf (x.toBuf v) = v := by
  obtain ⟨r, h, h1, h2⟩ := x
  subst h
  rfl

/-- At the literal references of the two triangular masks' operand and results the move is the identity. -/
theorem ofBuf_v18 (u : ((main_v18 : Ref sig .tc).ty).Contents (Elt Ideal)) :
    (TRef.of (T := ⟨S8x128x128, .f32⟩) main_v18).ofBuf u = u := rfl
theorem toBuf_v19 (v : (⟨S8x128x128, .f32⟩ : BufTy).Contents (Elt Ideal)) :
    (TRef.of (T := ⟨S8x128x128, .f32⟩) main_v19).toBuf v = v := rfl
theorem toBuf_v20 (v : (⟨S8x128x128, .f32⟩ : BufTy).Contents (Elt Ideal)) :
    (TRef.of (T := ⟨S8x128x128, .f32⟩) main_v20).toBuf v = v := rfl

variable (X : Valuation τ sig (Elt Ideal))

/-! ## Each stretch's own result -/

set_option maxHeartbeats 8000000 in
/-- The first stretch leaves the first head, transposed. -/
theorem fold_s :
    StableHlo.after (ops_s (F := Ideal)) X (Proc.devRef .tc main_v18)
      = ReadP.val_main_v18 (F := Ideal) (X (Proc.devRef .tc main_arg0)) (X (Proc.devRef .tc main_arg1)) (X (Proc.devRef .tc main_arg2))
          (X (Proc.devRef .tc main_arg3)) (X (Proc.devRef .tc main_arg4)) := by
  dsimp only [ops_s]; after_results; rfl

/-- The first triangular mask's stretch. -/
theorem fold_triu :
    (StableHlo.after (ops_triu (F := Ideal)) X (Proc.devRef .tc main_v19) : S8x128x128.Idx → EReal)
      = select (maskGe 4294967295#32) zeros (X (Proc.devRef .tc main_v18)) := by
  dsimp only [ops_triu]; after_results; simp only [ofBuf_toBuf]; rw [toBuf_v19, ofBuf_v18]; rfl

theorem triu_keeps :
    StableHlo.after (ops_triu (F := Ideal)) X (Proc.devRef .tc main_v18) = X (Proc.devRef .tc main_v18) := by
  kept_across ops_triu

/-- The second triangular mask's stretch. -/
theorem fold_triu1 :
    (StableHlo.after (ops_triu1 (F := Ideal)) X (Proc.devRef .tc main_v20) : S8x128x128.Idx → EReal)
      = select (maskGe 0#32) zeros (X (Proc.devRef .tc main_v18)) := by
  dsimp only [ops_triu1]; after_results; simp only [ofBuf_toBuf]; rw [toBuf_v20, ofBuf_v18]; rfl

theorem triu1_keeps :
    StableHlo.after (ops_triu1 (F := Ideal)) X (Proc.devRef .tc main_v19) = X (Proc.devRef .tc main_v19) := by
  kept_across ops_triu1

/-- Transpose, add, transpose. -/
theorem fold_sum :
    (StableHlo.after (ops_sum (F := Ideal)) X (Proc.devRef .tc main_v23) : S8x128x128.Idx → EReal)
      = swap12 (addf (X (Proc.devRef .tc main_v19) : S8x128x128.Idx → EReal) (swap12 (X (Proc.devRef .tc main_v20)))) := by
  dsimp only [ops_sum]; after_results; rfl

set_option maxHeartbeats 8000000 in
/-- The second, third and fourth heads' stretches. -/
theorem fold_h :
    StableHlo.after (ops_h (F := Ideal)) X (Proc.devRef .tc main_v41)
      = ReadP.val_main_v41 (F := Ideal) (X (Proc.devRef .tc main_arg0)) (X (Proc.devRef .tc main_arg5)) (X (Proc.devRef .tc main_arg6))
          (X (Proc.devRef .tc main_arg7)) (X (Proc.devRef .tc main_arg8)) := by
  dsimp only [ops_h]; after_results; rfl
set_option maxHeartbeats 8000000 in
theorem fold_t :
    StableHlo.after (ops_t (F := Ideal)) X (Proc.devRef .tc main_v59)
      = ReadP.val_main_v59 (F := Ideal) (X (Proc.devRef .tc main_arg0)) (X (Proc.devRef .tc main_arg9)) (X (Proc.devRef .tc main_arg10))
          (X (Proc.devRef .tc main_arg11)) (X (Proc.devRef .tc main_arg12)) := by
  dsimp only [ops_t]; after_results; rfl
set_option maxHeartbeats 8000000 in
theorem fold_l :
    StableHlo.after (ops_l (F := Ideal)) X (Proc.devRef .tc main_v76)
      = ReadP.val_main_v76 (F := Ideal) (X (Proc.devRef .tc main_arg0)) (X (Proc.devRef .tc main_arg13)) (X (Proc.devRef .tc main_arg14))
          (X (Proc.devRef .tc main_arg15)) (X (Proc.devRef .tc main_arg16)) := by
  dsimp only [ops_l]; after_results; rfl

/-! ## What each later stretch leaves alone -/

/-- The operations before the second head, as one list; those before the third; those before the fourth. -/
abbrev pre_h : List (HloOp τ sig (Elt Ideal)) := ops_s ++ (ops_triu ++ (ops_triu1 ++ ops_sum))
abbrev pre_t : List (HloOp τ sig (Elt Ideal)) := ops_s ++ (ops_triu ++ (ops_triu1 ++ (ops_sum ++ ops_h)))
abbrev pre_l : List (HloOp τ sig (Elt Ideal)) := ops_s ++ (ops_triu ++ (ops_triu1 ++ (ops_sum ++ (ops_h ++ ops_t))))
/-- The operations after the first result is written; after the second; after the third. -/
abbrev post_s : List (HloOp τ sig (Elt Ideal)) := ops_h ++ (ops_t ++ ops_l)
abbrev post_h : List (HloOp τ sig (Elt Ideal)) := ops_t ++ ops_l

theorem ops_cut_s : (ops : List (HloOp τ sig (Elt Ideal))) = ops_s ++ (ops_triu ++ (ops_triu1 ++ (ops_sum ++ post_s))) := rfl
theorem ops_cut_h : (ops : List (HloOp τ sig (Elt Ideal))) = pre_h ++ (ops_h ++ post_h) := rfl
theorem ops_cut_t : (ops : List (HloOp τ sig (Elt Ideal))) = pre_t ++ (ops_t ++ ops_l) := rfl
theorem ops_cut_l : (ops : List (HloOp τ sig (Elt Ideal))) = pre_l ++ ops_l := rfl

/-- A list of operations spelt as appended stretches, for the tactic above to open. -/
local macro "kept_across_appended" l:ident : tactic =>
  `(tactic| exact StableHlo.after_of_forall_not_mem _ _ (List.forall_iff_forall_mem.mp (by
      simp only [$l:ident, ops_s, ops_triu, ops_triu1, ops_sum, ops_h, ops_t, ops_l, List.cons_append, List.nil_append,
        List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

set_option maxHeartbeats 4000000 in
/-- The first result's buffer is written by none of the later heads. -/
theorem post_s_keeps : StableHlo.after post_s X (Proc.devRef .tc main_v23) = X (Proc.devRef .tc main_v23) := by
  kept_across_appended post_s
set_option maxHeartbeats 4000000 in
/-- The second result's buffer is written by neither later head. -/
theorem post_h_keeps : StableHlo.after post_h X (Proc.devRef .tc main_v41) = X (Proc.devRef .tc main_v41) := by
  kept_across_appended post_h
/-- The third result's buffer is not written by the last head. -/
theorem post_t_keeps : StableHlo.after (ops_l (F := Ideal)) X (Proc.devRef .tc main_v59) = X (Proc.devRef .tc main_v59) := by
  kept_across ops_l

set_option maxHeartbeats 8000000 in
/-- The second head's five arguments are written by no earlier operation. -/
theorem pre_h_keeps :
    StableHlo.after pre_h X (Proc.devRef .tc main_arg0) = X (Proc.devRef .tc main_arg0)
    ∧ StableHlo.after pre_h X (Proc.devRef .tc main_arg5) = X (Proc.devRef .tc main_arg5)
    ∧ StableHlo.after pre_h X (Proc.devRef .tc main_arg6) = X (Proc.devRef .tc main_arg6)
    ∧ StableHlo.after pre_h X (Proc.devRef .tc main_arg7) = X (Proc.devRef .tc main_arg7)
    ∧ StableHlo.after pre_h X (Proc.devRef .tc main_arg8) = X (Proc.devRef .tc main_arg8) := by
  refine ⟨?_, ?_, ?_, ?_, ?_⟩ <;> kept_across_appended pre_h

set_option maxHeartbeats 12000000 in
/-- The third head's five arguments are written by no earlier operation. -/
theorem pre_t_keeps :
    StableHlo.after pre_t X (Proc.devRef .tc main_arg0) = X (Proc.devRef .tc main_arg0)
    ∧ StableHlo.after pre_t X (Proc.devRef .tc main_arg9) = X (Proc.devRef .tc main_arg9)
    ∧ StableHlo.after pre_t X (Proc.devRef .tc main_arg10) = X (Proc.devRef .tc main_arg10)
    ∧ StableHlo.after pre_t X (Proc.devRef .tc main_arg11) = X (Proc.devRef .tc main_arg11)
    ∧ StableHlo.after pre_t X (Proc.devRef .tc main_arg12) = X (Proc.devRef .tc main_arg12) := by
  refine ⟨?_, ?_, ?_, ?_, ?_⟩ <;> kept_across_appended pre_t

set_option maxHeartbeats 16000000 in
/-- The fourth head's five arguments are written by no earlier operation. -/
theorem pre_l_keeps :
    StableHlo.after pre_l X (Proc.devRef .tc main_arg0) = X (Proc.devRef .tc main_arg0)
    ∧ StableHlo.after pre_l X (Proc.devRef .tc main_arg13) = X (Proc.devRef .tc main_arg13)
    ∧ StableHlo.after pre_l X (Proc.devRef .tc main_arg14) = X (Proc.devRef .tc main_arg14)
    ∧ StableHlo.after pre_l X (Proc.devRef .tc main_arg15) = X (Proc.devRef .tc main_arg15)
    ∧ StableHlo.after pre_l X (Proc.devRef .tc main_arg16) = X (Proc.devRef .tc main_arg16) := by
  refine ⟨?_, ?_, ?_, ?_, ?_⟩ <;> kept_across_appended pre_l

/-! ## The four results as the specification's functions -/

/-- THE FIRST RESULT: the symmetrized first head. -/
theorem fold_res0 :
    (StableHlo.after (ops (F := Ideal)) X (Proc.devRef .tc main_v23) : S8x128x128.Idx → EReal)
      = tail (Cert.PairSpec.head1 (X (Proc.devRef .tc main_arg0)) (X (Proc.devRef .tc main_arg1)) (fun l => X (Proc.devRef .tc main_arg2) (ix1 l))
          (X (Proc.devRef .tc main_arg3)) (fun o => X (Proc.devRef .tc main_arg4) (ix1 o))) := by
  rw [ops_cut_s, StableHlo.after_append, StableHlo.after_append, StableHlo.after_append, StableHlo.after_append]
  rw [post_s_keeps, fold_sum, triu1_keeps, fold_triu1, fold_triu, triu_keeps, fold_s, ← res0_eq]
  rfl

/-- THE SECOND RESULT: the second head. -/
theorem fold_res1 :
    (StableHlo.after (ops (F := Ideal)) X (Proc.devRef .tc main_v41) : S8x128x128.Idx → EReal)
      = Cert.PairSpec.head1 (X (Proc.devRef .tc main_arg0)) (X (Proc.devRef .tc main_arg5)) (fun l => X (Proc.devRef .tc main_arg6) (ix1 l))
          (X (Proc.devRef .tc main_arg7)) (fun o => X (Proc.devRef .tc main_arg8) (ix1 o)) := by
  obtain ⟨k0, k5, k6, k7, k8⟩ := pre_h_keeps X
  rw [ops_cut_h, StableHlo.after_append, StableHlo.after_append]
  rw [post_h_keeps, fold_h, k0, k5, k6, k7, k8, res1_eq]

/-- THE THIRD RESULT: the third head. -/
theorem fold_res2 :
    (StableHlo.after (ops (F := Ideal)) X (Proc.devRef .tc main_v59) : S8x128x128.Idx → EReal)
      = Cert.PairSpec.head1 (X (Proc.devRef .tc main_arg0)) (X (Proc.devRef .tc main_arg9)) (fun l => X (Proc.devRef .tc main_arg10) (ix1 l))
          (X (Proc.devRef .tc main_arg11)) (fun o => X (Proc.devRef .tc main_arg12) (ix1 o)) := by
  obtain ⟨k0, k9, k10, k11, k12⟩ := pre_t_keeps X
  rw [ops_cut_t, StableHlo.after_append, StableHlo.after_append]
  rw [post_t_keeps, fold_t, k0, k9, k10, k11, k12, res2_eq]

/-- THE FOURTH RESULT: the fourth head. -/
theorem fold_res3 :
    (StableHlo.after (ops (F := Ideal)) X (Proc.devRef .tc main_v76) : S8x128x128x50.Idx → EReal)
      = Cert.PairSpec.head50 (X (Proc.devRef .tc main_arg0)) (X (Proc.devRef .tc main_arg13)) (fun l => X (Proc.devRef .tc main_arg14) (ix1 l))
          (X (Proc.devRef .tc main_arg15)) (fun o => X (Proc.devRef .tc main_arg16) (ix1 o)) := by
  obtain ⟨k0, k13, k14, k15, k16⟩ := pre_l_keeps X
  rw [ops_cut_l, StableHlo.after_append]
  rw [fold_l, k0, k13, k14, k15, k16, res3_eq]

set_option maxHeartbeats 64000000 in
/-- THE ARGUMENTS: no operation writes an argument. -/
theorem fold_args :
    StableHlo.after (ops (F := Ideal)) X (Proc.devRef .tc main_arg0) = X (Proc.devRef .tc main_arg0)
    ∧ StableHlo.after (ops (F := Ideal)) X (Proc.devRef .tc main_arg1) = X (Proc.devRef .tc main_arg1)
    ∧ StableHlo.after (ops (F := Ideal)) X (Proc.devRef .tc main_arg2) = X (Proc.devRef .tc main_arg2)
    ∧ StableHlo.after (ops (F := Ideal)) X (Proc.devRef .tc main_arg3) = X (Proc.devRef .tc main_arg3)
    ∧ StableHlo.after (ops (F := Ideal)) X (Proc.devRef .tc main_arg4) = X (Proc.devRef .tc main_arg4)
    ∧ StableHlo.after (ops (F := Ideal)) X (Proc.devRef .tc main_arg5) = X (Proc.devRef .tc main_arg5)
    ∧ StableHlo.after (ops (F := Ideal)) X (Proc.devRef .tc main_arg6) = X (Proc.devRef .tc main_arg6)
    ∧ StableHlo.after (ops (F := Ideal)) X (Proc.devRef .tc main_arg7) = X (Proc.devRef .tc main_arg7)
    ∧ StableHlo.after (ops (F := Ideal)) X (Proc.devRef .tc main_arg8) = X (Proc.devRef .tc main_arg8)
    ∧ StableHlo.after (ops (F := Ideal)) X (Proc.devRef .tc main_arg9) = X (Proc.devRef .tc main_arg9)
    ∧ StableHlo.after (ops (F := Ideal)) X (Proc.devRef .tc main_arg10) = X (Proc.devRef .tc main_arg10)
    ∧ StableHlo.after (ops (F := Ideal)) X (Proc.devRef .tc main_arg11) = X (Proc.devRef .tc main_arg11)
    ∧ StableHlo.after (ops (F := Ideal)) X (Proc.devRef .tc main_arg12) = X (Proc.devRef .tc main_arg12)
    ∧ StableHlo.after (ops (F := Ideal)) X (Proc.devRef .tc main_arg13) = X (Proc.devRef .tc main_arg13)
    ∧ StableHlo.after (ops (F := Ideal)) X (Proc.devRef .tc main_arg14) = X (Proc.devRef .tc main_arg14)
    ∧ StableHlo.after (ops (F := Ideal)) X (Proc.devRef .tc main_arg15) = X (Proc.devRef .tc main_arg15)
    ∧ StableHlo.after (ops (F := Ideal)) X (Proc.devRef .tc main_arg16) = X (Proc.devRef .tc main_arg16) := by
  refine ⟨?_, ?_, ?_, ?_, ?_, ?_, ?_, ?_, ?_, ?_, ?_, ?_, ?_, ?_, ?_, ?_, ?_⟩ <;> kept_across ops

end Cert.ReferenceIdeal.RefValue

end
-- ==== Proof.lean ====
/-
  The certificate of the pairwise scoring heads: the Pallas program (a projection kernel and a pairwise kernel,
  with host operations around them) against the plain-jnp program.

  Over the extended reals both programs compute, for each of four heads with first-layer parameters W1, b1 and
  second-layer parameters W2, b2,
      out[b, i, j, o] = Σ_l tanh (pre[b, i, j, l]) · W2[l, o] + b2[o],
      pre[b, i, j, l] = Σ_k x[b, i, k] · W1[k, l] + Σ_k x[b, j, k] · W1[512 + k, l] + b1[l],
  the first head's output then symmetrized by the same host operations in both. The Pallas program folds b1 into
  the first sum before the pairwise addition, the plain program adds it after: the pre-activations agree because
  addition on the extended reals is commutative and associative, so no finiteness of the inputs is used. Format
  changes are the identity and a matrix product is the plain sum of products, whatever the blocking.

  The three frames: the two kernel programs' are the generated frame certificates; the plain program's is its run
  with the results dropped. No operation was rewritten by the idealization, so "preserves" is trivial.
-/
import proofs.«404877_j44659069943968_3_alg».proof.Defs
import proofs.«404877_j44659069943968_3_alg».proof.Proof.Gen.Kernel
import proofs.«404877_j44659069943968_3_alg».proof.Proof.Gen.Kernel.Frame
import proofs.«404877_j44659069943968_3_alg».proof.Proof.Gen.KernelIdeal
import proofs.«404877_j44659069943968_3_alg».proof.Proof.Gen.KernelIdeal.Frame
import proofs.«404877_j44659069943968_3_alg».proof.Proof.Gen.ReferenceIdeal
import proofs.«404877_j44659069943968_3_alg».proof.Proof.Gen.Pre_finite_inputs
import proofs.«404877_j44659069943968_3_alg».proof.Proof.RunResults
import proofs.«404877_j44659069943968_3_alg».proof.Proof.KernelResults
import proofs.«404877_j44659069943968_3_alg».proof.Proof.RefFold
import Idealize.ShloMosaic.Adequacy
import Idealize.ShloMosaic.Init

noncomputable section

namespace Cert.Proof

open Idealize.ShloMosaic Idealize.SL.Sem Idealize.ShloMosaic.ValueIdx Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The plain program runs, and no operation of it writes an argument. -/
theorem frame_ri : Cert.frame_ReferenceIdeal := fun m ρ _ =>
  (θ_run Cert.ReferenceIdeal.defs _ _).mono (fun r h c => by
    obtain ⟨a0, a1, a2, a3, a4, a5, a6, a7, a8, a9, a10, a11, a12, a13, a14, a15, a16⟩ :=
      Cert.ReferenceIdeal.RefValue.fold_args (launchContents m c)
    exact ⟨(h c _).trans a0, (h c _).trans a1, (h c _).trans a2, (h c _).trans a3, (h c _).trans a4, (h c _).trans a5,
      (h c _).trans a6, (h c _).trans a7, (h c _).trans a8, (h c _).trans a9, (h c _).trans a10, (h c _).trans a11,
      (h c _).trans a12, (h c _).trans a13, (h c _).trans a14, (h c _).trans a15, (h c _).trans a16⟩)
    (Cert.ReferenceIdeal.ValueP.run_fold (F := Ideal) m ρ)

theorem preserves : Cert.preserves_Kernel_KernelIdeal := trivial

/-- The symmetrization is the same function in both programs' vocabularies. -/
theorem tail_eq (Y : FVec Ideal Cert.KernelIdeal.S8x128x128 .f32) :
    Cert.ReferenceIdeal.RefValue.tail Y = Cert.KernelIdeal.Host.tail Y := rfl

set_option maxHeartbeats 4000000 in
/-- Both programs end with the specification's four arrays of the arguments. -/
theorem algebraic : Cert.algebraic_KernelIdeal_ReferenceIdeal := by
  intro m ρ m' ρ' _ hagree
  refine ⟨
    fun c => Cert.KernelIdeal.Host.tail (Cert.PairSpec.head1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (fun l => m ((c.tc : Thread Cert.KernelIdeal.nD Cert.KernelIdeal.τ).loc Cert.KernelIdeal.main_arg2) (ix1 l)) (m ((c.tc : Thread Cert.KernelIdeal.nD Cert.KernelIdeal.τ).loc Cert.KernelIdeal.main_arg3)) (fun o => m ((c.tc : Thread Cert.KernelIdeal.nD Cert.KernelIdeal.τ).loc Cert.KernelIdeal.main_arg4) (ix1 o))),
    fun c => Cert.PairSpec.head1 (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (fun l => m ((c.tc : Thread Cert.KernelIdeal.nD Cert.KernelIdeal.τ).loc Cert.KernelIdeal.main_arg6) (ix1 l)) (m ((c.tc : Thread Cert.KernelIdeal.nD Cert.KernelIdeal.τ).loc Cert.KernelIdeal.main_arg7)) (fun o => m ((c.tc : Thread Cert.KernelIdeal.nD Cert.KernelIdeal.τ).loc Cert.KernelIdeal.main_arg8) (ix1 o)),
    fun c => Cert.PairSpec.head1 (m ((c.tc : Thread Cert.KernelIdeal.nD Cert.KernelIdeal.τ).loc Cert.KernelIdeal.main_arg0)) (m ((c.tc : Thread Cert.KernelIdeal.nD Cert.KernelIdeal.τ).loc Cert.KernelIdeal.main_arg9)) (fun l => m ((c.tc : Thread Cert.KernelIdeal.nD Cert.KernelIdeal.τ).loc Cert.KernelIdeal.main_arg10) (ix1 l)) (m ((c.tc : Thread Cert.KernelIdeal.nD Cert.KernelIdeal.τ).loc Cert.KernelIdeal.main_arg11)) (fun o => m ((c.tc : Thread Cert.KernelIdeal.nD Cert.KernelIdeal.τ).loc Cert.KernelIdeal.main_arg12) (ix1 o)),
    fun c => Cert.PairSpec.head50 (m ((c.tc : Thread Cert.KernelIdeal.nD Cert.KernelIdeal.τ).loc Cert.KernelIdeal.main_arg0)) (m ((c.tc : Thread Cert.KernelIdeal.nD Cert.KernelIdeal.τ).loc Cert.KernelIdeal.main_arg13)) (fun l => m ((c.tc : Thread Cert.KernelIdeal.nD Cert.KernelIdeal.τ).loc Cert.KernelIdeal.main_arg14) (ix1 l)) (m ((c.tc : Thread Cert.KernelIdeal.nD Cert.KernelIdeal.τ).loc Cert.KernelIdeal.main_arg15)) (fun o => m ((c.tc : Thread Cert.KernelIdeal.nD Cert.KernelIdeal.τ).loc Cert.KernelIdeal.main_arg16) (ix1 o)),
    ?_, ?_⟩
  · -- the Pallas program: its run with the results read off the last segment boundary, then each result's value
    exact (θ_run Cert.KernelIdeal.defs _ _).mono (fun r h c =>
      ⟨(h c).1.trans (Cert.KernelIdeal.Results.res_s m ρ c),
       (h c).2.1.trans (Cert.KernelIdeal.Results.res_h m ρ c),
       (h c).2.2.1.trans (Cert.KernelIdeal.Results.res_t m ρ c),
       (h c).2.2.2.1.trans (Cert.KernelIdeal.Results.res_l m ρ c),
       (h c).2.2.2.2⟩)
      (Cert.KernelIdeal.RunPost.run_results (F := Ideal) m ρ)
  · -- the plain program: its run with every buffer at the fold, each result read off the fold, the arguments agreeing
    refine (θ_run Cert.ReferenceIdeal.defs _ _).mono (fun r h c => ?_) (Cert.ReferenceIdeal.ValueP.run_fold (F := Ideal) m' ρ')
    obtain ⟨e0, e1, e2, e3, e4, e5, e6, e7, e8, e9, e10, e11, e12, e13, e14, e15, e16⟩ := hagree c
    obtain ⟨a0, a1, a2, a3, a4, a5, a6, a7, a8, a9, a10, a11, a12, a13, a14, a15, a16⟩ :=
      Cert.ReferenceIdeal.RefValue.fold_args (launchContents m' c)
    -- the agreement of the two launch memories, at the plain program's launch contents
    have g0 : launchContents m' c (Proc.devRef .tc Cert.ReferenceIdeal.main_arg0) = m ((c.tc : Thread Cert.KernelIdeal.nD Cert.KernelIdeal.τ).loc Cert.KernelIdeal.main_arg0) := e0
    have g1 : launchContents m' c (Proc.devRef .tc Cert.ReferenceIdeal.main_arg1) = m ((c.tc : Thread Cert.KernelIdeal.nD Cert.KernelIdeal.τ).loc Cert.KernelIdeal.main_arg1) := e1
    have g2 : launchContents m' c (Proc.devRef .tc Cert.ReferenceIdeal.main_arg2) = m ((c.tc : Thread Cert.KernelIdeal.nD Cert.KernelIdeal.τ).loc Cert.KernelIdeal.main_arg2) := e2
    have g3 : launchContents m' c (Proc.devRef .tc Cert.ReferenceIdeal.main_arg3) = m ((c.tc : Thread Cert.KernelIdeal.nD Cert.KernelIdeal.τ).loc Cert.KernelIdeal.main_arg3) := e3
    have g4 : launchContents m' c (Proc.devRef .tc Cert.ReferenceIdeal.main_arg4) = m ((c.tc : Thread Cert.KernelIdeal.nD Cert.KernelIdeal.τ).loc Cert.KernelIdeal.main_arg4) := e4
    have g5 : launchContents m' c (Proc.devRef .tc Cert.ReferenceIdeal.main_arg5) = m ((c.tc : Thread Cert.KernelIdeal.nD Cert.KernelIdeal.τ).loc Cert.KernelIdeal.main_arg5) := e5
    have g6 : launchContents m' c (Proc.devRef .tc Cert.ReferenceIdeal.main_arg6) = m ((c.tc : Thread Cert.KernelIdeal.nD Cert.KernelIdeal.τ).loc Cert.KernelIdeal.main_arg6) := e6
    have g7 : launchContents m' c (Proc.devRef .tc Cert.ReferenceIdeal.main_arg7) = m ((c.tc : Thread Cert.KernelIdeal.nD Cert.KernelIdeal.τ).loc Cert.KernelIdeal.main_arg7) := e7
    have g8 : launchContents m' c (Proc.devRef .tc Cert.ReferenceIdeal.main_arg8) = m ((c.tc : Thread Cert.KernelIdeal.nD Cert.KernelIdeal.τ).loc Cert.KernelIdeal.main_arg8) := e8
    have g9 : launchContents m' c (Proc.devRef .tc Cert.ReferenceIdeal.main_arg9) = m ((c.tc : Thread Cert.KernelIdeal.nD Cert.KernelIdeal.τ).loc Cert.KernelIdeal.main_arg9) := e9
    have g10 : launchContents m' c (Proc.devRef .tc Cert.ReferenceIdeal.main_arg10) = m ((c.tc : Thread Cert.KernelIdeal.nD Cert.KernelIdeal.τ).loc Cert.KernelIdeal.main_arg10) := e10
    have g11 : launchContents m' c (Proc.devRef .tc Cert.ReferenceIdeal.main_arg11) = m ((c.tc : Thread Cert.KernelIdeal.nD Cert.KernelIdeal.τ).loc Cert.KernelIdeal.main_arg11) := e11
    have g12 : launchContents m' c (Proc.devRef .tc Cert.ReferenceIdeal.main_arg12) = m ((c.tc : Thread Cert.KernelIdeal.nD Cert.KernelIdeal.τ).loc Cert.KernelIdeal.main_arg12) := e12
    have g13 : launchContents m' c (Proc.devRef .tc Cert.ReferenceIdeal.main_arg13) = m ((c.tc : Thread Cert.KernelIdeal.nD Cert.KernelIdeal.τ).loc Cert.KernelIdeal.main_arg13) := e13
    have g14 : launchContents m' c (Proc.devRef .tc Cert.ReferenceIdeal.main_arg14) = m ((c.tc : Thread Cert.KernelIdeal.nD Cert.KernelIdeal.τ).loc Cert.KernelIdeal.main_arg14) := e14
    have g15 : launchContents m' c (Proc.devRef .tc Cert.ReferenceIdeal.main_arg15) = m ((c.tc : Thread Cert.KernelIdeal.nD Cert.KernelIdeal.τ).loc Cert.KernelIdeal.main_arg15) := e15
    have g16 : launchContents m' c (Proc.devRef .tc Cert.ReferenceIdeal.main_arg16) = m ((c.tc : Thread Cert.KernelIdeal.nD Cert.KernelIdeal.τ).loc Cert.KernelIdeal.main_arg16) := e16
    have f0 := Cert.ReferenceIdeal.RefValue.fold_res0 (launchContents m' c)
    have f1 := Cert.ReferenceIdeal.RefValue.fold_res1 (launchContents m' c)
    have f2 := Cert.ReferenceIdeal.RefValue.fold_res2 (launchContents m' c)
    have f3 := Cert.ReferenceIdeal.RefValue.fold_res3 (launchContents m' c)
    rw [g0, g1, g2, g3, g4] at f0
    rw [g0, g5, g6, g7, g8] at f1
    rw [g0, g9, g10, g11, g12] at f2
    rw [g0, g13, g14, g15, g16] at f3
    exact ⟨(h c _).trans (f0.trans (tail_eq _)), (h c _).trans f1, (h c _).trans f2, (h c _).trans f3,
      (h c _).trans a0, (h c _).trans a1, (h c _).trans a2, (h c _).trans a3, (h c _).trans a4, (h c _).trans a5,
      (h c _).trans a6, (h c _).trans a7, (h c _).trans a8, (h c _).trans a9, (h c _).trans a10, (h c _).trans a11,
      (h c _).trans a12, (h c _).trans a13, (h c _).trans a14, (h c _).trans a15, (h c _).trans a16⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
